-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 1024]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x512x512 : Shape := ⟨3, ![1, 512, 512]⟩
abbrev S_ : Shape := ⟨0, ![]⟩

class Facts : Prop where
  bcast_S_S1x512x512 : S_.BroadcastsInDim S1x512x512 (![] : Fin 0 → Fin S1x512x512.rank)
  reducesTo_S1x512x512_S_d0_1_2 : S1x512x512.ReducesTo [0, 1, 2] S_
  h_S_ : 0 < S_.numel

variable [Facts]

def fn {F : FTy → Type} [FloatOps F] (main_arg0 : FVec F S1x512x512 .f32) : IVec S_ 1 :=
  let main_v0 : FVec F S1x512x512 .f32 := Host.absf main_arg0
  let main_cst : FVec F S_ .f32 := constant S_ .f32 0x7F800000#32
  let main_v1 : FVec F S1x512x512 .f32 := broadcastInDim S1x512x512 ![] bcast_S_S1x512x512 main_cst
  let main_v2 : IVec S1x512x512 1 := cmpf .olt main_v0 main_v1
  let main_c : IVec S_ 1 := constantI S_ 1 1#1
  let main_v3 : IVec S_ 1 := (fun x v => Host.reduce IntOp.andi x v reducesTo_S1x512x512_S_d0_1_2 h_S_) main_v2 main_c
  main_v3
-- ==== Pre_finite_inputs_ReferenceIdeal.lean ====
abbrev S2x512x1024 : Shape := ⟨3, ![2, 512, 1024]⟩
abbrev S_ : Shape := ⟨0, ![]⟩

class Facts : Prop where
  bcast_S_S2x512x1024 : S_.BroadcastsInDim S2x512x1024 (![] : Fin 0 → Fin S2x512x1024.rank)
  reducesTo_S2x512x1024_S_d0_1_2 : S2x512x1024.ReducesTo [0, 1, 2] S_
  h_S_ : 0 < S_.numel

variable [Facts]

def fn {F : FTy → Type} [FloatOps F] (main_arg0 : FVec F S2x512x1024 .f32) : IVec S_ 1 :=
  let main_v0 : FVec F S2x512x1024 .f32 := Host.absf main_arg0
  let main_cst : FVec F S_ .f32 := constant S_ .f32 0x7F800000#32
  let main_v1 : FVec F S2x512x1024 .f32 := broadcastInDim S2x512x1024 ![] bcast_S_S2x512x1024 main_cst
  let main_v2 : IVec S2x512x1024 1 := cmpf .olt main_v0 main_v1
  let main_c : IVec S_ 1 := constantI S_ 1 1#1
  let main_v3 : IVec S_ 1 := (fun x v => Host.reduce IntOp.andi x v reducesTo_S2x512x1024_S_d0_1_2 h_S_) main_v2 main_c
  main_v3
-- ==== Kernel.lean ====
abbrev S1x512x512 : Shape := ⟨3, ![1, 512, 512]⟩
abbrev S512x1024 : Shape := ⟨2, ![512, 1024]⟩
abbrev S512x512 : Shape := ⟨2, ![512, 512]⟩
abbrev S16 : Shape := ⟨1, ![16]⟩
abbrev S_ : Shape := ⟨0, ![]⟩
abbrev S1 : Shape := ⟨1, ![1]⟩
abbrev S32x512 : Shape := ⟨2, ![32, 512]⟩
abbrev S1x32x512 : Shape := ⟨3, ![1, 32, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x512x512, .f32⟩
  | .hbm, ⟨1, _⟩ => ⟨S512x1024, .f32⟩
  | .local _ .vmem, ⟨0, _⟩ => ⟨S1x512x512, .f32⟩
  | .local _ .vmem, ⟨1, _⟩ => ⟨S512x1024, .f32⟩
  | .local _ .vmem, ⟨2, _⟩ => ⟨S512x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  (ofTc nBuf bufTy 1 66 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v18 : BitVec 32 := Scalar.muli v6 c2_i32_15
  let v19 : BitVec 32 := Scalar.addi c0_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v20 : BitVec 32 := Scalar.muli v5 c1_i32_17
  let v21 : BitVec 32 := Scalar.addi v19 v20
  v21.toNat
def k0_dev4 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v29 : BitVec 32 := Scalar.muli v6 c2_i32_25
  let v30 : BitVec 32 := Scalar.addi c0_i32_26 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v31 : BitVec 32 := Scalar.muli v5 c1_i32_27
  let v32 : BitVec 32 := Scalar.addi v30 v31
  v32.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v40 : BitVec 32 := Scalar.muli v6 c2_i32_34
  let v41 : BitVec 32 := Scalar.addi c0_i32_35 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v42 : BitVec 32 := Scalar.muli v5 c1_i32_36
  let v43 : BitVec 32 := Scalar.addi v41 v42
  v43.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v51 : BitVec 32 := Scalar.muli v6 c2_i32_42
  let v52 : BitVec 32 := Scalar.addi c0_i32_43 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v53 : BitVec 32 := Scalar.muli v5 c1_i32_44
  let v54 : BitVec 32 := Scalar.addi v52 v53
  v54.toNat
def k0_dev7 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v62 : BitVec 32 := Scalar.muli v6 c2_i32_50
  let v63 : BitVec 32 := Scalar.addi c0_i32_51 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v64 : BitVec 32 := Scalar.muli v5 c1_i32_52
  let v65 : BitVec 32 := Scalar.addi v63 v64
  v65.toNat
def k0_dev8 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v73 : BitVec 32 := Scalar.muli v6 c2_i32_58
  let v74 : BitVec 32 := Scalar.addi c0_i32_59 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v75 : BitVec 32 := Scalar.muli v5 c1_i32_60
  let v76 : BitVec 32 := Scalar.addi v74 v75
  v76.toNat
def k0_dev9 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v84 : BitVec 32 := Scalar.muli v6 c2_i32_66
  let v85 : BitVec 32 := Scalar.addi c0_i32_67 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v86 : BitVec 32 := Scalar.muli v5 c1_i32_68
  let v87 : BitVec 32 := Scalar.addi v85 v86
  v87.toNat
def k0_dev10 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v95 : BitVec 32 := Scalar.muli v6 c2_i32_74
  let v96 : BitVec 32 := Scalar.addi c0_i32_75 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v97 : BitVec 32 := Scalar.muli v5 c1_i32_76
  let v98 : BitVec 32 := Scalar.addi v96 v97
  v98.toNat
def k0_dev11 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v106 : BitVec 32 := Scalar.muli v6 c2_i32_82
  let v107 : BitVec 32 := Scalar.addi c0_i32_83 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v108 : BitVec 32 := Scalar.muli v5 c1_i32_84
  let v109 : BitVec 32 := Scalar.addi v107 v108
  v109.toNat
def k0_dev12 (d0 : Dev nD) : Nat :=
  let c0_i32_91 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_90 : BitVec 32 := 2#32
  let v117 : BitVec 32 := Scalar.muli v6 c2_i32_90
  let v118 : BitVec 32 := Scalar.addi c0_i32_91 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_92 : BitVec 32 := 1#32
  let v119 : BitVec 32 := Scalar.muli v5 c1_i32_92
  let v120 : BitVec 32 := Scalar.addi v118 v119
  v120.toNat
def k0_dev13 (d0 : Dev nD) : Nat :=
  let c0_i32_99 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_98 : BitVec 32 := 2#32
  let v128 : BitVec 32 := Scalar.muli v6 c2_i32_98
  let v129 : BitVec 32 := Scalar.addi c0_i32_99 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_100 : BitVec 32 := 1#32
  let v130 : BitVec 32 := Scalar.muli v5 c1_i32_100
  let v131 : BitVec 32 := Scalar.addi v129 v130
  v131.toNat
def k0_dev14 (d0 : Dev nD) : Nat :=
  let c0_i32_107 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_106 : BitVec 32 := 2#32
  let v139 : BitVec 32 := Scalar.muli v6 c2_i32_106
  let v140 : BitVec 32 := Scalar.addi c0_i32_107 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_108 : BitVec 32 := 1#32
  let v141 : BitVec 32 := Scalar.muli v5 c1_i32_108
  let v142 : BitVec 32 := Scalar.addi v140 v141
  v142.toNat
def k0_dev15 (d0 : Dev nD) : Nat :=
  let c0_i32_115 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_114 : BitVec 32 := 2#32
  let v150 : BitVec 32 := Scalar.muli v6 c2_i32_114
  let v151 : BitVec 32 := Scalar.addi c0_i32_115 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_116 : BitVec 32 := 1#32
  let v152 : BitVec 32 := Scalar.muli v5 c1_i32_116
  let v153 : BitVec 32 := Scalar.addi v151 v152
  v153.toNat
def k0_dev16 (d0 : Dev nD) : Nat :=
  let c0_i32_123 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_122 : BitVec 32 := 2#32
  let v161 : BitVec 32 := Scalar.muli v6 c2_i32_122
  let v162 : BitVec 32 := Scalar.addi c0_i32_123 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_124 : BitVec 32 := 1#32
  let v163 : BitVec 32 := Scalar.muli v5 c1_i32_124
  let v164 : BitVec 32 := Scalar.addi v162 v163
  v164.toNat
def k0_dev17 (d0 : Dev nD) : Nat :=
  let c0_i32_131 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_130 : BitVec 32 := 2#32
  let v172 : BitVec 32 := Scalar.muli v6 c2_i32_130
  let v173 : BitVec 32 := Scalar.addi c0_i32_131 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_132 : BitVec 32 := 1#32
  let v174 : BitVec 32 := Scalar.muli v5 c1_i32_132
  let v175 : BitVec 32 := Scalar.addi v173 v174
  v175.toNat
def k0_dev18 (d0 : Dev nD) : Nat :=
  let c0_i32_139 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_138 : BitVec 32 := 2#32
  let v183 : BitVec 32 := Scalar.muli v6 c2_i32_138
  let v184 : BitVec 32 := Scalar.addi c0_i32_139 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_140 : BitVec 32 := 1#32
  let v185 : BitVec 32 := Scalar.muli v5 c1_i32_140
  let v186 : BitVec 32 := Scalar.addi v184 v185
  v186.toNat
def k0_off1 (d0 : Dev nD) : Fin 2 → Nat :=
  let c0_158 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v207 : Index := Scalar.indexCast v8
  ![0, v207.toNat]
def k0_off2 (d0 : Dev nD) : Fin 2 → Nat :=
  let c0_i32_164 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![0, v8.toNat]
def k0_dev19 (d0 : Dev nD) : Nat :=
  let c0_i32_162 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_161 : BitVec 32 := 2#32
  let v209 : BitVec 32 := Scalar.muli v2 c2_i32_161
  let v210 : BitVec 32 := Scalar.addi c0_i32_162 v209
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_163 : BitVec 32 := 1#32
  let v211 : BitVec 32 := Scalar.muli v7 c1_i32_163
  let v212 : BitVec 32 := Scalar.addi v210 v211
  v212.toNat
def k0_off3 (d0 : Dev nD) : Fin 2 → Nat :=
  let c32_180 : Index := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v232 : Index := Scalar.indexCast v8
  ![32, v232.toNat]
def k0_off4 (d0 : Dev nD) : Fin 2 → Nat :=
  let c32_i32_186 : BitVec 32 := 32#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![32, v8.toNat]
def k0_dev20 (d0 : Dev nD) : Nat :=
  let c0_i32_184 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_183 : BitVec 32 := 2#32
  let v234 : BitVec 32 := Scalar.muli v2 c2_i32_183
  let v235 : BitVec 32 := Scalar.addi c0_i32_184 v234
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_185 : BitVec 32 := 1#32
  let v236 : BitVec 32 := Scalar.muli v7 c1_i32_185
  let v237 : BitVec 32 := Scalar.addi v235 v236
  v237.toNat
def k0_off5 (d0 : Dev nD) : Fin 2 → Nat :=
  let c64_202 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v257 : Index := Scalar.indexCast v8
  ![64, v257.toNat]
def k0_off6 (d0 : Dev nD) : Fin 2 → Nat :=
  let c64_i32_208 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![64, v8.toNat]
def k0_dev21 (d0 : Dev nD) : Nat :=
  let c0_i32_206 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_205 : BitVec 32 := 2#32
  let v259 : BitVec 32 := Scalar.muli v2 c2_i32_205
  let v260 : BitVec 32 := Scalar.addi c0_i32_206 v259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_207 : BitVec 32 := 1#32
  let v261 : BitVec 32 := Scalar.muli v7 c1_i32_207
  let v262 : BitVec 32 := Scalar.addi v260 v261
  v262.toNat
def k0_off7 (d0 : Dev nD) : Fin 2 → Nat :=
  let c96_224 : Index := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v282 : Index := Scalar.indexCast v8
  ![96, v282.toNat]
def k0_off8 (d0 : Dev nD) : Fin 2 → Nat :=
  let c96_i32_230 : BitVec 32 := 96#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![96, v8.toNat]
def k0_dev22 (d0 : Dev nD) : Nat :=
  let c0_i32_228 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_227 : BitVec 32 := 2#32
  let v284 : BitVec 32 := Scalar.muli v2 c2_i32_227
  let v285 : BitVec 32 := Scalar.addi c0_i32_228 v284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_229 : BitVec 32 := 1#32
  let v286 : BitVec 32 := Scalar.muli v7 c1_i32_229
  let v287 : BitVec 32 := Scalar.addi v285 v286
  v287.toNat
def k0_off9 (d0 : Dev nD) : Fin 2 → Nat :=
  let c128_246 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v307 : Index := Scalar.indexCast v8
  ![128, v307.toNat]
def k0_off10 (d0 : Dev nD) : Fin 2 → Nat :=
  let c128_i32_252 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![128, v8.toNat]
def k0_dev23 (d0 : Dev nD) : Nat :=
  let c0_i32_250 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_249 : BitVec 32 := 2#32
  let v309 : BitVec 32 := Scalar.muli v2 c2_i32_249
  let v310 : BitVec 32 := Scalar.addi c0_i32_250 v309
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_251 : BitVec 32 := 1#32
  let v311 : BitVec 32 := Scalar.muli v7 c1_i32_251
  let v312 : BitVec 32 := Scalar.addi v310 v311
  v312.toNat
def k0_off11 (d0 : Dev nD) : Fin 2 → Nat :=
  let c160_268 : Index := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v332 : Index := Scalar.indexCast v8
  ![160, v332.toNat]
def k0_off12 (d0 : Dev nD) : Fin 2 → Nat :=
  let c160_i32_274 : BitVec 32 := 160#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![160, v8.toNat]
def k0_dev24 (d0 : Dev nD) : Nat :=
  let c0_i32_272 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_271 : BitVec 32 := 2#32
  let v334 : BitVec 32 := Scalar.muli v2 c2_i32_271
  let v335 : BitVec 32 := Scalar.addi c0_i32_272 v334
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_273 : BitVec 32 := 1#32
  let v336 : BitVec 32 := Scalar.muli v7 c1_i32_273
  let v337 : BitVec 32 := Scalar.addi v335 v336
  v337.toNat
def k0_off13 (d0 : Dev nD) : Fin 2 → Nat :=
  let c192_290 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v357 : Index := Scalar.indexCast v8
  ![192, v357.toNat]
def k0_off14 (d0 : Dev nD) : Fin 2 → Nat :=
  let c192_i32_296 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![192, v8.toNat]
def k0_dev25 (d0 : Dev nD) : Nat :=
  let c0_i32_294 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_293 : BitVec 32 := 2#32
  let v359 : BitVec 32 := Scalar.muli v2 c2_i32_293
  let v360 : BitVec 32 := Scalar.addi c0_i32_294 v359
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_295 : BitVec 32 := 1#32
  let v361 : BitVec 32 := Scalar.muli v7 c1_i32_295
  let v362 : BitVec 32 := Scalar.addi v360 v361
  v362.toNat
def k0_off15 (d0 : Dev nD) : Fin 2 → Nat :=
  let c224_312 : Index := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v382 : Index := Scalar.indexCast v8
  ![224, v382.toNat]
def k0_off16 (d0 : Dev nD) : Fin 2 → Nat :=
  let c224_i32_318 : BitVec 32 := 224#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![224, v8.toNat]
def k0_dev26 (d0 : Dev nD) : Nat :=
  let c0_i32_316 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_315 : BitVec 32 := 2#32
  let v384 : BitVec 32 := Scalar.muli v2 c2_i32_315
  let v385 : BitVec 32 := Scalar.addi c0_i32_316 v384
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_317 : BitVec 32 := 1#32
  let v386 : BitVec 32 := Scalar.muli v7 c1_i32_317
  let v387 : BitVec 32 := Scalar.addi v385 v386
  v387.toNat
def k0_off17 (d0 : Dev nD) : Fin 2 → Nat :=
  let c256_334 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v407 : Index := Scalar.indexCast v8
  ![256, v407.toNat]
def k0_off18 (d0 : Dev nD) : Fin 2 → Nat :=
  let c256_i32_340 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![256, v8.toNat]
def k0_dev27 (d0 : Dev nD) : Nat :=
  let c0_i32_338 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_337 : BitVec 32 := 2#32
  let v409 : BitVec 32 := Scalar.muli v2 c2_i32_337
  let v410 : BitVec 32 := Scalar.addi c0_i32_338 v409
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_339 : BitVec 32 := 1#32
  let v411 : BitVec 32 := Scalar.muli v7 c1_i32_339
  let v412 : BitVec 32 := Scalar.addi v410 v411
  v412.toNat
def k0_off19 (d0 : Dev nD) : Fin 2 → Nat :=
  let c288_356 : Index := 288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v432 : Index := Scalar.indexCast v8
  ![288, v432.toNat]
def k0_off20 (d0 : Dev nD) : Fin 2 → Nat :=
  let c288_i32_362 : BitVec 32 := 288#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![288, v8.toNat]
def k0_dev28 (d0 : Dev nD) : Nat :=
  let c0_i32_360 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_359 : BitVec 32 := 2#32
  let v434 : BitVec 32 := Scalar.muli v2 c2_i32_359
  let v435 : BitVec 32 := Scalar.addi c0_i32_360 v434
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_361 : BitVec 32 := 1#32
  let v436 : BitVec 32 := Scalar.muli v7 c1_i32_361
  let v437 : BitVec 32 := Scalar.addi v435 v436
  v437.toNat
def k0_off21 (d0 : Dev nD) : Fin 2 → Nat :=
  let c320_378 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v457 : Index := Scalar.indexCast v8
  ![320, v457.toNat]
def k0_off22 (d0 : Dev nD) : Fin 2 → Nat :=
  let c320_i32_384 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![320, v8.toNat]
def k0_dev29 (d0 : Dev nD) : Nat :=
  let c0_i32_382 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_381 : BitVec 32 := 2#32
  let v459 : BitVec 32 := Scalar.muli v2 c2_i32_381
  let v460 : BitVec 32 := Scalar.addi c0_i32_382 v459
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_383 : BitVec 32 := 1#32
  let v461 : BitVec 32 := Scalar.muli v7 c1_i32_383
  let v462 : BitVec 32 := Scalar.addi v460 v461
  v462.toNat
def k0_off23 (d0 : Dev nD) : Fin 2 → Nat :=
  let c352_400 : Index := 352#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v482 : Index := Scalar.indexCast v8
  ![352, v482.toNat]
def k0_off24 (d0 : Dev nD) : Fin 2 → Nat :=
  let c352_i32_406 : BitVec 32 := 352#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![352, v8.toNat]
def k0_dev30 (d0 : Dev nD) : Nat :=
  let c0_i32_404 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_403 : BitVec 32 := 2#32
  let v484 : BitVec 32 := Scalar.muli v2 c2_i32_403
  let v485 : BitVec 32 := Scalar.addi c0_i32_404 v484
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_405 : BitVec 32 := 1#32
  let v486 : BitVec 32 := Scalar.muli v7 c1_i32_405
  let v487 : BitVec 32 := Scalar.addi v485 v486
  v487.toNat
def k0_off25 (d0 : Dev nD) : Fin 2 → Nat :=
  let c384_422 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v507 : Index := Scalar.indexCast v8
  ![384, v507.toNat]
def k0_off26 (d0 : Dev nD) : Fin 2 → Nat :=
  let c384_i32_428 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![384, v8.toNat]
def k0_dev31 (d0 : Dev nD) : Nat :=
  let c0_i32_426 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_425 : BitVec 32 := 2#32
  let v509 : BitVec 32 := Scalar.muli v2 c2_i32_425
  let v510 : BitVec 32 := Scalar.addi c0_i32_426 v509
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_427 : BitVec 32 := 1#32
  let v511 : BitVec 32 := Scalar.muli v7 c1_i32_427
  let v512 : BitVec 32 := Scalar.addi v510 v511
  v512.toNat
def k0_off27 (d0 : Dev nD) : Fin 2 → Nat :=
  let c416_444 : Index := 416#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v532 : Index := Scalar.indexCast v8
  ![416, v532.toNat]
def k0_off28 (d0 : Dev nD) : Fin 2 → Nat :=
  let c416_i32_450 : BitVec 32 := 416#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![416, v8.toNat]
def k0_dev32 (d0 : Dev nD) : Nat :=
  let c0_i32_448 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_447 : BitVec 32 := 2#32
  let v534 : BitVec 32 := Scalar.muli v2 c2_i32_447
  let v535 : BitVec 32 := Scalar.addi c0_i32_448 v534
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_449 : BitVec 32 := 1#32
  let v536 : BitVec 32 := Scalar.muli v7 c1_i32_449
  let v537 : BitVec 32 := Scalar.addi v535 v536
  v537.toNat
def k0_off29 (d0 : Dev nD) : Fin 2 → Nat :=
  let c448_466 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v557 : Index := Scalar.indexCast v8
  ![448, v557.toNat]
def k0_off30 (d0 : Dev nD) : Fin 2 → Nat :=
  let c448_i32_472 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![448, v8.toNat]
def k0_dev33 (d0 : Dev nD) : Nat :=
  let c0_i32_470 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_469 : BitVec 32 := 2#32
  let v559 : BitVec 32 := Scalar.muli v2 c2_i32_469
  let v560 : BitVec 32 := Scalar.addi c0_i32_470 v559
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_471 : BitVec 32 := 1#32
  let v561 : BitVec 32 := Scalar.muli v7 c1_i32_471
  let v562 : BitVec 32 := Scalar.addi v560 v561
  v562.toNat
def k0_off31 (d0 : Dev nD) : Fin 2 → Nat :=
  let c480_488 : Index := 480#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v582 : Index := Scalar.indexCast v8
  ![480, v582.toNat]
def k0_off32 (d0 : Dev nD) : Fin 2 → Nat :=
  let c480_i32_494 : BitVec 32 := 480#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![480, v8.toNat]
def k0_dev34 (d0 : Dev nD) : Nat :=
  let c0_i32_492 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_491 : BitVec 32 := 2#32
  let v584 : BitVec 32 := Scalar.muli v2 c2_i32_491
  let v585 : BitVec 32 := Scalar.addi c0_i32_492 v584
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_493 : BitVec 32 := 1#32
  let v586 : BitVec 32 := Scalar.muli v7 c1_i32_493
  let v587 : BitVec 32 := Scalar.addi v585 v586
  v587.toNat
abbrev stage0_0 : Fin 1 → Memref sig .tc .vmem S1x512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S512x512_S32x512_0_0 : ∀ a, (![0, 0] : Fin 2 → Nat) a + S32x512.size a ≤ S512x512.size a
  inb_S1x512x512_S1x32x512_0_0_0 : ∀ a, (![0, 0, 0] : Fin 3 → Nat) a + S1x32x512.size a ≤ S1x512x512.size a
  squeezes_S1x32x512_S32x512 : S1x32x512.Squeezes S32x512
  inb_S16_S1_1 : ∀ a, (![1] : Fin 1 → Nat) a + S1.size a ≤ S16.size a
  inb_S512x512_S32x512_32_0 : ∀ a, (![32, 0] : Fin 2 → Nat) a + S32x512.size a ≤ S512x512.size a
  inb_S1x512x512_S1x32x512_0_32_0 : ∀ a, (![0, 32, 0] : Fin 3 → Nat) a + S1x32x512.size a ≤ S1x512x512.size a
  inb_S16_S1_2 : ∀ a, (![2] : Fin 1 → Nat) a + S1.size a ≤ S16.size a
  inb_S512x512_S32x512_64_0 : ∀ a, (![64, 0] : Fin 2 → Nat) a + S32x512.size a ≤ S512x512.size a
  inb_S1x512x512_S1x32x512_0_64_0 : ∀ a, (![0, 64, 0] : Fin 3 → Nat) a + S1x32x512.size a ≤ S1x512x512.size a
  inb_S16_S1_3 : ∀ a, (![3] : Fin 1 → Nat) a + S1.size a ≤ S16.size a
  inb_S512x512_S32x512_96_0 : ∀ a, (![96, 0] : Fin 2 → Nat) a + S32x512.size a ≤ S512x512.size a
  inb_S1x512x512_S1x32x512_0_96_0 : ∀ a, (![0, 96, 0] : Fin 3 → Nat) a + S1x32x512.size a ≤ S1x512x512.size a
  inb_S16_S1_4 : ∀ a, (![4] : Fin 1 → Nat) a + S1.size a ≤ S16.size a
  inb_S512x512_S32x512_128_0 : ∀ a, (![128, 0] : Fin 2 → Nat) a + S32x512.size a ≤ S512x512.size a
  inb_S1x512x512_S1x32x512_0_128_0 : ∀ a, (![0, 128, 0] : Fin 3 → Nat) a + S1x32x512.size a ≤ S1x512x512.size a
  inb_S16_S1_5 : ∀ a, (![5] : Fin 1 → Nat) a + S1.size a ≤ S16.size a
  inb_S512x512_S32x512_160_0 : ∀ a, (![160, 0] : Fin 2 → Nat) a + S32x512.size a ≤ S512x512.size a
  inb_S1x512x512_S1x32x512_0_160_0 : ∀ a, (![0, 160, 0] : Fin 3 → Nat) a + S1x32x512.size a ≤ S1x512x512.size a
  inb_S16_S1_6 : ∀ a, (![6] : Fin 1 → Nat) a + S1.size a ≤ S16.size a
  inb_S512x512_S32x512_192_0 : ∀ a, (![192, 0] : Fin 2 → Nat) a + S32x512.size a ≤ S512x512.size a
  inb_S1x512x512_S1x32x512_0_192_0 : ∀ a, (![0, 192, 0] : Fin 3 → Nat) a + S1x32x512.size a ≤ S1x512x512.size a
  inb_S16_S1_7 : ∀ a, (![7] : Fin 1 → Nat) a + S1.size a ≤ S16.size a
  inb_S512x512_S32x512_224_0 : ∀ a, (![224, 0] : Fin 2 → Nat) a + S32x512.size a ≤ S512x512.size a
  inb_S1x512x512_S1x32x512_0_224_0 : ∀ a, (![0, 224, 0] : Fin 3 → Nat) a + S1x32x512.size a ≤ S1x512x512.size a
  inb_S16_S1_8 : ∀ a, (![8] : Fin 1 → Nat) a + S1.size a ≤ S16.size a
  inb_S512x512_S32x512_256_0 : ∀ a, (![256, 0] : Fin 2 → Nat) a + S32x512.size a ≤ S512x512.size a
  inb_S1x512x512_S1x32x512_0_256_0 : ∀ a, (![0, 256, 0] : Fin 3 → Nat) a + S1x32x512.size a ≤ S1x512x512.size a
  inb_S16_S1_9 : ∀ a, (![9] : Fin 1 → Nat) a + S1.size a ≤ S16.size a
  inb_S512x512_S32x512_288_0 : ∀ a, (![288, 0] : Fin 2 → Nat) a + S32x512.size a ≤ S512x512.size a
  inb_S1x512x512_S1x32x512_0_288_0 : ∀ a, (![0, 288, 0] : Fin 3 → Nat) a + S1x32x512.size a ≤ S1x512x512.size a
  inb_S16_S1_10 : ∀ a, (![10] : Fin 1 → Nat) a + S1.size a ≤ S16.size a
  inb_S512x512_S32x512_320_0 : ∀ a, (![320, 0] : Fin 2 → Nat) a + S32x512.size a ≤ S512x512.size a
  inb_S1x512x512_S1x32x512_0_320_0 : ∀ a, (![0, 320, 0] : Fin 3 → Nat) a + S1x32x512.size a ≤ S1x512x512.size a
  inb_S16_S1_11 : ∀ a, (![11] : Fin 1 → Nat) a + S1.size a ≤ S16.size a
  inb_S512x512_S32x512_352_0 : ∀ a, (![352, 0] : Fin 2 → Nat) a + S32x512.size a ≤ S512x512.size a
  inb_S1x512x512_S1x32x512_0_352_0 : ∀ a, (![0, 352, 0] : Fin 3 → Nat) a + S1x32x512.size a ≤ S1x512x512.size a
  inb_S16_S1_12 : ∀ a, (![12] : Fin 1 → Nat) a + S1.size a ≤ S16.size a
  inb_S512x512_S32x512_384_0 : ∀ a, (![384, 0] : Fin 2 → Nat) a + S32x512.size a ≤ S512x512.size a
  inb_S1x512x512_S1x32x512_0_384_0 : ∀ a, (![0, 384, 0] : Fin 3 → Nat) a + S1x32x512.size a ≤ S1x512x512.size a
  inb_S16_S1_13 : ∀ a, (![13] : Fin 1 → Nat) a + S1.size a ≤ S16.size a
  inb_S512x512_S32x512_416_0 : ∀ a, (![416, 0] : Fin 2 → Nat) a + S32x512.size a ≤ S512x512.size a
  inb_S1x512x512_S1x32x512_0_416_0 : ∀ a, (![0, 416, 0] : Fin 3 → Nat) a + S1x32x512.size a ≤ S1x512x512.size a
  inb_S16_S1_14 : ∀ a, (![14] : Fin 1 → Nat) a + S1.size a ≤ S16.size a
  inb_S512x512_S32x512_448_0 : ∀ a, (![448, 0] : Fin 2 → Nat) a + S32x512.size a ≤ S512x512.size a
  inb_S1x512x512_S1x32x512_0_448_0 : ∀ a, (![0, 448, 0] : Fin 3 → Nat) a + S1x32x512.size a ≤ S1x512x512.size a
  inb_S16_S1_15 : ∀ a, (![15] : Fin 1 → Nat) a + S1.size a ≤ S16.size a
  inb_S512x512_S32x512_480_0 : ∀ a, (![480, 0] : Fin 2 → Nat) a + S32x512.size a ≤ S512x512.size a
  inb_S1x512x512_S1x32x512_0_480_0 : ∀ a, (![0, 480, 0] : Fin 3 → Nat) a + S1x32x512.size a ≤ S1x512x512.size a
  h_S1x32x512 : 0 < S1x32x512.numel
  shapeCasts_S1x32x512_S32x512 : S1x32x512.ShapeCasts S32x512
  h_S32x512 : 0 < S32x512.numel
  hcc0_scratch1 : 2 + S16.numel ≤ 66
  hcc0_scratch2 : 18 + S16.numel ≤ 66
  hcc0_scratch3 : 34 + S16.numel ≤ 66
  hcc0_scratch4 : 50 + S16.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off1_inb : ∀ d0 : Dev nD, ∀ a, (k0_off1 d0) a + S32x512.size a ≤ S512x1024.size a
  k0_off2_inb : ∀ d0 : Dev nD, ∀ a, (k0_off2 d0) a + S32x512.size a ≤ S512x1024.size a
  k0_dev19_lt : ∀ d0 : Dev nD, (k0_dev19 d0) < nD
  k0_off3_inb : ∀ d0 : Dev nD, ∀ a, (k0_off3 d0) a + S32x512.size a ≤ S512x1024.size a
  k0_off4_inb : ∀ d0 : Dev nD, ∀ a, (k0_off4 d0) a + S32x512.size a ≤ S512x1024.size a
  k0_dev20_lt : ∀ d0 : Dev nD, (k0_dev20 d0) < nD
  k0_off5_inb : ∀ d0 : Dev nD, ∀ a, (k0_off5 d0) a + S32x512.size a ≤ S512x1024.size a
  k0_off6_inb : ∀ d0 : Dev nD, ∀ a, (k0_off6 d0) a + S32x512.size a ≤ S512x1024.size a
  k0_dev21_lt : ∀ d0 : Dev nD, (k0_dev21 d0) < nD
  k0_off7_inb : ∀ d0 : Dev nD, ∀ a, (k0_off7 d0) a + S32x512.size a ≤ S512x1024.size a
  k0_off8_inb : ∀ d0 : Dev nD, ∀ a, (k0_off8 d0) a + S32x512.size a ≤ S512x1024.size a
  k0_dev22_lt : ∀ d0 : Dev nD, (k0_dev22 d0) < nD
  k0_off9_inb : ∀ d0 : Dev nD, ∀ a, (k0_off9 d0) a + S32x512.size a ≤ S512x1024.size a
  k0_off10_inb : ∀ d0 : Dev nD, ∀ a, (k0_off10 d0) a + S32x512.size a ≤ S512x1024.size a
  k0_dev23_lt : ∀ d0 : Dev nD, (k0_dev23 d0) < nD
  k0_off11_inb : ∀ d0 : Dev nD, ∀ a, (k0_off11 d0) a + S32x512.size a ≤ S512x1024.size a
  k0_off12_inb : ∀ d0 : Dev nD, ∀ a, (k0_off12 d0) a + S32x512.size a ≤ S512x1024.size a
  k0_dev24_lt : ∀ d0 : Dev nD, (k0_dev24 d0) < nD
  k0_off13_inb : ∀ d0 : Dev nD, ∀ a, (k0_off13 d0) a + S32x512.size a ≤ S512x1024.size a
  k0_off14_inb : ∀ d0 : Dev nD, ∀ a, (k0_off14 d0) a + S32x512.size a ≤ S512x1024.size a
  k0_dev25_lt : ∀ d0 : Dev nD, (k0_dev25 d0) < nD
  k0_off15_inb : ∀ d0 : Dev nD, ∀ a, (k0_off15 d0) a + S32x512.size a ≤ S512x1024.size a
  k0_off16_inb : ∀ d0 : Dev nD, ∀ a, (k0_off16 d0) a + S32x512.size a ≤ S512x1024.size a
  k0_dev26_lt : ∀ d0 : Dev nD, (k0_dev26 d0) < nD
  k0_off17_inb : ∀ d0 : Dev nD, ∀ a, (k0_off17 d0) a + S32x512.size a ≤ S512x1024.size a
  k0_off18_inb : ∀ d0 : Dev nD, ∀ a, (k0_off18 d0) a + S32x512.size a ≤ S512x1024.size a
  k0_dev27_lt : ∀ d0 : Dev nD, (k0_dev27 d0) < nD
  k0_off19_inb : ∀ d0 : Dev nD, ∀ a, (k0_off19 d0) a + S32x512.size a ≤ S512x1024.size a
  k0_off20_inb : ∀ d0 : Dev nD, ∀ a, (k0_off20 d0) a + S32x512.size a ≤ S512x1024.size a
  k0_dev28_lt : ∀ d0 : Dev nD, (k0_dev28 d0) < nD
  k0_off21_inb : ∀ d0 : Dev nD, ∀ a, (k0_off21 d0) a + S32x512.size a ≤ S512x1024.size a
  k0_off22_inb : ∀ d0 : Dev nD, ∀ a, (k0_off22 d0) a + S32x512.size a ≤ S512x1024.size a
  k0_dev29_lt : ∀ d0 : Dev nD, (k0_dev29 d0) < nD
  k0_off23_inb : ∀ d0 : Dev nD, ∀ a, (k0_off23 d0) a + S32x512.size a ≤ S512x1024.size a
  k0_off24_inb : ∀ d0 : Dev nD, ∀ a, (k0_off24 d0) a + S32x512.size a ≤ S512x1024.size a
  k0_dev30_lt : ∀ d0 : Dev nD, (k0_dev30 d0) < nD
  k0_off25_inb : ∀ d0 : Dev nD, ∀ a, (k0_off25 d0) a + S32x512.size a ≤ S512x1024.size a
  k0_off26_inb : ∀ d0 : Dev nD, ∀ a, (k0_off26 d0) a + S32x512.size a ≤ S512x1024.size a
  k0_dev31_lt : ∀ d0 : Dev nD, (k0_dev31 d0) < nD
  k0_off27_inb : ∀ d0 : Dev nD, ∀ a, (k0_off27 d0) a + S32x512.size a ≤ S512x1024.size a
  k0_off28_inb : ∀ d0 : Dev nD, ∀ a, (k0_off28 d0) a + S32x512.size a ≤ S512x1024.size a
  k0_dev32_lt : ∀ d0 : Dev nD, (k0_dev32 d0) < nD
  k0_off29_inb : ∀ d0 : Dev nD, ∀ a, (k0_off29 d0) a + S32x512.size a ≤ S512x1024.size a
  k0_off30_inb : ∀ d0 : Dev nD, ∀ a, (k0_off30 d0) a + S32x512.size a ≤ S512x1024.size a
  k0_dev33_lt : ∀ d0 : Dev nD, (k0_dev33 d0) < nD
  k0_off31_inb : ∀ d0 : Dev nD, ∀ a, (k0_off31 d0) a + S32x512.size a ≤ S512x1024.size a
  k0_off32_inb : ∀ d0 : Dev nD, ∀ a, (k0_off32 d0) a + S32x512.size a ≤ S512x1024.size a
  k0_dev34_lt : ∀ d0 : Dev nD, (k0_dev34 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2
abbrev cc0_scratch3 : DmaSems sig S16 := SemArray.consecutive 34 S16 hcc0_scratch3
abbrev cc0_scratch4 : DmaSems sig S16 := SemArray.consecutive 50 S16 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x512x1024 : Shape := ⟨3, ![2, 512, 1024]⟩
abbrev S_ : Shape := ⟨0, ![]⟩
abbrev S512x1024 : Shape := ⟨2, ![512, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x512x1024, .f32⟩
  | .hbm, ⟨1, _⟩ => ⟨S_, .f32⟩
  | .hbm, ⟨2, _⟩ => ⟨S512x1024, .f32⟩
  | _, _ => ⟨S2x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x512x1024_S512x1024_d0 : S2x512x1024.ReducesTo [0] S512x1024
  h_S_ : 0 < S_.numel

variable [Facts₀]

class Facts : Prop extends Facts₀ where

variable [Facts]
-- ==== Proof.Proto0.lean ====
import proofs.«900323_g7700000000000324_dist_rsx_agy_m512_n512_v7x_xy2x2_f32_1_alg».proof.Proof.Gen.KernelIdeal.Frame
import proofs.«900323_g7700000000000324_dist_rsx_agy_m512_n512_v7x_xy2x2_f32_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the collective's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: device `2 * x + y`; the peer along x flips x, the peer along y flips y -/

def xp (c : Dev nD) : Dev nD := ⟨((c.val % 2) + 2) - 2 * (c.val / 2), by have h : c.val < 4 := c.isLt; show _ < 4; omega⟩
def yp (c : Dev nD) : Dev nD := ⟨(2 * (c.val / 2) + 1) - (c.val % 2), by have h : c.val < 4 := c.isLt; show _ < 4; omega⟩
/-- The column block of the result a device computes: its y coordinate. -/
def col (c : Dev nD) : Fin 2 := ⟨c.val % 2, Nat.mod_lt _ (by decide)⟩

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem col_xp (c : Dev nD) : col (xp c) = col c := by revert c; decide
theorem col_yp (c : Dev nD) : col (yp c) = 1 - col c := by revert c; decide
theorem xp_yp (c : Dev nD) : xp (yp c) = yp (xp c) := by revert c; decide

def xpE : Dev nD ≃ Dev nD := ⟨xp, xp, xp_xp, xp_xp⟩
def ypE : Dev nD ≃ Dev nD := ⟨yp, yp, yp_yp, yp_yp⟩

/-! ## The buffers and their row chunks -/

abbrev XM : Memref sig .tc .vmem S1x512x512 .f32 := Memref.whole cc0_stg0_0
abbrev OM : Memref sig .tc .vmem S512x1024 .f32 := Memref.whole cc0_stg1_0
abbrev CM : Memref sig .tc .vmem S512x512 .f32 := Memref.whole cc0_scratch0

theorem x_inb (j : Fin 16) : ∀ a, (![0, 32 * j.val, 0] : Fin 3 → Nat) a + S1x32x512.size a ≤ S1x512x512.size a := by
  intro a; have := j.isLt; fin_cases a <;> simp <;> omega
theorem c_inb (j : Fin 16) : ∀ a, (![32 * j.val, 0] : Fin 2 → Nat) a + S32x512.size a ≤ S512x512.size a := by
  intro a; have := j.isLt; fin_cases a <;> simp <;> omega
theorem o_inb (b : Fin 2) (j : Fin 16) : ∀ a, (![32 * j.val, 512 * b.val] : Fin 2 → Nat) a + S32x512.size a ≤ S512x1024.size a := by
  intro a; have := j.isLt; have := b.isLt; fin_cases a <;> simp <;> omega
theorem s_inb (j : Fin 16) : ∀ a, (![j.val] : Fin 1 → Nat) a + S1.size a ≤ S16.size a := by
  intro a; have := j.isLt; fin_cases a; simp; omega

/-- Rows `32 j … 32 j + 31` of this device's block of `x`, as the transfer along x reads them. -/
def xrect (j : Fin 16) : Rect S1x512x512 := Rect.unit (s := S1x512x512) ![0, 32 * j.val, 0] S1x32x512.size (x_inb j)
def crect (j : Fin 16) : Rect S512x512 := Rect.unit (s := S512x512) ![32 * j.val, 0] S32x512.size (c_inb j)
def orect (b : Fin 2) (j : Fin 16) : Rect S512x1024 := Rect.unit (s := S512x1024) ![32 * j.val, 512 * b.val] S32x512.size (o_inb b j)

def xsrc (j : Fin 16) : Memref sig .tc .vmem S32x512 .f32 := (XM.slice (xrect j) (fun _ => rfl)).squeeze S32x512 squeezes_S1x32x512_S32x512
def cdst (j : Fin 16) : Memref sig .tc .vmem S32x512 .f32 := CM.slice (crect j) (fun _ => rfl)
def oblk (b : Fin 2) (j : Fin 16) : Memref sig .tc .vmem S32x512 .f32 := OM.slice (orect b j) (fun _ => rfl)

/-! ## The semaphores and the cells -/

abbrev barS : Sem sig := (SemArray.scalar (sig.barrier 0 rfl) : Sems sig S_).sem
/-- The four families of sixteen DMA semaphores, in the order of the scratch operands: send along x, receive along x,
    send along y, receive along y. -/
def dS (a : Fin 4) (j : Fin 16) : DmaSem sig := ⟨2 + 16 * a.val + j.val, by have := j.isLt; have := a.isLt; show _ < 66; omega⟩
abbrev xsS (j : Fin 16) : DmaSem sig := dS 0 j
abbrev xrS (j : Fin 16) : DmaSem sig := dS 1 j
abbrev ysS (j : Fin 16) : DmaSem sig := dS 2 j
abbrev yrS (j : Fin 16) : DmaSem sig := dS 3 j

/-- The kinds of cell a device has: its barrier (`none`); per row chunk the send and receive cells of the two transfers. -/
abbrev CK : Type := Option (Fin 4 × Fin 16)
abbrev kBar : CK := none
abbrev kXs (j : Fin 16) : CK := some (0, j)
abbrev kXr (j : Fin 16) : CK := some (1, j)
abbrev kYs (j : Fin 16) : CK := some (2, j)
abbrev kYr (j : Fin 16) : CK := some (3, j)

def csem : CK → SemLoc sig
  | none => .reg barS
  | some (a, j) => .dma (dS a j)

abbrev kcell (ck : Dev nD × CK) : GSem nD τ sig := ((ck.1 : Thread nD τ), csem ck.2)
abbrev cellK (c : Dev nD) (k : CK) : GSem nD τ sig := ((c : Thread nD τ), csem k)

/-- Which kind of cell a semaphore is. -/
def ckOf : SemLoc sig → Option CK
  | .reg s => if s = barS then some none else none
  | .dma s => if h : 2 ≤ s.val then some (some (⟨(s.val - 2) / 16, by have : s.val < 66 := s.isLt; omega⟩, ⟨(s.val - 2) % 16, Nat.mod_lt _ (by decide)⟩)) else none

theorem ckOf_csem : ∀ k : CK, ckOf (csem k) = some k := by decide +kernel
theorem csem_injective : Function.Injective csem := fun a b h => Option.some.inj (by rw [← ckOf_csem a, ← ckOf_csem b, h])

end Cert.KernelIdeal.Coll

end
-- ==== Proof.Proto1.lean ====
import proofs.«900323_g7700000000000324_dist_rsx_agy_m512_n512_v7x_xy2x2_f32_1_alg».proof.Proof.Proto0
import Idealize.ShloMosaic.Lib.ValueIdx

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s block of `x`, as staged. -/
def xA (c : Dev nD) : (cc0_stg0_0 : Ref sig .tc).ty.Contents (Elt F) :=
  (win0_0.blk (0 : Fin 1)).view.read (Elt F) (m ((c : Thread nD τ).loc main_arg0))

theorem sq_X : S1x512x512.Squeezes S512x512 := by decide

/-- What the transfers along x leave in device `c`'s landing buffer: the x-peer's block of `x`, its unit axis dropped. -/
def commG (c : Dev nD) : (cc0_scratch0 : Ref sig .tc).ty.Contents (Elt F) :=
  (XM.squeeze S512x512 sq_X).view.read (Elt F) (xA m (xp c))

/-- The sum of a 32-row chunk of the device's block and the same rows of the landing buffer. -/
def addChunk (v : Vec F S1x32x512 .f32) (w : Vec F S32x512 .f32) : FVec F S32x512 .f32 :=
  addf (shapeCast S32x512 v shapeCasts_S1x32x512_S32x512) w

/-- Chunk `j` of what device `c` computes: rows `32 j …` of its block plus the same rows of its x-peer's. -/
def sumV (c : Dev nD) (j : Fin 16) : FVec F S32x512 .f32 :=
  addChunk (XM.view.readAt (Elt F) (xrect j).toLoadRect (xA m c)) (CM.view.readAt (Elt F) (crect j).toLoadRect (commG m c))

/-- The device with `c`'s x coordinate and y coordinate `b`. -/
def rowDev (c : Dev nD) (b : Fin 2) : Dev nD := ⟨2 * (c.val / 2) + b.val, by have h : c.val < 4 := c.isLt; have := b.isLt; show _ < 4; omega⟩

theorem rowDev_col (c : Dev nD) : rowDev c (col c) = c := by revert c; decide
theorem rowDev_col_yp (c : Dev nD) : rowDev c (col (yp c)) = yp c := by revert c; decide
theorem rowDev_yp (c : Dev nD) (b : Fin 2) : rowDev (yp c) b = rowDev c b := by revert c b; decide

/-- The whole result on device `c`: column block `b`, row chunk `j` is what the device of `c`'s mesh row at y = `b` computes. -/
def outG (c : Dev nD) : (cc0_stg1_0 : Ref sig .tc).ty.Contents (Elt F) := fun i =>
  sumV m (rowDev c ⟨(i 1).val / 512, by have := (i 1).isLt; show _ < 2; change (i 1).val < 1024 at this; omega⟩)
    ⟨(i 0).val / 32, by have := (i 0).isLt; change (i 0).val < 512 at this; omega⟩
    (Idealize.ShloMosaic.ValueIdx.ix2 ⟨(i 0).val % 32, Nat.mod_lt _ (by decide)⟩ ⟨(i 1).val % 512, Nat.mod_lt _ (by decide)⟩)

theorem outG_yp (c : Dev nD) : outG m (yp c) = outG m c := by
  funext i; unfold outG; rw [rowDev_yp]

/-! ## Points-to pieces -/

abbrev half : PosShare TreeShare := fullShare.left
abbrev half' : PosShare TreeShare := fullShare.right

abbrev xLoc (c : Dev nD) : Loc nD τ sig := (c : Thread nD τ).loc cc0_stg0_0
abbrev oLoc (c : Dev nD) : Loc nD τ sig := (c : Thread nD τ).loc cc0_stg1_0
abbrev cLoc (c : Dev nD) : Loc nD τ sig := (c : Thread nD τ).loc cc0_scratch0

/-- The elements of the three buffers a chunk's transfer or access touches. -/
def xSet (c : Dev nD) (j : Fin 16) : Finset (Idx (xLoc c)) := (xsrc j).view.set
def cSet (c : Dev nD) (j : Fin 16) : Finset (Idx (cLoc c)) := (cdst j).view.set
def oSet (c : Dev nD) (b : Fin 2) (j : Fin 16) : Finset (Idx (oLoc c)) := (oblk b j).view.set

/-! ## The schedule -/

def Nx : ℕ := (cdst 0).view.dmaCredit
def Ny : ℕ := (oblk 0 0).view.dmaCredit
theorem Nx_pos : 0 < Nx := View.dmaCredit_pos _ (by decide)
theorem Ny_pos : 0 < Ny := View.dmaCredit_pos _ (by decide)

/-- What the x-peer's barrier signal hands device `c`: the peer's landing buffer, chunk by chunk. -/
def barPayX (c : Dev nD) : sProp 𝕄 :=
  bigSep Finset.univ fun j : Fin 16 => iprop(∃ f, cLoc (xp c) ↦[cSet (xp c) j]{fullShare} f)
/-- What the y-peer's signal hands it: the peer's result buffer on `c`'s column block, chunk by chunk. -/
def barPayY (c : Dev nD) : sProp 𝕄 :=
  bigSep Finset.univ fun j : Fin 16 => iprop(∃ f, oLoc (yp c) ↦[oSet (yp c) (col c) j]{fullShare} f)

def xsPay (c : Dev nD) (j : Fin 16) : sProp 𝕄 := xLoc c ↦[xSet c j]{half} xA m c
def xrPay (c : Dev nD) (j : Fin 16) : sProp 𝕄 := cLoc c ↦[cSet c j]{fullShare} commG m c
def ysPay (c : Dev nD) (j : Fin 16) : sProp 𝕄 := oLoc c ↦[oSet c (col c) j]{fullShare} outG m c
def yrPay (c : Dev nD) (j : Fin 16) : sProp 𝕄 := oLoc c ↦[oSet c (col (yp c)) j]{fullShare} outG m c

def dmaPay (c : Dev nD) (a : Fin 4) (j : Fin 16) : sProp 𝕄 :=
  if a = 0 then xsPay m c j else if a = 1 then xrPay m c j else if a = 2 then ysPay m c j else yrPay m c j

/-- One round: a barrier cell has the duties `false` (from the x-peer) and `true` (from the y-peer), one unit each; each of
    the 64 transfer cells the one duty `false` of its chunk's credit. -/
def Rd : Rounds.Schedule (GSem nD τ sig) Bool 𝕄 where
  duties g r := if r = 0 ∧ g.1.2 = .tc then (match ckOf g.2 with | some none => Finset.univ | some (some _) => {false} | none => ∅) else ∅
  unitless _ := False
  amount g _ _ := match ckOf g.2 with | some (some (a, _)) => if a.val < 2 then Nx else Ny | _ => 1
  payload g _ d := match ckOf g.2 with
    | some none => if d then barPayY g.1.1 else barPayX g.1.1
    | some (some (a, j)) => dmaPay m g.1.1 a j
    | none => iprop(emp)
  amount_pos g _ _ _ := by
    split
    · split
      · exact Nx_pos
      · exact Ny_pos
    · exact Nat.one_pos

instance Rd_payload_storable (g : GSem nD τ sig) (r : ℕ) (d : Bool) :
    BI.Storable (upEmb : UEmb _ 𝕄) ((Rd (F := F) m).payload g r d) := by
  show BI.Storable upEmb (match ckOf g.2 with
    | some none => if d then barPayY g.1.1 else barPayX g.1.1
    | some (some (a, j)) => dmaPay m g.1.1 a j
    | none => iprop(emp))
  unfold barPayY barPayX dmaPay xsPay xrPay ysPay yrPay
  (repeat' split) <;> infer_instance

end Cert.KernelIdeal.Coll

end
-- ==== Proof.State.lean ====
import proofs.«900323_g7700000000000324_dist_rsx_agy_m512_n512_v7x_xy2x2_f32_1_alg».proof.Proof.Proto1

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chunks still to do and chunks done -/

/-- The chunks from `n` on, and those before `n`. -/
def ge (n : ℕ) : Finset (Fin 16) := Finset.univ.filter fun i => n ≤ i.val
def lt (n : ℕ) : Finset (Fin 16) := Finset.univ.filter fun i => i.val < n

theorem ge_zero : ge 0 = Finset.univ := by decide
theorem ge_sixteen : ge 16 = ∅ := by decide
theorem lt_zero : lt 0 = ∅ := by decide
theorem lt_sixteen : lt 16 = Finset.univ := by decide
theorem ge_peel (j : Fin 16) : ge j.val = insert j (ge (j.val + 1)) := by
  ext i; simp only [ge, Finset.mem_filter, Finset.mem_univ, true_and, Finset.mem_insert, Fin.ext_iff]; omega
theorem not_mem_ge_succ (j : Fin 16) : j ∉ ge (j.val + 1) := by
  simp only [ge, Finset.mem_filter, Finset.mem_univ, true_and]; omega
theorem lt_peel (j : Fin 16) : lt (j.val + 1) = insert j (lt j.val) := by
  ext i; simp only [lt, Finset.mem_filter, Finset.mem_univ, true_and, Finset.mem_insert, Fin.ext_iff]; omega
theorem not_mem_lt (j : Fin 16) : j ∉ lt j.val := by
  simp only [lt, Finset.mem_filter, Finset.mem_univ, true_and]; omega

omit [FloatOps F] in
theorem bigSep_ge_peel (Φ : Fin 16 → sProp 𝕄) (j : Fin 16) : bigSep (ge j.val) Φ = iprop(Φ j ∗ bigSep (ge (j.val + 1)) Φ) := by
  rw [ge_peel, bigSep_insert (not_mem_ge_succ j)]; rfl
omit [FloatOps F] in
theorem bigSep_lt_peel (Φ : Fin 16 → sProp 𝕄) (j : Fin 16) : bigSep (lt (j.val + 1)) Φ = iprop(Φ j ∗ bigSep (lt j.val) Φ) := by
  rw [lt_peel, bigSep_insert (not_mem_lt j)]; rfl

/-! ## What a device owes -/

/-- The credit of the transfers along x (along y) not yet issued, from chunk `n` on. -/
def OX (c : Dev nD) (n : ℕ) : CellTallies nD τ sig Unit := ∑ i ∈ ge n, tallyAt (cellK (xp c) (kXr i)) () Nx
def OY (c : Dev nD) (n : ℕ) : CellTallies nD τ sig Unit := ∑ i ∈ ge n, tallyAt (cellK (yp c) (kYr i)) () Ny
/-- After the first signal; at launch. -/
def O₁ (c : Dev nD) : CellTallies nD τ sig Unit := (OY c 0 + OX c 0) + tallyAt (cellK (yp c) kBar) () 1
def O₀ (c : Dev nD) : CellTallies nD τ sig Unit := O₁ c + tallyAt (cellK (xp c) kBar) () 1

theorem OX_peel (c : Dev nD) (j : Fin 16) : OX c j.val = OX c (j.val + 1) + tallyAt (cellK (xp c) (kXr j)) () Nx := by
  unfold OX; rw [ge_peel, Finset.sum_insert (not_mem_ge_succ j), add_comm]
theorem OY_peel (c : Dev nD) (j : Fin 16) : OY c j.val = OY c (j.val + 1) + tallyAt (cellK (yp c) (kYr j)) () Ny := by
  unfold OY; rw [ge_peel, Finset.sum_insert (not_mem_ge_succ j), add_comm]
theorem OX_sixteen (c : Dev nD) : OX c 16 = 0 := by unfold OX; rw [ge_sixteen, Finset.sum_empty]
theorem OY_sixteen (c : Dev nD) : OY c 16 = 0 := by unfold OY; rw [ge_sixteen, Finset.sum_empty]

/-- What a device owes, its waits recorded or not. -/
def owesE (c : Dev nD) (O : CellTallies nD τ sig Unit) : sProp 𝕄 := iprop(∃ W : Waits sig Unit, owes (c : Thread nD τ) O W)

/-! ## The levels: staging and send cells 0, barrier cells 1, receive cells along x 2, along y 3 -/

def L (g : GSem nD τ sig) : Finset Unit := if g.1.2 = .tc then {()} else ∅
def lv (g : GSem nD τ sig) (_ : Unit) : ℕ :=
  match ckOf g.2 with | some none => 1 | some (some (a, _)) => if a = 1 then 2 else if a = 3 then 3 else 0 | none => 0

/-! ## The ghost state -/

variable (K : Dev nD × CK → ℕ)

/-- Every cell's invariant under its name, and that every cell is at round 0: persistent, shared by all devices. -/
def records : sProp 𝕄 :=
  iprop((bigSep Finset.univ fun ck : Dev nD × CK => cellInv ER (Rd m) (K ck) (kcell ck))
    ∗ bigSep Finset.univ fun ck : Dev nD × CK => reached ER (kcell ck) 0)

instance records_persistent : BI.Persistent (records m K) := by unfold records; infer_instance

/-- The tokens of the duties device `c` pays: both peers' barrier duties, and per chunk its own two send duties and the
    peers' two receive duties. -/
def payToks (c : Dev nD) : sProp 𝕄 :=
  iprop(dutyTok ER (cellK (xp c) kBar) 0 false ∗ dutyTok ER (cellK (yp c) kBar) 0 true
    ∗ bigSep Finset.univ fun j : Fin 16 => iprop(dutyTok ER (cellK c (kXs j)) 0 false ∗ dutyTok ER (cellK (xp c) (kXr j)) 0 false
        ∗ dutyTok ER (cellK c (kYs j)) 0 false ∗ dutyTok ER (cellK (yp c) (kYr j)) 0 false))

/-- Its positions on its own 65 cells. -/
def positions (c : Dev nD) : sProp 𝕄 := bigSep Finset.univ fun k : CK => atPos ER (cellK c k) 0 ∅ 0

/-- The credit of what the peers owe its barrier and receive cells. -/
def creds (c : Dev nD) : sProp 𝕄 :=
  iprop(cred (tallyAt (cellK c kBar) () 2)
    ∗ (bigSep Finset.univ fun j : Fin 16 => cred (tallyAt (cellK c (kXr j)) () Nx))
    ∗ bigSep Finset.univ fun j : Fin 16 => cred (tallyAt (cellK c (kYr j)) () Ny))

def ghost (c : Dev nD) : sProp 𝕄 := iprop(records m K ∗ positions c ∗ payToks c)

/-- What device `c`'s body starts from. -/
def start (c : Dev nD) : sProp 𝕄 := iprop((∃ K, ghost m K c) ∗ creds c ∗ levAts L lv)

/-! ## The phases of the body, by chunk -/

/-- Phase 1, the sends along x. To do for chunk `i`: the two duty tokens, half of the source rows, the peer's landing rows.
    Done: the send cell's credit. -/
def x1Todo (c : Dev nD) (i : Fin 16) : sProp 𝕄 :=
  iprop(dutyTok ER (cellK c (kXs i)) 0 false ∗ dutyTok ER (cellK (xp c) (kXr i)) 0 false
    ∗ (xLoc c ↦[xSet c i]{half} xA m c) ∗ ∃ f, cLoc (xp c) ↦[cSet (xp c) i]{fullShare} f)
def x1Done (c : Dev nD) (i : Fin 16) : sProp 𝕄 := cred (tallyAt (cellK c (kXs i)) () Nx)
def S1 (c : Dev nD) (n : ℕ) : sProp 𝕄 := iprop(bigSep (ge n) (x1Todo m c) ∗ bigSep (lt n) (x1Done c))

/-- Phase 2, per chunk: wait for the peer's rows, add, store, send along y. -/
def x2Todo (c : Dev nD) (i : Fin 16) : sProp 𝕄 :=
  iprop(atPos ER (cellK c (kXr i)) 0 ∅ 0 ∗ cred (tallyAt (cellK c (kXr i)) () Nx)
    ∗ (xLoc c ↦[xSet c i]{half'} xA m c) ∗ (∃ f, oLoc c ↦[oSet c (col c) i]{fullShare} f)
    ∗ dutyTok ER (cellK c (kYs i)) 0 false ∗ dutyTok ER (cellK (yp c) (kYr i)) 0 false
    ∗ ∃ f, oLoc (yp c) ↦[oSet (yp c) (col c) i]{fullShare} f)
def x2Done (c : Dev nD) (i : Fin 16) : sProp 𝕄 :=
  iprop(atPos ER (cellK c (kXr i)) 1 ∅ 0 ∗ (xLoc c ↦[xSet c i]{half'} xA m c) ∗ (cLoc c ↦[cSet c i]{fullShare} commG m c)
    ∗ cred (tallyAt (cellK c (kYs i)) () Ny))
def S2 (c : Dev nD) (n : ℕ) : sProp 𝕄 := iprop(bigSep (ge n) (x2Todo m c) ∗ bigSep (lt n) (x2Done m c))

/-- Phase 3, the waits for the y-peer's rows. -/
def x3Todo (c : Dev nD) (i : Fin 16) : sProp 𝕄 := iprop(atPos ER (cellK c (kYr i)) 0 ∅ 0 ∗ cred (tallyAt (cellK c (kYr i)) () Ny))
def x3Done (c : Dev nD) (i : Fin 16) : sProp 𝕄 := iprop(atPos ER (cellK c (kYr i)) 1 ∅ 0 ∗ yrPay m c i)
def S3 (c : Dev nD) (n : ℕ) : sProp 𝕄 := iprop(bigSep (ge n) (x3Todo c) ∗ bigSep (lt n) (x3Done m c))

/-- Phase 4, the waits on the two send cells. -/
def x4Todo (c : Dev nD) (i : Fin 16) : sProp 𝕄 :=
  iprop(atPos ER (cellK c (kXs i)) 0 ∅ 0 ∗ cred (tallyAt (cellK c (kXs i)) () Nx) ∗ atPos ER (cellK c (kYs i)) 0 ∅ 0 ∗ cred (tallyAt (cellK c (kYs i)) () Ny))
def x4Done (c : Dev nD) (i : Fin 16) : sProp 𝕄 :=
  iprop(atPos ER (cellK c (kXs i)) 1 ∅ 0 ∗ xsPay m c i ∗ atPos ER (cellK c (kYs i)) 1 ∅ 0 ∗ ysPay m c i)
def S4 (c : Dev nD) (n : ℕ) : sProp 𝕄 := iprop(bigSep (ge n) (x4Todo c) ∗ bigSep (lt n) (x4Done m c))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start m c ∗ ∃ f, cLoc c ↦{fullShare} f)
/-- After the point: the landing buffer holds the x-peer's block; the 64 own cells are closed at zero. -/
def Φ₁ (c : Dev nD) : sProp 𝕄 :=
  iprop((cLoc c ↦{fullShare} commG m c) ∗ bigSep Finset.univ fun aj : Fin 4 × Fin 16 => semVal (cellK c (some aj)) 0)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => outG m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.Coll

end
-- ==== Proof.Tables.lean ====
import proofs.«900323_g7700000000000324_dist_rsx_agy_m512_n512_v7x_xy2x2_f32_1_alg».proof.Proof.State

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The schedule's tables, cell by cell -/

theorem duties_bar (c : Dev nD) : (Rd (F := F) m).duties (cellK c kBar) 0 = Finset.univ := by
  dsimp only [Rd]; rw [if_pos ⟨rfl, rfl⟩]
  show (match ckOf (csem kBar) with | some none => Finset.univ | some (some _) => {false} | none => ∅) = _
  rw [ckOf_csem]
theorem duties_dma (c : Dev nD) (a : Fin 4) (j : Fin 16) : (Rd (F := F) m).duties (cellK c (some (a, j))) 0 = {false} := by
  dsimp only [Rd]; rw [if_pos ⟨rfl, rfl⟩]
  show (match ckOf (csem (some (a, j))) with | some none => Finset.univ | some (some _) => {false} | none => ∅) = _
  rw [ckOf_csem]
theorem duties_later (g : GSem nD τ sig) : ∀ r, 1 ≤ r → (Rd (F := F) m).duties g r = ∅ := by
  intro r hr; dsimp only [Rd]; rw [if_neg (fun h => by omega)]

theorem amount_bar (c : Dev nD) (d : Bool) : (Rd (F := F) m).amount (cellK c kBar) 0 d = 1 := by
  show (match ckOf (csem kBar) with | some (some (a, _)) => if a.val < 2 then Nx else Ny | _ => 1) = _
  rw [ckOf_csem]
theorem amount_xs (c : Dev nD) (j : Fin 16) (d : Bool) : (Rd (F := F) m).amount (cellK c (kXs j)) 0 d = Nx := by
  show (match ckOf (csem (kXs j)) with | some (some (a, _)) => if a.val < 2 then Nx else Ny | _ => 1) = _
  rw [ckOf_csem]; rfl
theorem amount_xr (c : Dev nD) (j : Fin 16) (d : Bool) : (Rd (F := F) m).amount (cellK c (kXr j)) 0 d = Nx := by
  show (match ckOf (csem (kXr j)) with | some (some (a, _)) => if a.val < 2 then Nx else Ny | _ => 1) = _
  rw [ckOf_csem]; rfl
theorem amount_ys (c : Dev nD) (j : Fin 16) (d : Bool) : (Rd (F := F) m).amount (cellK c (kYs j)) 0 d = Ny := by
  show (match ckOf (csem (kYs j)) with | some (some (a, _)) => if a.val < 2 then Nx else Ny | _ => 1) = _
  rw [ckOf_csem]; rfl
theorem amount_yr (c : Dev nD) (j : Fin 16) (d : Bool) : (Rd (F := F) m).amount (cellK c (kYr j)) 0 d = Ny := by
  show (match ckOf (csem (kYr j)) with | some (some (a, _)) => if a.val < 2 then Nx else Ny | _ => 1) = _
  rw [ckOf_csem]; rfl

theorem expect_bar (c : Dev nD) : (Rd (F := F) m).expect (cellK c kBar) 0 = 2 := by
  unfold Schedule.expect Schedule.amountOf
  rw [duties_bar, Finset.sum_congr rfl (fun d _ => amount_bar m c d)]; rfl
theorem expect_xs (c : Dev nD) (j : Fin 16) : (Rd (F := F) m).expect (cellK c (kXs j)) 0 = Nx := by
  unfold Schedule.expect Schedule.amountOf
  rw [duties_dma, Finset.sum_singleton, amount_xs]
theorem expect_xr (c : Dev nD) (j : Fin 16) : (Rd (F := F) m).expect (cellK c (kXr j)) 0 = Nx := by
  unfold Schedule.expect Schedule.amountOf
  rw [duties_dma, Finset.sum_singleton, amount_xr]
theorem expect_ys (c : Dev nD) (j : Fin 16) : (Rd (F := F) m).expect (cellK c (kYs j)) 0 = Ny := by
  unfold Schedule.expect Schedule.amountOf
  rw [duties_dma, Finset.sum_singleton, amount_ys]
theorem expect_yr (c : Dev nD) (j : Fin 16) : (Rd (F := F) m).expect (cellK c (kYr j)) 0 = Ny := by
  unfold Schedule.expect Schedule.amountOf
  rw [duties_dma, Finset.sum_singleton, amount_yr]

theorem payload_bar_false (c : Dev nD) : (Rd (F := F) m).payload (cellK c kBar) 0 false = barPayX c := by
  show (match ckOf (csem kBar) with
    | some none => if false then barPayY (cellK c kBar).1.1 else barPayX (cellK c kBar).1.1
    | some (some (a, j)) => dmaPay m (cellK c kBar).1.1 a j
    | none => iprop(emp)) = _
  rw [ckOf_csem]; rfl
theorem payload_bar_true (c : Dev nD) : (Rd (F := F) m).payload (cellK c kBar) 0 true = barPayY c := by
  show (match ckOf (csem kBar) with
    | some none => if true then barPayY (cellK c kBar).1.1 else barPayX (cellK c kBar).1.1
    | some (some (a, j)) => dmaPay m (cellK c kBar).1.1 a j
    | none => iprop(emp)) = _
  rw [ckOf_csem]; rfl
theorem payload_xs (c : Dev nD) (j : Fin 16) (d : Bool) : (Rd (F := F) m).payload (cellK c (kXs j)) 0 d = xsPay m c j := by
  show (match ckOf (csem (kXs j)) with
    | some none => if d then barPayY (cellK c (kXs j)).1.1 else barPayX (cellK c (kXs j)).1.1
    | some (some (a, j')) => dmaPay m (cellK c (kXs j)).1.1 a j'
    | none => iprop(emp)) = _
  rw [ckOf_csem]; rfl
theorem payload_xr (c : Dev nD) (j : Fin 16) (d : Bool) : (Rd (F := F) m).payload (cellK c (kXr j)) 0 d = xrPay m c j := by
  show (match ckOf (csem (kXr j)) with
    | some none => if d then barPayY (cellK c (kXr j)).1.1 else barPayX (cellK c (kXr j)).1.1
    | some (some (a, j')) => dmaPay m (cellK c (kXr j)).1.1 a j'
    | none => iprop(emp)) = _
  rw [ckOf_csem]; rfl
theorem payload_ys (c : Dev nD) (j : Fin 16) (d : Bool) : (Rd (F := F) m).payload (cellK c (kYs j)) 0 d = ysPay m c j := by
  show (match ckOf (csem (kYs j)) with
    | some none => if d then barPayY (cellK c (kYs j)).1.1 else barPayX (cellK c (kYs j)).1.1
    | some (some (a, j')) => dmaPay m (cellK c (kYs j)).1.1 a j'
    | none => iprop(emp)) = _
  rw [ckOf_csem]; rfl
theorem payload_yr (c : Dev nD) (j : Fin 16) (d : Bool) : (Rd (F := F) m).payload (cellK c (kYr j)) 0 d = yrPay m c j := by
  show (match ckOf (csem (kYr j)) with
    | some none => if d then barPayY (cellK c (kYr j)).1.1 else barPayX (cellK c (kYr j)).1.1
    | some (some (a, j')) => dmaPay m (cellK c (kYr j)).1.1 a j'
    | none => iprop(emp)) = _
  rw [ckOf_csem]; rfl

/-- The rest of a cell's round 0, nothing taken yet. -/
theorem rest_bar (c : Dev nD) :
    bigSep ((Rd (F := F) m).duties (cellK c kBar) 0 \ ∅) (fun d => (Rd (F := F) m).payload (cellK c kBar) 0 d) = iprop(barPayX c ∗ barPayY c) := by
  rw [Finset.sdiff_empty, duties_bar, bigSep_univ_eq_bigSepL [false, true] (by decide) (by decide), bigSepL_cons_cons,
    bigSepL_singleton, payload_bar_false, payload_bar_true]; rfl
theorem rest_xs (c : Dev nD) (j : Fin 16) :
    bigSep ((Rd (F := F) m).duties (cellK c (kXs j)) 0 \ ∅) (fun d => (Rd (F := F) m).payload (cellK c (kXs j)) 0 d) = xsPay m c j := by
  rw [Finset.sdiff_empty, duties_dma, bigSep_singleton, payload_xs]
theorem rest_xr (c : Dev nD) (j : Fin 16) :
    bigSep ((Rd (F := F) m).duties (cellK c (kXr j)) 0 \ ∅) (fun d => (Rd (F := F) m).payload (cellK c (kXr j)) 0 d) = xrPay m c j := by
  rw [Finset.sdiff_empty, duties_dma, bigSep_singleton, payload_xr]
theorem rest_ys (c : Dev nD) (j : Fin 16) :
    bigSep ((Rd (F := F) m).duties (cellK c (kYs j)) 0 \ ∅) (fun d => (Rd (F := F) m).payload (cellK c (kYs j)) 0 d) = ysPay m c j := by
  rw [Finset.sdiff_empty, duties_dma, bigSep_singleton, payload_ys]
theorem rest_yr (c : Dev nD) (j : Fin 16) :
    bigSep ((Rd (F := F) m).duties (cellK c (kYr j)) 0 \ ∅) (fun d => (Rd (F := F) m).payload (cellK c (kYr j)) 0 d) = yrPay m c j := by
  rw [Finset.sdiff_empty, duties_dma, bigSep_singleton, payload_yr]

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- The levels of the barrier cells, of the receive cells, and of the cells below the collective's. -/
private theorem lv_bar (t : Thread nD τ) : lv (t, csem kBar) () = 1 := by
  show (match ckOf (csem kBar) with | some none => 1 | some (some (a, _)) => if a = 1 then 2 else if a = 3 then 3 else 0 | none => 0) = 1
  rw [ckOf_csem]
private theorem lv_xr (t : Thread nD τ) (i : Fin 16) : lv (t, csem (kXr i)) () = 2 := by
  show (match ckOf (csem (kXr i)) with | some none => 1 | some (some (a, _)) => if a = 1 then 2 else if a = 3 then 3 else 0 | none => 0) = 2
  rw [ckOf_csem]; rfl
private theorem lv_yr (t : Thread nD τ) (i : Fin 16) : lv (t, csem (kYr i)) () = 3 := by
  show (match ckOf (csem (kYr i)) with | some none => 1 | some (some (a, _)) => if a = 1 then 2 else if a = 3 then 3 else 0 | none => 0) = 3
  rw [ckOf_csem]; rfl
private theorem lv_low (t : Thread nD τ) (q : DmaSem sig) (hq : q.val < 2) : lv (t, .dma q) () = 0 := by
  have h : ckOf (SemLoc.dma q : SemLoc sig) = none := by
    show (if h : 2 ≤ q.val then _ else none) = none
    exact dif_neg (by omega)
  show (match ckOf (SemLoc.dma q : SemLoc sig) with | some none => 1 | some (some (a, _)) => if a = 1 then 2 else if a = 3 then 3 else 0 | none => 0) = 0
  rw [h]

/-- A one-cell tally is positive at its cell only. -/
private theorem tallyAt_pos {g0 g : GSem nD τ sig} {k : ℕ} {u : Unit} (h : 0 < tallyAt g0 () k g u) : g = g0 := by
  rw [tallyAt_apply] at h
  by_contra hn
  rw [if_neg (fun h' => hn h'.1)] at h
  exact Nat.lt_irrefl 0 h

/-- What is owed along x (along y) is owed to the peer's receive cells. -/
private theorem OX_pos {c : Dev nD} {n : ℕ} {g : GSem nD τ sig} {u : Unit} (h : 0 < OX c n g u) : ∃ i, g = cellK (xp c) (kXr i) := by
  obtain ⟨i, _, hi⟩ := Pipeline.sum_pos_exists h
  exact ⟨i, tallyAt_pos hi⟩
private theorem OY_pos {c : Dev nD} {n : ℕ} {g : GSem nD τ sig} {u : Unit} (h : 0 < OY c n g u) : ∃ i, g = cellK (yp c) (kYr i) := by
  obtain ⟨i, _, hi⟩ := Pipeline.sum_pos_exists h
  exact ⟨i, tallyAt_pos hi⟩

omit [FloatOps F] in
/-- A wait on a cell of level `ℓ` while everything owed is on TensorCore cells of higher level. -/
theorem mayWait_of (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (hO g u hg).1]; exact Finset.mem_singleton.mpr (Subsingleton.elim _ _))
    (fun p hp => by rw [Finset.mem_singleton.mp hp])
    (fun g u hg => (hO g u hg).2)

omit [FloatOps F] in
/-- At the barrier wait: all 32 receive credits are still owed. -/
theorem mayWait_bar (c : Dev nD) : (levAts L lv : sProp 𝕄) ⊢ MayWait (c : Thread nD τ) (.reg barS) () (OY c 0 + OX c 0) := by
  refine mayWait_of c (.reg barS) _ (fun g u hg => ?_)
  have hb : lv ((c : Thread nD τ), SemLoc.reg barS) () = 1 := lv_bar (c : Thread nD τ)
  rw [hb]
  rcases Pipeline.add_pos_cases hg with h | h
  · obtain ⟨i, rfl⟩ := OY_pos h
    exact ⟨rfl, by rw [lv_yr]; decide⟩
  · obtain ⟨i, rfl⟩ := OX_pos h
    exact ⟨rfl, by rw [lv_xr]; decide⟩
omit [FloatOps F] in
/-- At the wait for chunk `j` along x: only receive credits along y are still owed. -/
theorem mayWait_xr (c : Dev nD) (j : Fin 16) (n : ℕ) : (levAts L lv : sProp 𝕄) ⊢ MayWait (c : Thread nD τ) (.dma (xrS j)) () (OY c n) := by
  refine mayWait_of c (.dma (xrS j)) _ (fun g u hg => ?_)
  have hb : lv ((c : Thread nD τ), SemLoc.dma (xrS j)) () = 2 := lv_xr (c : Thread nD τ) j
  rw [hb]
  obtain ⟨i, rfl⟩ := OY_pos hg
  exact ⟨rfl, by rw [lv_yr]; decide⟩
omit [FloatOps F] in
/-- The pipeline's staging cells sit below everything a device owes at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_of c (.dma q) _ (fun g u hg => ?_)
    rw [lv_low (c : Thread nD τ) q hq]
    rcases Pipeline.add_pos_cases hg with h | h
    · rcases Pipeline.add_pos_cases h with h | h
      · rcases Pipeline.add_pos_cases h with h | h
        · obtain ⟨i, rfl⟩ := OY_pos h
          exact ⟨rfl, by rw [lv_yr]; decide⟩
        · obtain ⟨i, rfl⟩ := OX_pos h
          exact ⟨rfl, by rw [lv_xr]; decide⟩
      · rw [tallyAt_pos h]
        exact ⟨rfl, by rw [lv_bar]; decide⟩
    · rw [tallyAt_pos h]
      exact ⟨rfl, by rw [lv_bar]; decide⟩
  · rw [MayWait_zero]; iintro -; iempintro

end Cert.KernelIdeal.Coll
end
-- ==== Proof.Regions.lean ====
import proofs.«900323_g7700000000000324_dist_rsx_agy_m512_n512_v7x_xy2x2_f32_1_alg».proof.Proof.State
import Idealize.ShloMosaic.Lib.Pipeline.Value

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The three buffers cut into their row chunks -/

/-! A chunk's set is its rectangle's: rows `32 j … 32 j + 31` (and, for the result, columns `512 b … 512 b + 511`). -/

omit [FloatOps F] in
theorem xSet_eq (c : Dev nD) (j : Fin 16) : xSet c j = ((xrect j).set : Finset (Idx (xLoc c))) :=
  (View.set_reshape _ _).trans (View.set_slice_whole _ _)
omit [FloatOps F] in
theorem cSet_eq (c : Dev nD) (j : Fin 16) : cSet c j = ((crect j).set : Finset (Idx (cLoc c))) :=
  View.set_slice_whole _ _
omit [FloatOps F] in
theorem oSet_eq (c : Dev nD) (b : Fin 2) (j : Fin 16) : oSet c b j = ((orect b j).set : Finset (Idx (oLoc c))) :=
  View.set_slice_whole _ _

omit [FloatOps F] in
theorem mem_xSet (c : Dev nD) (j : Fin 16) (i : Idx (xLoc c)) :
    i ∈ xSet c j ↔ 32 * j.val ≤ (i 1).val ∧ (i 1).val < 32 * j.val + 32 := by
  rw [xSet_eq]
  unfold xrect
  rw [Rect.mem_set_unit]
  constructor
  · intro h; have h1 := h 1; simpa using h1
  · intro h a
    have h0 : (i 0).val < 1 := (i 0).isLt
    have h2 : (i 2).val < 512 := (i 2).isLt
    fin_cases a
    · simp; omega
    · simpa using h
    · simp; omega
omit [FloatOps F] in
theorem mem_cSet (c : Dev nD) (j : Fin 16) (i : Idx (cLoc c)) :
    i ∈ cSet c j ↔ 32 * j.val ≤ (i 0).val ∧ (i 0).val < 32 * j.val + 32 := by
  rw [cSet_eq]
  unfold crect
  rw [Rect.mem_set_unit]
  constructor
  · intro h; have h1 := h 0; simpa using h1
  · intro h a
    have h2 : (i 1).val < 512 := (i 1).isLt
    fin_cases a
    · simpa using h
    · simp; omega
omit [FloatOps F] in
theorem mem_oSet (c : Dev nD) (b : Fin 2) (j : Fin 16) (i : Idx (oLoc c)) :
    i ∈ oSet c b j ↔ (32 * j.val ≤ (i 0).val ∧ (i 0).val < 32 * j.val + 32) ∧ (512 * b.val ≤ (i 1).val ∧ (i 1).val < 512 * b.val + 512) := by
  rw [oSet_eq]
  unfold orect
  rw [Rect.mem_set_unit]
  constructor
  · intro h; have h0 := h 0; have h1 := h 1; exact ⟨by simpa using h0, by simpa using h1⟩
  · intro h a
    fin_cases a
    · simpa using h.1
    · simpa using h.2

omit [FloatOps F] in
/-- The block of `x` is its 16 row chunks. -/
theorem X_split (c : Dev nD) (q : PosShare TreeShare) (f : Buf (Elt F) (xLoc c)) :
    (xLoc c ↦{q} f : sProp 𝕄) = bigSep Finset.univ fun j : Fin 16 => xLoc c ↦[xSet c j]{q} f := by
  have hU : (Finset.univ : Finset (Idx (xLoc c))) = Finset.univ.biUnion fun j : Fin 16 => xSet c j := by
    ext i
    simp only [Finset.mem_univ, true_iff, Finset.mem_biUnion, mem_xSet, true_and]
    have h1 : (i 1).val < 512 := (i 1).isLt
    exact ⟨⟨(i 1).val / 32, by omega⟩, by show 32 * ((i 1).val / 32) ≤ _; omega, by show _ < 32 * ((i 1).val / 32) + 32; omega⟩
  rw [hU]
  refine pointsTo_biUnion _ _ fun j _ j' _ hne => ?_
  rw [Finset.disjoint_left]
  intro i hi hi'
  rw [mem_xSet] at hi hi'
  exact hne (Fin.ext (by omega))
omit [FloatOps F] in
/-- The landing buffer is its 16 row chunks. -/
theorem C_split (c : Dev nD) (f : Buf (Elt F) (cLoc c)) :
    (cLoc c ↦{fullShare} f : sProp 𝕄) = bigSep Finset.univ fun j : Fin 16 => cLoc c ↦[cSet c j]{fullShare} f := by
  have hU : (Finset.univ : Finset (Idx (cLoc c))) = Finset.univ.biUnion fun j : Fin 16 => cSet c j := by
    ext i
    simp only [Finset.mem_univ, true_iff, Finset.mem_biUnion, mem_cSet, true_and]
    have h1 : (i 0).val < 512 := (i 0).isLt
    exact ⟨⟨(i 0).val / 32, by omega⟩, by show 32 * ((i 0).val / 32) ≤ _; omega, by show _ < 32 * ((i 0).val / 32) + 32; omega⟩
  rw [hU]
  refine pointsTo_biUnion _ _ fun j _ j' _ hne => ?_
  rw [Finset.disjoint_left]
  intro i hi hi'
  rw [mem_cSet] at hi hi'
  exact hne (Fin.ext (by omega))
omit [FloatOps F] in
/-- The result buffer is its two column blocks of 16 row chunks each. -/
theorem O_split (c : Dev nD) (f : Buf (Elt F) (oLoc c)) :
    (oLoc c ↦{fullShare} f : sProp 𝕄)
      = iprop((bigSep Finset.univ fun j : Fin 16 => oLoc c ↦[oSet c 0 j]{fullShare} f) ∗ bigSep Finset.univ fun j : Fin 16 => oLoc c ↦[oSet c 1 j]{fullShare} f) := by
  have hU : (Finset.univ : Finset (Idx (oLoc c)))
      = (Finset.univ.biUnion fun j : Fin 16 => oSet c 0 j) ∪ (Finset.univ.biUnion fun j : Fin 16 => oSet c 1 j) := by
    ext i
    simp only [Finset.mem_univ, true_iff, Finset.mem_union, Finset.mem_biUnion, mem_oSet, true_and]
    have h0 : (i 0).val < 512 := (i 0).isLt
    have h1 : (i 1).val < 1024 := (i 1).isLt
    by_cases hb : (i 1).val < 512
    · left
      refine ⟨⟨(i 0).val / 32, by omega⟩, ⟨?_, ?_⟩, ?_, ?_⟩
      · show 32 * ((i 0).val / 32) ≤ _; omega
      · show _ < 32 * ((i 0).val / 32) + 32; omega
      · show 512 * 0 ≤ _; omega
      · show _ < 512 * 0 + 512; omega
    · right
      refine ⟨⟨(i 0).val / 32, by omega⟩, ⟨?_, ?_⟩, ?_, ?_⟩
      · show 32 * ((i 0).val / 32) ≤ _; omega
      · show _ < 32 * ((i 0).val / 32) + 32; omega
      · show 512 * 1 ≤ _; omega
      · show _ < 512 * 1 + 512; omega
  have hd : Disjoint (Finset.univ.biUnion fun j : Fin 16 => oSet c 0 j) (Finset.univ.biUnion fun j : Fin 16 => oSet c 1 j) := by
    rw [Finset.disjoint_left]
    intro i hi hi'
    simp only [Finset.mem_biUnion, mem_oSet, Finset.mem_univ, true_and] at hi hi'
    obtain ⟨j, -, hj⟩ := hi
    obtain ⟨j', -, hj'⟩ := hi'
    have e0 : ((0 : Fin 2) : ℕ) = 0 := rfl
    have e1 : ((1 : Fin 2) : ℕ) = 1 := rfl
    rw [e0] at hj; rw [e1] at hj'
    omega
  have hdj : ∀ b : Fin 2, ∀ j ∈ (Finset.univ : Finset (Fin 16)), ∀ j' ∈ (Finset.univ : Finset (Fin 16)), j ≠ j' → Disjoint (oSet c b j) (oSet c b j') := by
    intro b j _ j' _ hne
    rw [Finset.disjoint_left]
    intro i hi hi'
    rw [mem_oSet] at hi hi'
    exact hne (Fin.ext (by omega))
  have hu : (oLoc c ↦[(Finset.univ.biUnion fun j : Fin 16 => oSet c 0 j) ∪ (Finset.univ.biUnion fun j : Fin 16 => oSet c 1 j)]{fullShare} f : sProp 𝕄)
      ⊣⊢ iprop((oLoc c ↦[Finset.univ.biUnion fun j : Fin 16 => oSet c 0 j]{fullShare} f) ∗ oLoc c ↦[Finset.univ.biUnion fun j : Fin 16 => oSet c 1 j]{fullShare} f) := pointsTo_union hd
  rw [hU, BI.equiv_iff.mp ⟨hu.1, hu.2⟩, pointsTo_biUnion _ _ (hdj 0), pointsTo_biUnion _ _ (hdj 1)]

/-! ## The credit of a chunk's transfer is the same for every chunk of one buffer shape -/

omit [FloatOps F] in
theorem xsrc_credit (j : Fin 16) : (xsrc j).view.dmaCredit = Nx := rfl
omit [FloatOps F] in
theorem cdst_credit (j : Fin 16) : (cdst j).view.dmaCredit = Nx := rfl
omit [FloatOps F] in
theorem oblk_credit (b : Fin 2) (j : Fin 16) : (oblk b j).view.dmaCredit = Ny := rfl

/-! ## The elements a load or store of a chunk touches -/

omit [FloatOps F] in
/-- The elements a load or store of chunk `j` touches are the chunk's. -/
theorem xload_set (c : Dev nD) (j : Fin 16) : (XM.view.setOn (xrect j).toLoadRect.set : Finset (Idx (xLoc c))) = xSet c j := by
  rw [xSet_eq]; exact Finset.map_refl
omit [FloatOps F] in
theorem cload_set (c : Dev nD) (j : Fin 16) : (CM.view.setOn (crect j).toLoadRect.set : Finset (Idx (cLoc c))) = cSet c j := by
  rw [cSet_eq]; exact Finset.map_refl
omit [FloatOps F] in
theorem oload_set (c : Dev nD) (b : Fin 2) (j : Fin 16) : (OM.view.setOn (orect b j).toLoadRect.set : Finset (Idx (oLoc c))) = oSet c b j := by
  rw [oSet_eq]; exact Finset.map_refl
omit [FloatOps F] in
theorem ostore_set (c : Dev nD) (b : Fin 2) (j : Fin 16) :
    ((OM.access (orect b j) : View sig .tc .vmem _ _).setOn Finset.univ : Finset (Idx (oLoc c))) ⊆ oSet c b j :=
  subset_of_eq rfl

/-! ## What lands, and what is stored, is the named contents on the chunk -/

omit [FloatOps F] in
/-- Re-indexing a rank-2 index into the shape with a leading unit axis keeps the two coordinates. -/
theorem unsq3 {n1 n2 : ℕ} (h : (⟨2, ![n1, n2]⟩ : Shape).numel = (⟨3, ![1, n1, n2]⟩ : Shape).numel)
    (y : (⟨2, ![n1, n2]⟩ : Shape).Idx) :
    Shape.reshapeEquiv h y = Idealize.ShloMosaic.ValueIdx.ix3 (0 : Fin 1) (y 0 : Fin n1) (y 1 : Fin n2) := by
  apply Shape.reshapeEquiv_eq_of_rowMajor
  have e3 := Shape.rowMajor_val_three (d := ![1, n1, n2]) (Idealize.ShloMosaic.ValueIdx.ix3 (0 : Fin 1) (y 0 : Fin n1) (y 1 : Fin n2))
  have e2 := Shape.rowMajor_val_two (d := ![n1, n2]) y
  refine e3.trans (Eq.trans ?_ e2.symm)
  show ((0 : ℕ) * n1 + (y 0).val) * n2 + (y 1).val = (y 0).val * n2 + (y 1).val
  simp

/-- The rows the transfer along x writes into the peer's landing buffer are the peer's `commG` there, whatever was there. -/
theorem landX (c : Dev nD) (j : Fin 16) (fd : Buf (Elt F) (cLoc (xp c))) :
    ∀ i ∈ cSet (xp c) j, (cdst j).view.write (Elt F) fd ((xsrc j).view.read (Elt F) (xA m c)) Finset.univ i = commG m (xp c) i := by
  intro i hi
  obtain ⟨y, rfl⟩ := View.exists_emb_of_mem_set (cdst j).view hi
  refine (View.write_emb_of_mem (v := (cdst j).view) (Val := Elt F) fd ((xsrc j).view.read (Elt F) (xA m c)) (M := Finset.univ) (x := y) (Finset.mem_univ y)).trans ?_
  unfold commG
  rw [xp_xp]
  have k1 := unsq3 (n1 := 32) (n2 := 512) squeezes_S1x32x512_S32x512.numel_eq y
  have k2 := unsq3 (n1 := 512) (n2 := 512) sq_X.numel_eq ((crect j).emb y)
  show xA m c ((xrect j).emb (Shape.reshapeEquiv squeezes_S1x32x512_S32x512.numel_eq y)) = xA m c (Shape.reshapeEquiv sq_X.numel_eq ((crect j).emb y))
  refine congrArg (xA m c) ?_
  refine (congrArg (xrect j).emb k1).trans (Eq.trans ?_ k2.symm)
  funext a
  fin_cases a <;> rfl

/-- `sumV` at equal device, chunk and index. -/
theorem sumV_congr {d d' : Dev nD} {j j' : Fin 16} {y y' : S32x512.Idx} (hd : d = d') (hj : j = j') (hy : y = y') :
    sumV m d j y = sumV m d' j' y' := by subst hd hj hy; rfl
/-- `outG` at row `32 j + y₀`, column `512 b + y₁` is chunk `j` of what the device at y = `b` computes, at `(y₀, y₁)`. -/
theorem outG_at (c : Dev nD) (b : Fin 2) (j : Fin 16) (y : S32x512.Idx) (i : Idx (oLoc c))
    (h0 : (i 0).val = 32 * j.val + (y 0).val) (h1 : (i 1).val = 512 * b.val + (y 1).val) :
    outG m c i = sumV m (rowDev c b) j y := by
  have y0 : (y 0).val < 32 := (y 0).isLt
  have y1 : (y 1).val < 512 := (y 1).isLt
  unfold outG
  refine sumV_congr m (congrArg (rowDev c) (Fin.ext ?_)) (Fin.ext ?_) ?_
  · show (i 1).val / 512 = b.val; omega
  · show (i 0).val / 32 = j.val; omega
  · funext d
    match d with
    | ⟨0, _⟩ => exact Fin.ext (by show (i 0).val % 32 = (y 0).val; omega)
    | ⟨1, _⟩ => exact Fin.ext (by show (i 1).val % 512 = (y 1).val; omega)

/-- The rows the transfer along y writes into the peer's result buffer are the peer's `outG` there. -/
theorem landY (c : Dev nD) (j : Fin 16) (fd : Buf (Elt F) (oLoc (yp c))) :
    ∀ i ∈ oSet (yp c) (col c) j, (oblk (col c) j).view.write (Elt F) fd ((oblk (col c) j).view.read (Elt F) (outG m c)) Finset.univ i = outG m (yp c) i := by
  intro i hi
  obtain ⟨y, rfl⟩ := View.exists_emb_of_mem_set (oblk (col c) j).view hi
  refine (View.write_emb_of_mem (v := (oblk (col c) j).view) (Val := Elt F) fd ((oblk (col c) j).view.read (Elt F) (outG m c))
    (M := Finset.univ) (x := y) (Finset.mem_univ y)).trans ?_
  refine Eq.trans ?_ (congrFun (outG_yp m c).symm _)
  rfl

/-- The store of chunk `j`'s sum makes the chunk `outG`. -/
theorem stored (c : Dev nD) (j : Fin 16) (f : Buf (Elt F) (oLoc c)) :
    ∀ i ∈ oSet c (col c) j, ((OM.access (orect (col c) j) : View sig .tc .vmem _ _).write (Elt F) f (sumV m c j) Finset.univ) i = outG m c i := by
  intro i hi
  obtain ⟨y, rfl⟩ := View.exists_emb_of_mem_set (oblk (col c) j).view hi
  refine (View.write_emb_of_mem (v := (OM.access (orect (col c) j) : View sig .tc .vmem _ _)) (Val := Elt F) f (sumV m c j)
    (M := Finset.univ) (x := y) (Finset.mem_univ y)).trans ?_
  refine Eq.trans ?_ (outG_at m c (col c) j y _ ?_ ?_).symm
  · rw [rowDev_col]; rfl
  · show 32 * j.val + 1 * (y 0).val = _; omega
  · show 512 * (col c).val + 1 * (y 1).val = _; omega

/-- A load of chunk `j` of the landing buffer sees `commG`'s rows when the buffer agrees with it on the chunk. -/
theorem load_comm (c : Dev nD) (j : Fin 16) (g : Buf (Elt F) (cLoc c)) (hg : ∀ i ∈ cSet c j, g i = commG m c i) :
    CM.view.readAt (Elt F) (crect j).toLoadRect g = CM.view.readAt (Elt F) (crect j).toLoadRect (commG m c) :=
  View.readAt_congr fun i hi => hg i ((Finset.ext_iff.mp (cload_set c j) i).mp hi)

end Cert.KernelIdeal.Coll
end
-- ==== Proof.StepsA.lean ====
import proofs.«900323_g7700000000000324_dist_rsx_agy_m512_n512_v7x_xy2x2_f32_1_alg».proof.Proof.Tables
import proofs.«900323_g7700000000000324_dist_rsx_agy_m512_n512_v7x_xy2x2_f32_1_alg».proof.Proof.Regions

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-! ## The shared record, cell by cell -/

/-- The invariant of any one cell, out of the shared record. -/
theorem inv_at_aux (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem inv_at (ck : Dev nD × CK) : records m K ⊢ cellInv ER (Rd m) (K ck) (kcell ck) := by
  unfold records
  iintro ⟨H, -⟩
  iapply (inv_at_aux m K ck)
  iexact H

/-- That any one cell is at round 0, out of the shared record. -/
theorem reached_at_aux (ck : Dev nD × CK) :
    (bigSep Finset.univ fun ck : Dev nD × CK => (reached ER (kcell ck) 0 : sProp 𝕄)) ⊢ reached ER (kcell ck) 0 :=
  bigSep_elim (Finset.mem_univ ck)
theorem reached_at (ck : Dev nD × CK) : records m K ⊢ reached ER (kcell ck) 0 := by
  unfold records
  iintro ⟨-, H⟩
  iapply (reached_at_aux (F := F) ck)
  iexact H

/-! ## The entry handshake -/

/-- The signal to the x-peer's barrier: its duty `false`, handing over this device's landing buffer chunk by chunk. -/
theorem wp_sig_x (c n : Dev nD) (hn : n = xp c) {k' : ℕ} (hk' : k' = 1) {sem : Sem sig} (hsem : sem = barS)
    {α : Type} {Q : α → sProp 𝕄} {k : PUnit → Prog (TpuEff nD τ sig (Elt F) Λ₀ .tc) α} :
    iprop(records m K ∗ owesE c (O₀ c) ∗ dutyTok ER (cellK (xp c) kBar) 0 false
        ∗ (bigSep Finset.univ fun j : Fin 16 => iprop(∃ f, cLoc c ↦[cSet c j]{fullShare} f))
        ∗ (owesE c (O₁ c) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n : Thread nD τ) sem k') k) Q := by
  subst hn hk' hsem
  unfold owesE
  iintro ⟨#Hrec, HO, Htok, Hpay, Hk⟩
  icases HO with ⟨%W, HO⟩
  iapply (Rounds.wp_signal 𝒱₀ ER (Rd m) (c : Thread nD τ) none (dst := (xp c : Thread nD τ)) (κ := K (xp c, kBar))
      (d := false) (by show false ∈ (Rd m).duties (cellK (xp c) kBar) 0; rw [duties_bar]; exact Finset.mem_univ _)
      (amount_bar m (xp c) false) () (O₁ c) rfl (W := W))
    $$ [HO Htok Hpay]
  · isplitr; · iapply (inv_at m K (xp c, kBar)); iexact Hrec
    isplitl [HO]; · iexact HO
    isplitl [Htok]; · iexact Htok
    isplitl [Hpay]
    · rw [show (Rd m).payload ((xp c : Thread nD τ), SemLoc.reg barS) 0 false = barPayX (xp c) from payload_bar_false m (xp c)]
      unfold barPayX; rw [xp_xp]; iexact Hpay
    · iapply (reached_at m K (xp c, kBar)); iexact Hrec
  iintro HO
  iapply Hk
  iexists W; iexact HO

/-- The signal to the y-peer's barrier: its duty `true`, handing over the peer's column block of this device's result buffer. -/
theorem wp_sig_y (c n : Dev nD) (hn : n = yp c) {k' : ℕ} (hk' : k' = 1) {sem : Sem sig} (hsem : sem = barS)
    {α : Type} {Q : α → sProp 𝕄} {k : PUnit → Prog (TpuEff nD τ sig (Elt F) Λ₀ .tc) α} :
    iprop(records m K ∗ owesE c (O₁ c) ∗ dutyTok ER (cellK (yp c) kBar) 0 true
        ∗ (bigSep Finset.univ fun j : Fin 16 => iprop(∃ f, oLoc c ↦[oSet c (col (yp c)) j]{fullShare} f))
        ∗ (owesE c (OY c 0 + OX c 0) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n : Thread nD τ) sem k') k) Q := by
  subst hn hk' hsem
  unfold owesE
  iintro ⟨#Hrec, HO, Htok, Hpay, Hk⟩
  icases HO with ⟨%W, HO⟩
  iapply (Rounds.wp_signal 𝒱₀ ER (Rd m) (c : Thread nD τ) none (dst := (yp c : Thread nD τ)) (κ := K (yp c, kBar))
      (d := true) (by show true ∈ (Rd m).duties (cellK (yp c) kBar) 0; rw [duties_bar]; exact Finset.mem_univ _)
      (amount_bar m (yp c) true) () (OY c 0 + OX c 0) rfl (W := W))
    $$ [HO Htok Hpay]
  · isplitr; · iapply (inv_at m K (yp c, kBar)); iexact Hrec
    isplitl [HO]; · iexact HO
    isplitl [Htok]; · iexact Htok
    isplitl [Hpay]
    · rw [show (Rd m).payload ((yp c : Thread nD τ), SemLoc.reg barS) 0 true = barPayY (yp c) from payload_bar_true m (yp c)]
      unfold barPayY; rw [yp_yp]; iexact Hpay
    · iapply (reached_at m K (yp c, kBar)); iexact Hrec
  iintro HO
  iapply Hk
  iexists W; iexact HO

/-- The wait for both peers' signals: both payloads come with it. -/
theorem wp_bar_wait (c : Dev nD) {k' : ℕ} (hk' : k' = 2) {sem : Sem sig} (hsem : sem = barS)
    {α : Type} {Q : α → sProp 𝕄} {k : PUnit → Prog (TpuEff nD τ sig (Elt F) Λ₀ .tc) α} :
    iprop(records m K ∗ levAts L lv ∗ owesE c (OY c 0 + OX c 0) ∗ cred (tallyAt (cellK c kBar) () 2) ∗ atPos ER (cellK c kBar) 0 ∅ 0
        ∗ ((owesE c (OY c 0 + OX c 0) ∗ atPos ER (cellK c kBar) 1 ∅ 0 ∗ barPayX c ∗ barPayY c) -∗ wp frame (wpE (defs₀ (F := F)) 𝒱₀ (c : Thread nD τ) none) Set.univ (k ⟨⟩) Q))
      ⊢ wp frame (wpE (defs₀ (F := F)) 𝒱₀ (c : Thread nD τ) none) Set.univ (.op (.semWait sem k') k) Q := by
  subst hk' hsem
  unfold owesE
  iintro ⟨#Hrec, Hlev, HO, Hc, Hat, Hk⟩
  icases HO with ⟨%W, HO⟩
  iapply (Rounds.wp_wait_rest_token 𝒱₀ ER (Rd m) (c : Thread nD τ) none (κ := K (c, kBar))
      (wpE_semWait_eq 𝒱₀ (c : Thread nD τ) none Set.univ) (Set.mem_univ _) () (O := OY c 0 + OX c 0) (W := W) (R := 0) (m := 0) (T := ∅)
      (by show 0 + 2 = (Rd m).expect (cellK c kBar) 0; rw [expect_bar])) $$ [Hlev HO Hc Hat]
  · isplitr; · iapply (inv_at m K (c, kBar)); iexact Hrec
    isplitl [Hc]; · iexact Hc
    isplitl [HO]; · iexact HO
    isplitl [Hlev]; · iapply (mayWait_bar c); iexact Hlev
    iexact Hat
  iintro ⟨HO, Hat, -, Hpay⟩
  ihave Hp := (Entails.of_eq (show bigSep ((Rd m).duties ((c : Thread nD τ), SemLoc.reg barS) 0 \ ∅)
      (fun d => (Rd m).payload ((c : Thread nD τ), SemLoc.reg barS) 0 d) = iprop(barPayX c ∗ barPayY c) from rest_bar m c)) $$ Hpay
  icases Hp with ⟨HpX, HpY⟩
  iapply Hk
  isplitl [HO]; · iexists (insert (SemLoc.reg barS, ()) W); iexact HO
  isplitl [Hat]; · iexact Hat
  isplitl [HpX]; · iexact HpX
  iexact HpY

/-! ## Phase 1: the send of chunk `j` along x -/

theorem wp_xsend (c : Dev nD) (j : Fin 16) (n : Dev nD) (hn : n = xp c)
    {src dst : Memref sig .tc .vmem S32x512 .f32} (hs : src = xsrc j) (hd : dst = cdst j)
    {sS sR : DmaSem sig} (hsS : sS = xsS j) (hsR : sR = xrS j)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m K ∗ owesE c (OY c 0 + OX c j.val) ∗ S1 m c j.val
        ∗ ((owesE c (OY c 0 + OX c (j.val + 1)) ∗ S1 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.enqueueDma src (.remote (Dev.tc n : Thread nD τ) dst (.dma sS) hsc) (.dma sR) hsrc hdst hsem) k) Q := by
  subst hn hs hd hsS hsR
  unfold owesE S1
  rw [bigSep_ge_peel (x1Todo m c) j, bigSep_lt_peel (x1Done c) j]
  iintro ⟨#Hrec, HO, ⟨⟨Hj, Htodo⟩, Hdone⟩, Hk⟩
  unfold x1Todo
  icases Hj with ⟨HtS, HtR, Hx, Hc⟩
  icases HO with ⟨%W, HO⟩
  icases Hc with ⟨%fd, Hc⟩
  iapply (Rounds.wp_send_pointsTo 𝒱₀ ER (Rd m) (c : Thread nD τ) none (c' := (xp c : Thread nD τ)) (src := xsrc j) (dst := cdst j)
      (q := half) (fs := xA m c) (fd := fd) (κ₁ := K (c, kXs j)) (κ₂ := K (xp c, kXr j))
      (r₁ := 0) (r₂ := 0) (d₁ := false) (d₂ := false)
      (by show false ∈ (Rd m).duties (cellK c (kXs j)) 0; rw [duties_dma]; exact Finset.mem_singleton_self _)
      (by show false ∈ (Rd m).duties (cellK (xp c) (kXr j)) 0; rw [duties_dma]; exact Finset.mem_singleton_self _)
      () () Nx rfl (amount_xs m c j false) (amount_xr m (xp c) j false)
      (O₀ := OY c 0 + OX c j.val) (OY c 0 + OX c (j.val + 1)) (by rw [OX_peel c j, add_assoc]) (W := W)
      (by show _ ⊢ (Rd m).payload (cellK c (kXs j)) 0 false; rw [payload_xs]; exact BI.Entails.refl _)
      (by show _ ⊢ (Rd m).payload (cellK (xp c) (kXr j)) 0 false; rw [payload_xr]; unfold xrPay; exact Entails.of_eq (pointsTo_congr (landX m c j fd)))) $$ [HO HtS HtR Hx Hc]
  · isplitr; · iapply (inv_at m K (c, kXs j)); iexact Hrec
    isplitr; · iapply (inv_at m K (xp c, kXr j)); iexact Hrec
    isplitl [Hx]; · iexact Hx
    isplitl [Hc]; · iexact Hc
    isplitl [HO]; · iexact HO
    isplitl [HtS]; · iexact HtS
    isplitr; · iapply (reached_at m K (c, kXs j)); iexact Hrec
    isplitl [HtR]; · iexact HtR
    iapply (reached_at m K (xp c, kXr j)); iexact Hrec
  iintro ⟨Hcr, HO⟩
  iapply Hk
  isplitl [HO]; · iexists W; iexact HO
  isplitl [Htodo]; · iexact Htodo
  isplitl [Hcr]; · unfold x1Done; iexact Hcr
  iexact Hdone

end Cert.KernelIdeal.Coll
end
-- ==== Proof.StepsB.lean ====
import proofs.«900323_g7700000000000324_dist_rsx_agy_m512_n512_v7x_xy2x2_f32_1_alg».proof.Proof.Tables
import proofs.«900323_g7700000000000324_dist_rsx_agy_m512_n512_v7x_xy2x2_f32_1_alg».proof.Proof.Regions

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-- The invariant of any one cell, out of the shared record. -/
private theorem recInv (ck : Dev nD × CK) : records m K ⊢ cellInv ER (Rd m) (K ck) (kcell ck) := by
  unfold records
  exact sep_elim_left.trans (bigSep_elim (Finset.mem_univ ck) (Φ := fun ck : Dev nD × CK => (cellInv ER (Rd m) (K ck) (kcell ck) : sProp 𝕄)))

/-- That any one cell is at round 0, out of the shared record. -/
private theorem recReached (ck : Dev nD × CK) : records m K ⊢ reached ER (kcell ck) 0 := by
  unfold records
  exact sep_elim_right.trans (bigSep_elim (Finset.mem_univ ck) (Φ := fun ck : Dev nD × CK => (reached ER (kcell ck) 0 : sProp 𝕄)))

/-! ## Phase 2, chunk `j`: wait for the x-peer's rows, load both chunks, store their sum, send it along y -/

theorem wp_chunk (c : Dev nD) (j : Fin 16) (n : Dev nD) (hn : n = yp c)
    {sXR : DmaSem sig} (hsXR : sXR = xrS j)
    {wsrc wdst : Memref sig .tc .vmem S32x512 .f32} (hwd : wdst = cdst j) {hw1 : wsrc.view.WordExact} {hw2 : wdst.view.WordExact}
    {hlx : XM.view.LoadsAt (xrect j).toLoadRect} {hlc : CM.view.LoadsAt (crect j).toLoadRect}
    {off : Fin 2 → ℕ} (hoff : off = ![32 * j.val, 512 * (col c).val]) {inb : ∀ a, off a + S32x512.size a ≤ S512x1024.size a}
    {hlo : OM.view.LoadsAt (Rect.unit (s := S512x1024) off S32x512.size inb).toLoadRect}
    {off' : Fin 2 → ℕ} (hoff' : off' = ![32 * j.val, 512 * (col c).val]) {inb' : ∀ a, off' a + S32x512.size a ≤ S512x1024.size a}
    {pay : Vec F S1x32x512 .f32 → Vec F S32x512 .f32 → FVec F S32x512 .f32} (hpay : pay = addChunk)
    {hst : ((OM.access (Rect.unit (s := S512x1024) off' S32x512.size inb') : View sig .tc .vmem _ _)).Stores Finset.univ}
    {hst' : (Finset.univ : Finset (Rect.unit (s := S512x1024) off' S32x512.size inb').shape.Idx) = Finset.univ ∨ ∀ a, (Rect.unit (s := S512x1024) off' S32x512.size inb').stride a = 1}
    {ysrc ydst : Memref sig .tc .vmem S32x512 .f32} (hys : ysrc = oblk (col c) j) (hyd : ydst = oblk (col c) j)
    {sYS sYR : DmaSem sig} (hsYS : sYS = ysS j) (hsYR : sYR = yrS j)
    {hsc : (ydst : Memref sig (Dev.tc n : Thread nD τ).2.kind .vmem S32x512 .f32).view.ref.isScScratch = false}
    {hysrc : ysrc.view.WordExact} {hydst : ydst.view.WordExact}
    {hysem : DmaTarget.Typed .vmem (.dma sYR) (.remote (Dev.tc n : Thread nD τ) ydst (.dma sYS) hsc)}
    {α : Type} {Q : α → sProp 𝕄} {k : PUnit → Prog (TpuEff nD τ sig (Elt F) Λ₀ .tc) α} :
    iprop(records m K ∗ levAts L lv ∗ owesE c (OY c j.val) ∗ S2 m c j.val
        ∗ ((owesE c (OY c (j.val + 1)) ∗ S2 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ
          (.op (.waitDma2 sXR wsrc wdst hw1 hw2) fun _ =>
            .op (.load XM (xrect j).toLoadRect hlx) fun v1 =>
            .op (.load CM (crect j).toLoadRect hlc) fun v2 =>
            .op (.load OM (Rect.unit (s := S512x1024) off S32x512.size inb).toLoadRect hlo) fun _ =>
            .op (.store OM (Rect.unit (s := S512x1024) off' S32x512.size inb') (pay v1 v2) Finset.univ hst hst') fun _ =>
            .op (.enqueueDma ysrc (.remote (Dev.tc n : Thread nD τ) ydst (.dma sYS) hsc) (.dma sYR) hysrc hydst hysem) k) Q := by
  subst hn hsXR hwd hoff hoff' hpay hys hyd hsYS hsYR
  unfold owesE S2
  rw [bigSep_ge_peel (x2Todo m c) j, bigSep_lt_peel (x2Done m c) j]
  iintro ⟨#Hrec, Hlev, HO, ⟨⟨Hj, Htodo⟩, Hdone⟩, Hk⟩
  unfold x2Todo
  icases Hj with ⟨Hat, Hcr, Hx, Ho, HtS, HtR, Hpo⟩
  icases HO with ⟨%W, HO⟩
  icases Ho with ⟨%fo, Ho⟩
  icases Hpo with ⟨%fd, Hpo⟩
  have hNx : (cdst j).view.dmaCredit = Nx := rfl
  have hrest : bigSep ((Rd (F := F) m).duties ((c : Thread nD τ), SemLoc.dma (xrS j)) 0 \ ∅)
      (fun d => (Rd (F := F) m).payload ((c : Thread nD τ), SemLoc.dma (xrS j)) 0 d)
        = (cLoc c ↦[cSet c j]{fullShare} commG m c : sProp 𝕄) := rest_xr m c j
  iapply (Rounds.wp_wait_rest_token 𝒱₀ ER (Rd m) (c : Thread nD τ) none (κ := K (c, kXr j))
      (wpE_waitDma2_eq 𝒱₀ (c : Thread nD τ) none Set.univ) (Set.mem_univ _) () (O := OY c j.val) (W := W) (R := 0) (m := 0) (T := ∅)
      (by rw [hNx, Nat.zero_add]; exact (expect_xr m c j).symm)) $$ [Hlev HO Hcr Hat]
  · isplitr; · iapply (recInv m K (c, kXr j)); iexact Hrec
    isplitl [Hcr]; · rw [hNx]; iexact Hcr
    isplitl [HO]; · iexact HO
    isplitl [Hlev]; · iapply (mayWait_xr c j j.val); iexact Hlev
    iexact Hat
  iintro ⟨HO, Hat, -, Hpay⟩
  ihave Hc := (Entails.of_eq hrest) $$ Hpay
  iapply (wp_load 𝒱₀ (c : Thread nD τ) none Set.univ (m := XM) (r := (xrect j).toLoadRect) (S := xSet c j) (q := half') (f := xA m c)
      (xload_set c j).subset) $$ Hx
  iintro Hx
  iapply (wp_load 𝒱₀ (c : Thread nD τ) none Set.univ (m := CM) (r := (crect j).toLoadRect) (S := cSet c j) (q := fullShare) (f := commG m c)
      (cload_set c j).subset) $$ Hc
  iintro Hc
  iapply (wp_load 𝒱₀ (c : Thread nD τ) none Set.univ (m := OM) (r := (orect (col c) j).toLoadRect) (S := oSet c (col c) j) (q := fullShare) (f := fo)
      (oload_set c (col c) j).subset) $$ Ho
  iintro Ho
  iapply (wp_store 𝒱₀ (c : Thread nD τ) none Set.univ (m := OM) (r := orect (col c) j) (w := sumV m c j) (Mk := Finset.univ)
      (S := oSet c (col c) j) (f := fo) (show (oSet c (col c) j) ⊆ oSet c (col c) j from subset_rfl)) $$ Ho
  iintro Ho
  ihave Ho := (Entails.of_eq (pointsTo_congr (ℓ := oLoc c) (q := fullShare) (stored m c j fo))) $$ Ho
  have hland : (oLoc (yp c) ↦[oSet (yp c) (col c) j]{fullShare}
        ((oblk (col c) j).view.write (Elt F) fd ((oblk (col c) j).view.read (Elt F) (outG m c)) Finset.univ) : sProp 𝕄)
      ⊢ (Rd (F := F) m).payload (cellK (yp c) (kYr j)) 0 false := by
    rw [payload_yr, pointsTo_congr (landY m c j fd)]; unfold yrPay; rw [yp_yp]
  iapply (Rounds.wp_send_pointsTo 𝒱₀ ER (Rd m) (c : Thread nD τ) none (c' := (yp c : Thread nD τ)) (src := oblk (col c) j) (dst := oblk (col c) j)
      (q := fullShare) (fs := outG m c) (fd := fd) (κ₁ := K (c, kYs j)) (κ₂ := K (yp c, kYr j))
      (r₁ := 0) (r₂ := 0) (d₁ := false) (d₂ := false)
      (show false ∈ (Rd (F := F) m).duties (cellK c (kYs j)) 0 by rw [duties_dma]; exact Finset.mem_singleton_self _)
      (show false ∈ (Rd (F := F) m).duties (cellK (yp c) (kYr j)) 0 by rw [duties_dma]; exact Finset.mem_singleton_self _)
      () () Ny rfl (amount_ys m c j false) (amount_yr m (yp c) j false)
      (OY c (j.val + 1)) (OY_peel c j) (W := insert (SemLoc.dma (xrS j), ()) W)
      (Entails.of_eq (payload_ys m c j false).symm)
      hland) $$ [HO HtS HtR Ho Hpo]
  · isplitr; · iapply (recInv m K (c, kYs j)); iexact Hrec
    isplitr; · iapply (recInv m K (yp c, kYr j)); iexact Hrec
    isplitl [Ho]; · iexact Ho
    isplitl [Hpo]; · iexact Hpo
    isplitl [HO]; · iexact HO
    isplitl [HtS]; · iexact HtS
    isplitr; · iapply (recReached m K (c, kYs j)); iexact Hrec
    isplitl [HtR]; · iexact HtR
    iapply (recReached m K (yp c, kYr j)); iexact Hrec
  iintro ⟨Hcr', HO⟩
  iapply Hk
  isplitl [HO]; · iexists (insert (SemLoc.dma (xrS j), ()) W); iexact HO
  isplitl [Htodo]; · iexact Htodo
  isplitr [Hdone]
  · unfold x2Done
    isplitl [Hat]; · iexact Hat
    isplitl [Hx]; · iexact Hx
    isplitl [Hc]; · iexact Hc
    iexact Hcr'
  iexact Hdone

end Cert.KernelIdeal.Coll
end
-- ==== Proof.StepsC.lean ====
import proofs.«900323_g7700000000000324_dist_rsx_agy_m512_n512_v7x_xy2x2_f32_1_alg».proof.Proof.Tables
import proofs.«900323_g7700000000000324_dist_rsx_agy_m512_n512_v7x_xy2x2_f32_1_alg».proof.Proof.Regions

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-- The invariant of any one cell, out of the shared record. -/
private theorem rec_inv (ck : Dev nD × CK) : records m K ⊢ cellInv ER (Rd m) (K ck) (kcell ck) := by
  unfold records
  iintro ⟨H, -⟩
  iapply (show (bigSep Finset.univ fun ck : Dev nD × CK => (cellInv ER (Rd m) (K ck) (kcell ck) : sProp 𝕄)) ⊢ cellInv ER (Rd m) (K ck) (kcell ck) from
    bigSep_elim (Finset.mem_univ ck))
  iexact H

/-! ## Phase 3: the wait for chunk `j` of the y-peer's column block -/

theorem wp_ywait (c : Dev nD) (j : Fin 16) {sYR : DmaSem sig} (hs : sYR = yrS j)
    {wsrc wdst : Memref sig .tc .vmem S32x512 .f32} (hcr : wdst.view.dmaCredit = Ny) {hw1 : wsrc.view.WordExact} {hw2 : wdst.view.WordExact}
    {α : Type} {Q : α → sProp 𝕄} {k : PUnit → Prog (TpuEff nD τ sig (Elt F) Λ₀ .tc) α} :
    iprop(records m K ∗ owesE c 0 ∗ S3 m c j.val ∗ ((owesE c 0 ∗ S3 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sYR wsrc wdst hw1 hw2) k) Q := by
  subst hs
  unfold owesE S3
  rw [bigSep_ge_peel (x3Todo c) j, bigSep_lt_peel (x3Done m c) j]
  iintro ⟨#Hrec, HO, ⟨⟨Hj, Htodo⟩, Hdone⟩, Hk⟩
  unfold x3Todo
  icases Hj with ⟨Hat, Hc⟩
  icases HO with ⟨%W, HO⟩
  iapply (Rounds.wp_wait_rest_token 𝒱₀ ER (Rd m) (c : Thread nD τ) none (κ := K (c, kYr j)) (sm := csem (kYr j))
      (wpE_waitDma2_eq 𝒱₀ (c : Thread nD τ) none Set.univ) (Set.mem_univ _) () (O := 0) (W := W) (R := 0) (m := 0) (T := ∅)
      (by rw [hcr]; exact (Nat.zero_add _).trans (expect_yr m c j).symm)) $$ [HO Hc Hat]
  · isplitr; · iapply (rec_inv m K (c, kYr j)); iexact Hrec
    isplitl [Hc]; · rw [hcr]; iexact Hc
    isplitl [HO]; · iexact HO
    isplitr; · rw [MayWait_zero]; iempintro
    iexact Hat
  iintro ⟨HO, Hat, -, Hpay⟩
  ihave Hp := (Entails.of_eq (rest_yr m c j)) $$ Hpay
  iapply Hk
  isplitl [HO]; · iexists (insert (csem (kYr j), ()) W); iexact HO
  isplitl [Htodo]; · iexact Htodo
  isplitl [Hat Hp]
  · unfold x3Done
    isplitl [Hat]; · iexact Hat
    iexact Hp
  iexact Hdone

/-! ## Phase 4: the waits on chunk `j`'s two send cells: the sources come back -/

theorem wp_swait (c : Dev nD) (j : Fin 16) {sXS sYS : DmaSem sig} (hsx : sXS = xsS j) (hsy : sYS = ysS j)
    {s1 d1 s2 d2 : Memref sig .tc .vmem S32x512 .f32} (hcr1 : d1.view.dmaCredit = Nx) (hcr2 : d2.view.dmaCredit = Ny)
    {h1 : s1.view.WordExact} {h2 : d1.view.WordExact} {h3 : s2.view.WordExact} {h4 : d2.view.WordExact}
    {α : Type} {Q : α → sProp 𝕄} {k : PUnit → Prog (TpuEff nD τ sig (Elt F) Λ₀ .tc) α} :
    iprop(records m K ∗ owesE c 0 ∗ S4 m c j.val ∗ ((owesE c 0 ∗ S4 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sXS s1 d1 h1 h2) fun _ => .op (.waitDma2 sYS s2 d2 h3 h4) k) Q := by
  subst hsx hsy
  unfold owesE S4
  rw [bigSep_ge_peel (x4Todo c) j, bigSep_lt_peel (x4Done m c) j]
  iintro ⟨#Hrec, HO, ⟨⟨Hj, Htodo⟩, Hdone⟩, Hk⟩
  unfold x4Todo
  icases Hj with ⟨Hat1, Hc1, Hat2, Hc2⟩
  icases HO with ⟨%W, HO⟩
  iapply (Rounds.wp_wait_rest_token 𝒱₀ ER (Rd m) (c : Thread nD τ) none (κ := K (c, kXs j)) (sm := csem (kXs j))
      (wpE_waitDma2_eq 𝒱₀ (c : Thread nD τ) none Set.univ) (Set.mem_univ _) () (O := 0) (W := W) (R := 0) (m := 0) (T := ∅)
      (by rw [hcr1]; exact (Nat.zero_add _).trans (expect_xs m c j).symm)) $$ [HO Hc1 Hat1]
  · isplitr; · iapply (rec_inv m K (c, kXs j)); iexact Hrec
    isplitl [Hc1]; · rw [hcr1]; iexact Hc1
    isplitl [HO]; · iexact HO
    isplitr; · rw [MayWait_zero]; iempintro
    iexact Hat1
  iintro ⟨HO, Hat1, -, Hpay1⟩
  iapply (Rounds.wp_wait_rest_token 𝒱₀ ER (Rd m) (c : Thread nD τ) none (κ := K (c, kYs j)) (sm := csem (kYs j))
      (wpE_waitDma2_eq 𝒱₀ (c : Thread nD τ) none Set.univ) (Set.mem_univ _) () (O := 0) (W := insert (csem (kXs j), ()) W) (R := 0) (m := 0) (T := ∅)
      (by rw [hcr2]; exact (Nat.zero_add _).trans (expect_ys m c j).symm)) $$ [HO Hc2 Hat2]
  · isplitr; · iapply (rec_inv m K (c, kYs j)); iexact Hrec
    isplitl [Hc2]; · rw [hcr2]; iexact Hc2
    isplitl [HO]; · iexact HO
    isplitr; · rw [MayWait_zero]; iempintro
    iexact Hat2
  iintro ⟨HO, Hat2, -, Hpay2⟩
  ihave Hp1 := (Entails.of_eq (rest_xs m c j)) $$ Hpay1
  ihave Hp2 := (Entails.of_eq (rest_ys m c j)) $$ Hpay2
  iapply Hk
  isplitl [HO]; · iexists (insert (csem (kYs j), ()) (insert (csem (kXs j), ()) W)); iexact HO
  isplitl [Htodo]; · iexact Htodo
  isplitl [Hat1 Hp1 Hat2 Hp2]
  · unfold x4Done
    isplitl [Hat1]; · iexact Hat1
    isplitl [Hp1]; · iexact Hp1
    isplitl [Hat2]; · iexact Hat2
    iexact Hp2
  iexact Hdone

/-! ## The 64 own cells close: every one of them is past its only round -/

/-- One cell past its only round closes: the shared record holds its invariant. -/
private theorem close_one (c : Dev nD) (a : Fin 4) (i : Fin 16) :
    iprop(records m K ∗ atPos ER (cellK c (some (a, i))) 1 ∅ 0) ⊢ (|={Set.univ}=> semVal (cellK c (some (a, i))) 0 : sProp 𝕄) := by
  iintro ⟨#Hrec, Hat⟩
  iapply (Rounds.cell_close ER (Rd m) (g := cellK c (some (a, i))) (κ := K (c, some (a, i))) (Set.mem_univ _) (fun h => h) (R := 0 + 1) (duties_later m _))
  isplitr; · iapply (rec_inv m K (c, some (a, i))); iexact Hrec
  iexact Hat

/-- One family of sixteen cells closes under one update: the shared record serves every cell of the family. -/
private theorem close_fam (c : Dev nD) (a : Fin 4) :
    iprop(records m K ∗ bigSep Finset.univ fun i : Fin 16 => atPos ER (cellK c (some (a, i))) 1 ∅ 0)
      ⊢ (|={Set.univ}=> bigSep Finset.univ fun i : Fin 16 => semVal (cellK c (some (a, i))) 0 : sProp 𝕄) :=
  ((sep_mono_left (BI.bigSep_of_persistent (Finset.univ : Finset (Fin 16)) (records m K))).trans
    (by rw [← bigSep_sep']; exact bigSep_mono fun i _ => close_one m K c a i)).trans (bigSep_fupd _ _)

/-- The 64 transfer cells, family by family. -/
private theorem cells_split (Φ : Fin 4 × Fin 16 → sProp 𝕄) :
    bigSep Finset.univ Φ
      = iprop((bigSep Finset.univ fun i : Fin 16 => Φ (0, i)) ∗ (bigSep Finset.univ fun i : Fin 16 => Φ (1, i))
          ∗ (bigSep Finset.univ fun i : Fin 16 => Φ (2, i)) ∗ bigSep Finset.univ fun i : Fin 16 => Φ (3, i)) := by
  rw [bigSep_univ_prod, bigSep_univ_eq_bigSepL [(0 : Fin 4), 1, 2, 3] (by decide) (by decide), bigSepL_cons_cons, bigSepL_cons_cons,
    bigSepL_cons_cons, bigSepL_singleton]
  rfl

theorem close_cells (c : Dev nD) :
    iprop(records m K
        ∗ (bigSep Finset.univ fun i : Fin 16 => atPos ER (cellK c (kXs i)) 1 ∅ 0) ∗ (bigSep Finset.univ fun i : Fin 16 => atPos ER (cellK c (kXr i)) 1 ∅ 0)
        ∗ (bigSep Finset.univ fun i : Fin 16 => atPos ER (cellK c (kYs i)) 1 ∅ 0) ∗ (bigSep Finset.univ fun i : Fin 16 => atPos ER (cellK c (kYr i)) 1 ∅ 0))
      ⊢ (|={Set.univ}=> bigSep Finset.univ fun aj : Fin 4 × Fin 16 => semVal (cellK c (some aj)) 0 : sProp 𝕄) := by
  rw [cells_split]
  iintro ⟨#Hrec, H0, H1, H2, H3⟩
  imod (close_fam m K c 0) $$ [H0] with H0
  · isplitr; · iexact Hrec
    iexact H0
  imod (close_fam m K c 1) $$ [H1] with H1
  · isplitr; · iexact Hrec
    iexact H1
  imod (close_fam m K c 2) $$ [H2] with H2
  · isplitr; · iexact Hrec
    iexact H2
  imod (close_fam m K c 3) $$ [H3] with H3
  · isplitr; · iexact Hrec
    iexact H3
  imodintro
  isplitl [H0]; · iexact H0
  isplitl [H1]; · iexact H1
  isplitl [H2]; · iexact H2
  iexact H3

end Cert.KernelIdeal.Coll
end
-- ==== Proof.Glue.lean ====
import proofs.«900323_g7700000000000324_dist_rsx_agy_m512_n512_v7x_xy2x2_f32_1_alg».proof.Proof.Tables
import proofs.«900323_g7700000000000324_dist_rsx_agy_m512_n512_v7x_xy2x2_f32_1_alg».proof.Proof.Regions

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-! ## Entry: the three buffers cut into chunks -/

/-- The landing buffer, the block of `x` (in two half shares) and the result buffer (its own and its y-peer's column block),
    chunk by chunk. -/
theorem entry_split (c : Dev nD) (fc : Buf (Elt F) (cLoc c)) (fo : Buf (Elt F) (oLoc c)) :
    iprop((cLoc c ↦{fullShare} fc) ∗ (xLoc c ↦{fullShare} xA m c) ∗ (oLoc c ↦{fullShare} fo))
      ⊢ (iprop((bigSep Finset.univ fun j : Fin 16 => iprop(∃ f, cLoc c ↦[cSet c j]{fullShare} f))
          ∗ (bigSep Finset.univ fun j : Fin 16 => xLoc c ↦[xSet c j]{half} xA m c) ∗ (bigSep Finset.univ fun j : Fin 16 => xLoc c ↦[xSet c j]{half'} xA m c)
          ∗ (bigSep Finset.univ fun j : Fin 16 => iprop(∃ f, oLoc c ↦[oSet c (col c) j]{fullShare} f))
          ∗ (bigSep Finset.univ fun j : Fin 16 => iprop(∃ f, oLoc c ↦[oSet c (col (yp c)) j]{fullShare} f))) : sProp 𝕄) := by
  have hcol : ∀ c : Dev nD, (col c = 0 ∧ col (yp c) = 1) ∨ (col c = 1 ∧ col (yp c) = 0) := by decide
  have hC : (bigSep Finset.univ fun j : Fin 16 => (cLoc c ↦[cSet c j]{fullShare} fc : sProp 𝕄))
      ⊢ bigSep Finset.univ fun j : Fin 16 => iprop(∃ f, cLoc c ↦[cSet c j]{fullShare} f) :=
    bigSep_mono fun j _ => show (cLoc c ↦[cSet c j]{fullShare} fc : sProp 𝕄) ⊢ iprop(∃ f, cLoc c ↦[cSet c j]{fullShare} f) by
      iintro H; iexists fc; iexact H
  have hX : (bigSep Finset.univ fun j : Fin 16 => (xLoc c ↦[xSet c j]{fullShare} xA m c : sProp 𝕄))
      ⊢ iprop((bigSep Finset.univ fun j : Fin 16 => xLoc c ↦[xSet c j]{half} xA m c)
          ∗ (bigSep Finset.univ fun j : Fin 16 => xLoc c ↦[xSet c j]{half'} xA m c)) := by
    rw [← bigSep_sep']
    exact bigSep_mono fun j _ => (pointsTo_share (PosShare.mem_left_op_right fullShare)).1
  have hO : ∀ b : Fin 2, (bigSep Finset.univ fun j : Fin 16 => (oLoc c ↦[oSet c b j]{fullShare} fo : sProp 𝕄))
      ⊢ bigSep Finset.univ fun j : Fin 16 => iprop(∃ f, oLoc c ↦[oSet c b j]{fullShare} f) :=
    fun b => bigSep_mono fun j _ => show (oLoc c ↦[oSet c b j]{fullShare} fo : sProp 𝕄) ⊢ iprop(∃ f, oLoc c ↦[oSet c b j]{fullShare} f) by
      iintro H; iexists fo; iexact H
  rw [C_split c fc, X_split c fullShare (xA m c), O_split c fo]
  iintro ⟨HC, HX, HO0, HO1⟩
  ihave HC := hC $$ HC
  ihave HX := hX $$ HX
  icases HX with ⟨HX1, HX2⟩
  ihave HO0 := hO 0 $$ HO0
  ihave HO1 := hO 1 $$ HO1
  rcases hcol c with ⟨h0, h1⟩ | ⟨h0, h1⟩ <;> rw [h0, h1] <;> iframe

omit [FloatOps F] in
/-- A device's positions, family by family. -/
theorem positions_split (c : Dev nD) :
    (positions c : sProp 𝕄) ⊢ iprop(atPos ER (cellK c kBar) 0 ∅ 0
      ∗ (bigSep Finset.univ fun j : Fin 16 => atPos ER (cellK c (kXs j)) 0 ∅ 0) ∗ (bigSep Finset.univ fun j : Fin 16 => atPos ER (cellK c (kXr j)) 0 ∅ 0)
      ∗ (bigSep Finset.univ fun j : Fin 16 => atPos ER (cellK c (kYs j)) 0 ∅ 0) ∗ (bigSep Finset.univ fun j : Fin 16 => atPos ER (cellK c (kYr j)) 0 ∅ 0)) := by
  have hU : (Finset.univ : Finset CK) = insert none ((Finset.univ : Finset (Fin 4 × Fin 16)).map Function.Embedding.some) := by
    ext k; cases k <;> simp
  have hn : (none : CK) ∉ (Finset.univ : Finset (Fin 4 × Fin 16)).map Function.Embedding.some := by simp
  unfold positions
  rw [hU, bigSep_insert hn, BI.bigSep_map, bigSep_univ_prod, bigSep_univ_eq_bigSepL [0, 1, 2, 3] (by decide) (by decide),
    bigSepL_cons_cons, bigSepL_cons_cons, bigSepL_cons_cons, bigSepL_singleton]
  exact .refl

omit [FloatOps F] in
/-- The tokens it pays with: the two barrier duties, the pairs along x, the pairs along y. -/
theorem payToks_split (c : Dev nD) :
    (payToks c : sProp 𝕄) ⊢ iprop(dutyTok ER (cellK (xp c) kBar) 0 false ∗ dutyTok ER (cellK (yp c) kBar) 0 true
      ∗ (bigSep Finset.univ fun j : Fin 16 => iprop(dutyTok ER (cellK c (kXs j)) 0 false ∗ dutyTok ER (cellK (xp c) (kXr j)) 0 false))
      ∗ (bigSep Finset.univ fun j : Fin 16 => iprop(dutyTok ER (cellK c (kYs j)) 0 false ∗ dutyTok ER (cellK (yp c) (kYr j)) 0 false))) := by
  unfold payToks
  simp only [bigSep_sep']
  iintro ⟨H1, H2, H3, H4, H5, H6⟩
  iframe

/-! ## Into and out of the phases -/

theorem S1_intro (c : Dev nD) :
    iprop((bigSep Finset.univ fun j : Fin 16 => iprop(dutyTok ER (cellK c (kXs j)) 0 false ∗ dutyTok ER (cellK (xp c) (kXr j)) 0 false))
        ∗ (bigSep Finset.univ fun j : Fin 16 => xLoc c ↦[xSet c j]{half} xA m c) ∗ barPayX c) ⊢ S1 m c 0 := by
  delta S1 x1Todo x1Done barPayX
  rw [ge_zero, lt_zero, bigSep_empty]
  simp only [bigSep_sep']
  iintro ⟨⟨H1, H2⟩, H3, H4⟩
  iframe; iempintro

omit [FloatOps F] in
theorem S1_elim (c : Dev nD) : S1 m c 16 ⊢ ((bigSep Finset.univ fun j : Fin 16 => cred (tallyAt (cellK c (kXs j)) () Nx)) : sProp 𝕄) := by
  delta S1 x1Todo x1Done
  rw [ge_sixteen, lt_sixteen, bigSep_empty]
  iintro ⟨-, H⟩
  iexact H

theorem S2_intro (c : Dev nD) :
    iprop((bigSep Finset.univ fun j : Fin 16 => atPos ER (cellK c (kXr j)) 0 ∅ 0) ∗ (bigSep Finset.univ fun j : Fin 16 => cred (tallyAt (cellK c (kXr j)) () Nx))
        ∗ (bigSep Finset.univ fun j : Fin 16 => xLoc c ↦[xSet c j]{half'} xA m c) ∗ (bigSep Finset.univ fun j : Fin 16 => iprop(∃ f, oLoc c ↦[oSet c (col c) j]{fullShare} f))
        ∗ (bigSep Finset.univ fun j : Fin 16 => iprop(dutyTok ER (cellK c (kYs j)) 0 false ∗ dutyTok ER (cellK (yp c) (kYr j)) 0 false)) ∗ barPayY c)
      ⊢ S2 m c 0 := by
  delta S2 x2Todo x2Done barPayY
  rw [ge_zero, lt_zero, bigSep_empty]
  simp only [bigSep_sep']
  iintro ⟨H1, H2, H3, H4, ⟨H5, H6⟩, H7⟩
  iframe; iempintro

theorem S2_elim (c : Dev nD) :
    S2 m c 16 ⊢ iprop((bigSep Finset.univ fun j : Fin 16 => atPos ER (cellK c (kXr j)) 1 ∅ 0) ∗ (bigSep Finset.univ fun j : Fin 16 => xLoc c ↦[xSet c j]{half'} xA m c)
      ∗ (bigSep Finset.univ fun j : Fin 16 => cLoc c ↦[cSet c j]{fullShare} commG m c) ∗ (bigSep Finset.univ fun j : Fin 16 => cred (tallyAt (cellK c (kYs j)) () Ny))) := by
  delta S2 x2Todo x2Done
  rw [ge_sixteen, lt_sixteen, bigSep_empty]
  simp only [bigSep_sep']
  iintro ⟨-, H1, H2, H3, H4⟩
  iframe

theorem S3_intro (c : Dev nD) :
    iprop((bigSep Finset.univ fun j : Fin 16 => atPos ER (cellK c (kYr j)) 0 ∅ 0) ∗ (bigSep Finset.univ fun j : Fin 16 => cred (tallyAt (cellK c (kYr j)) () Ny))) ⊢ S3 m c 0 := by
  delta S3 x3Todo x3Done
  rw [ge_zero, lt_zero, bigSep_empty]
  simp only [bigSep_sep']
  iintro ⟨H1, H2⟩
  iframe; iempintro

theorem S3_elim (c : Dev nD) : S3 m c 16 ⊢ iprop((bigSep Finset.univ fun j : Fin 16 => atPos ER (cellK c (kYr j)) 1 ∅ 0) ∗ (bigSep Finset.univ fun j : Fin 16 => yrPay m c j)) := by
  delta S3 x3Todo x3Done
  rw [ge_sixteen, lt_sixteen, bigSep_empty]
  simp only [bigSep_sep']
  iintro ⟨-, H1, H2⟩
  iframe

theorem S4_intro (c : Dev nD) :
    iprop((bigSep Finset.univ fun j : Fin 16 => atPos ER (cellK c (kXs j)) 0 ∅ 0) ∗ (bigSep Finset.univ fun j : Fin 16 => cred (tallyAt (cellK c (kXs j)) () Nx))
        ∗ (bigSep Finset.univ fun j : Fin 16 => atPos ER (cellK c (kYs j)) 0 ∅ 0) ∗ (bigSep Finset.univ fun j : Fin 16 => cred (tallyAt (cellK c (kYs j)) () Ny))) ⊢ S4 m c 0 := by
  delta S4 x4Todo x4Done
  rw [ge_zero, lt_zero, bigSep_empty]
  simp only [bigSep_sep']
  iintro ⟨H1, H2, H3, H4⟩
  iframe; iempintro

theorem S4_elim (c : Dev nD) :
    S4 m c 16 ⊢ iprop((bigSep Finset.univ fun j : Fin 16 => atPos ER (cellK c (kXs j)) 1 ∅ 0) ∗ (bigSep Finset.univ fun j : Fin 16 => xsPay m c j)
      ∗ (bigSep Finset.univ fun j : Fin 16 => atPos ER (cellK c (kYs j)) 1 ∅ 0) ∗ (bigSep Finset.univ fun j : Fin 16 => ysPay m c j)) := by
  delta S4 x4Todo x4Done
  rw [ge_sixteen, lt_sixteen, bigSep_empty]
  simp only [bigSep_sep']
  iintro ⟨-, H1, H2, H3, H4⟩
  iframe

/-! ## Exit: the chunks joined back into the three buffers -/

theorem exit_join (c : Dev nD) :
    iprop((bigSep Finset.univ fun j : Fin 16 => xsPay m c j) ∗ (bigSep Finset.univ fun j : Fin 16 => xLoc c ↦[xSet c j]{half'} xA m c) ∗ (bigSep Finset.univ fun j : Fin 16 => cLoc c ↦[cSet c j]{fullShare} commG m c)
        ∗ (bigSep Finset.univ fun j : Fin 16 => ysPay m c j) ∗ (bigSep Finset.univ fun j : Fin 16 => yrPay m c j))
      ⊢ iprop((xLoc c ↦{fullShare} xA m c) ∗ (cLoc c ↦{fullShare} commG m c) ∗ (oLoc c ↦{fullShare} outG m c)) := by
  have hcol : ∀ c : Dev nD, (col c = 0 ∧ col (yp c) = 1) ∨ (col c = 1 ∧ col (yp c) = 0) := by decide
  have hX : iprop((bigSep Finset.univ fun j : Fin 16 => xLoc c ↦[xSet c j]{half} xA m c)
        ∗ (bigSep Finset.univ fun j : Fin 16 => xLoc c ↦[xSet c j]{half'} xA m c))
      ⊢ (bigSep Finset.univ fun j : Fin 16 => (xLoc c ↦[xSet c j]{fullShare} xA m c : sProp 𝕄)) := by
    rw [← bigSep_sep']
    exact bigSep_mono fun j _ => (pointsTo_share (PosShare.mem_left_op_right fullShare)).2
  rw [C_split c (commG m c), X_split c fullShare (xA m c), O_split c (outG m c)]
  unfold xsPay ysPay yrPay
  iintro ⟨H1, H2, H3, H4, H5⟩
  isplitl [H1 H2]
  · iapply hX; iframe
  rcases hcol c with ⟨h0, h1⟩ | ⟨h0, h1⟩ <;> rw [h0, h1] <;> iframe

end Cert.KernelIdeal.Coll
end
-- ==== Proof.Body.lean ====
import proofs.«900323_g7700000000000324_dist_rsx_agy_m512_n512_v7x_xy2x2_f32_1_alg».proof.Proof.StepsA
import proofs.«900323_g7700000000000324_dist_rsx_agy_m512_n512_v7x_xy2x2_f32_1_alg».proof.Proof.StepsB
import proofs.«900323_g7700000000000324_dist_rsx_agy_m512_n512_v7x_xy2x2_f32_1_alg».proof.Proof.StepsC
import proofs.«900323_g7700000000000324_dist_rsx_agy_m512_n512_v7x_xy2x2_f32_1_alg».proof.Proof.Glue

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-! ## The body of the kernel on one device, at a symbolic device `c`

The entry handshake (a signal to each peer's barrier, a wait for both), the sixteen sends of row chunks along x, then
chunk by chunk the wait for the x-peer's rows, the sum, its store and its send along y, the sixteen waits for the y-peer's
column block, and the waits on the send cells; the three buffers are cut into chunks at entry and joined again at exit. -/

def bodyPre (c : Dev nD) : sProp 𝕄 :=
  iprop((ghost m K c ∗ creds c ∗ levAts L lv ∗ ∃ f, cLoc c ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xA m c) ∗ stg c cc0_stg1_0 (outG m c))

theorem fetch_0 (t : Fin cfg0.N) : (cfg0.win (0 : Fin 2)).fetch t = true := by rw [fin_N t]; rfl

omit [FloatOps F] in
theorem owesE_intro (c : Dev nD) (O : CellTallies nD τ sig Unit) (W : Waits sig Unit) : (owes (c : Thread nD τ) O W : sProp 𝕄) ⊢ owesE c O := by
  unfold owesE; iintro H; iexists W; iexact H
omit [FloatOps F] in
/-- Once all sixteen sends along x are issued only the credit along y is owed; once those are issued, nothing. -/
theorem owes_after_x (c : Dev nD) : (owesE c (OY c 0 + OX c 16) : sProp 𝕄) ⊢ owesE c (OY c 0) := by rw [OX_sixteen, add_zero]
omit [FloatOps F] in
theorem owes_after_y (c : Dev nD) : (owesE c (OY c 16) : sProp 𝕄) ⊢ owesE c 0 := by rw [OY_sixteen]

omit [FloatOps F] in
theorem owesE_cast (c : Dev nD) {O O' : CellTallies nD τ sig Unit} (h : O = O') : (owesE c O : sProp 𝕄) ⊢ owesE c O' := by subst h; exact .rfl
theorem S1_cast (c : Dev nD) {a b : ℕ} (h : a = b) : S1 m c a ⊢ S1 m c b := by subst h; exact .rfl
theorem S2_cast (c : Dev nD) {a b : ℕ} (h : a = b) : S2 m c a ⊢ S2 m c b := by subst h; exact .rfl
theorem S3_cast (c : Dev nD) {a b : ℕ} (h : a = b) : S3 m c a ⊢ S3 m c b := by subst h; exact .rfl
theorem S4_cast (c : Dev nD) {a b : ℕ} (h : a = b) : S4 m c a ⊢ S4 m c b := by subst h; exact .rfl
theorem last_succ : ((15 : Fin 16).val + 1) = 16 := rfl

/-- A chunk of the result buffer at an offset given as a term. -/
abbrev oSl (off : Fin 2 → ℕ) (inb : ∀ a, off a + S32x512.size a ≤ S512x1024.size a) : Memref sig .tc .vmem S32x512 .f32 :=
  OM.slice (Rect.unit (s := S512x1024) off S32x512.size inb) (fun _ => rfl)
theorem oSl_eq (c : Dev nD) (j : Fin 16) (off : Fin 2 → ℕ) (h : off = ![32 * j.val, 512 * (col c).val])
    (inb : ∀ a, off a + S32x512.size a ≤ S512x1024.size a) : oSl off inb = oblk (col c) j := by subst h; rfl

set_option hygiene false in
macro "stepS" t:pmTerm : tactic => `(tactic| (iapply $t; isplitr; iexact Hrec; isplitl [HO]; iexact HO; isplitl [HS]; iexact HS; iintro ⟨HO, HS⟩))
set_option hygiene false in
macro "stepL" t:pmTerm : tactic => `(tactic| (iapply $t; isplitr; iexact Hrec; isplitr; iexact Hlev; isplitl [HO]; iexact HO; isplitl [HS]; iexact HS; iintro ⟨HO, HS⟩))

set_option maxRecDepth 65536 in
set_option maxHeartbeats 16000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold bodyPre ghost
  iintro ⟨⟨⟨⟨#Hrec, Hpos, Htok⟩, Hcr, #Hlev, ⟨%fc, Hc⟩⟩, Ho, ⟨%d0, %g0, %hg0, Hx⟩, ⟨%d1, %g1, %hg1, Hout⟩⟩, Hk⟩
  have hx : g0 = xA m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave HO := (owesE_intro c (O₀ c) W) $$ HO
  -- the buffers cut into chunks, the ghost state family by family
  ihave Hsp := (entry_split m c fc g1) $$ [Hc Hx Hout]
  · isplitl [Hc]; iexact Hc
    isplitl [Hx]; iexact Hx
    iexact Hout
  icases Hsp with ⟨HcP, HxH, HxH', HoK, HoG⟩
  ihave Hp := (positions_split (F := F) c) $$ Hpos
  icases Hp with ⟨HpB, HpXs, HpXr, HpYs, HpYr⟩
  ihave Ht := (payToks_split (F := F) c) $$ Htok
  icases Ht with ⟨HtBx, HtBy, HtX, HtY⟩
  unfold creds
  icases Hcr with ⟨HcB, HcXr, HcYr⟩
  -- the entry handshake
  iapply (wp_sig_x m K c _ (Fin.ext (k0_dev1_eq c)) (by decide) rfl)
  isplitr; iexact Hrec
  isplitl [HO]; iexact HO
  isplitl [HtBx]; iexact HtBx
  isplitl [HcP]; iexact HcP
  iintro HO
  iapply (wp_sig_y m K c _ (Fin.ext (k0_dev2_eq c)) (by decide) rfl)
  isplitr; iexact Hrec
  isplitl [HO]; iexact HO
  isplitl [HtBy]; iexact HtBy
  isplitl [HoG]; iexact HoG
  iintro HO
  iapply (wp_bar_wait m K c (by decide) rfl)
  isplitr; iexact Hrec
  isplitr; iexact Hlev
  isplitl [HO]; iexact HO
  isplitl [HcB]; iexact HcB
  isplitl [HpB]; iexact HpB
  iintro ⟨HO, HpB, HbX, HbY⟩
  -- phase 1: the sixteen sends along x
  ihave HS := (S1_intro m c) $$ [HtX HxH HbX]
  · isplitl [HtX]; iexact HtX
    isplitl [HxH]; iexact HxH
    iexact HbX
  stepS (wp_xsend m K c 0 _ (Fin.ext (k0_dev3_eq c)) rfl rfl rfl rfl)
  stepS (wp_xsend m K c 1 _ (Fin.ext (k0_dev4_eq c)) rfl rfl rfl rfl)
  stepS (wp_xsend m K c 2 _ (Fin.ext (k0_dev5_eq c)) rfl rfl rfl rfl)
  stepS (wp_xsend m K c 3 _ (Fin.ext (k0_dev6_eq c)) rfl rfl rfl rfl)
  stepS (wp_xsend m K c 4 _ (Fin.ext (k0_dev7_eq c)) rfl rfl rfl rfl)
  stepS (wp_xsend m K c 5 _ (Fin.ext (k0_dev8_eq c)) rfl rfl rfl rfl)
  stepS (wp_xsend m K c 6 _ (Fin.ext (k0_dev9_eq c)) rfl rfl rfl rfl)
  stepS (wp_xsend m K c 7 _ (Fin.ext (k0_dev10_eq c)) rfl rfl rfl rfl)
  stepS (wp_xsend m K c 8 _ (Fin.ext (k0_dev11_eq c)) rfl rfl rfl rfl)
  stepS (wp_xsend m K c 9 _ (Fin.ext (k0_dev12_eq c)) rfl rfl rfl rfl)
  stepS (wp_xsend m K c 10 _ (Fin.ext (k0_dev13_eq c)) rfl rfl rfl rfl)
  stepS (wp_xsend m K c 11 _ (Fin.ext (k0_dev14_eq c)) rfl rfl rfl rfl)
  stepS (wp_xsend m K c 12 _ (Fin.ext (k0_dev15_eq c)) rfl rfl rfl rfl)
  stepS (wp_xsend m K c 13 _ (Fin.ext (k0_dev16_eq c)) rfl rfl rfl rfl)
  stepS (wp_xsend m K c 14 _ (Fin.ext (k0_dev17_eq c)) rfl rfl rfl rfl)
  stepS (wp_xsend m K c 15 _ (Fin.ext (k0_dev18_eq c)) rfl rfl rfl rfl)
  ihave HS := (S1_cast m c last_succ) $$ HS
  ihave Hcs := (S1_elim (F := F) m c) $$ HS
  ihave HO := (owesE_cast (F := F) c (show OY c 0 + OX c ((15 : Fin 16).val + 1) = OY c (0 : Fin 16).val from by
    rw [last_succ, OX_sixteen, add_zero]; rfl)) $$ HO
  -- phase 2: chunk by chunk
  ihave HS := (S2_intro m c) $$ [HpXr HcXr HxH' HoK HtY HbY]
  · isplitl [HpXr]; iexact HpXr
    isplitl [HcXr]; iexact HcXr
    isplitl [HxH']; iexact HxH'
    isplitl [HoK]; iexact HoK
    isplitl [HtY]; iexact HtY
    iexact HbY
  stepL (wp_chunk m K c 0 _ (Fin.ext (k0_dev19_eq c)) rfl rfl (k0_off1_eq c) (k0_off1_eq c) rfl (oSl_eq c 0 _ (k0_off2_eq c) _) (oSl_eq c 0 _ (k0_off2_eq c) _) rfl rfl)
  stepL (wp_chunk m K c 1 _ (Fin.ext (k0_dev20_eq c)) rfl rfl (k0_off3_eq c) (k0_off3_eq c) rfl (oSl_eq c 1 _ (k0_off4_eq c) _) (oSl_eq c 1 _ (k0_off4_eq c) _) rfl rfl)
  stepL (wp_chunk m K c 2 _ (Fin.ext (k0_dev21_eq c)) rfl rfl (k0_off5_eq c) (k0_off5_eq c) rfl (oSl_eq c 2 _ (k0_off6_eq c) _) (oSl_eq c 2 _ (k0_off6_eq c) _) rfl rfl)
  stepL (wp_chunk m K c 3 _ (Fin.ext (k0_dev22_eq c)) rfl rfl (k0_off7_eq c) (k0_off7_eq c) rfl (oSl_eq c 3 _ (k0_off8_eq c) _) (oSl_eq c 3 _ (k0_off8_eq c) _) rfl rfl)
  stepL (wp_chunk m K c 4 _ (Fin.ext (k0_dev23_eq c)) rfl rfl (k0_off9_eq c) (k0_off9_eq c) rfl (oSl_eq c 4 _ (k0_off10_eq c) _) (oSl_eq c 4 _ (k0_off10_eq c) _) rfl rfl)
  stepL (wp_chunk m K c 5 _ (Fin.ext (k0_dev24_eq c)) rfl rfl (k0_off11_eq c) (k0_off11_eq c) rfl (oSl_eq c 5 _ (k0_off12_eq c) _) (oSl_eq c 5 _ (k0_off12_eq c) _) rfl rfl)
  stepL (wp_chunk m K c 6 _ (Fin.ext (k0_dev25_eq c)) rfl rfl (k0_off13_eq c) (k0_off13_eq c) rfl (oSl_eq c 6 _ (k0_off14_eq c) _) (oSl_eq c 6 _ (k0_off14_eq c) _) rfl rfl)
  stepL (wp_chunk m K c 7 _ (Fin.ext (k0_dev26_eq c)) rfl rfl (k0_off15_eq c) (k0_off15_eq c) rfl (oSl_eq c 7 _ (k0_off16_eq c) _) (oSl_eq c 7 _ (k0_off16_eq c) _) rfl rfl)
  stepL (wp_chunk m K c 8 _ (Fin.ext (k0_dev27_eq c)) rfl rfl (k0_off17_eq c) (k0_off17_eq c) rfl (oSl_eq c 8 _ (k0_off18_eq c) _) (oSl_eq c 8 _ (k0_off18_eq c) _) rfl rfl)
  stepL (wp_chunk m K c 9 _ (Fin.ext (k0_dev28_eq c)) rfl rfl (k0_off19_eq c) (k0_off19_eq c) rfl (oSl_eq c 9 _ (k0_off20_eq c) _) (oSl_eq c 9 _ (k0_off20_eq c) _) rfl rfl)
  stepL (wp_chunk m K c 10 _ (Fin.ext (k0_dev29_eq c)) rfl rfl (k0_off21_eq c) (k0_off21_eq c) rfl (oSl_eq c 10 _ (k0_off22_eq c) _) (oSl_eq c 10 _ (k0_off22_eq c) _) rfl rfl)
  stepL (wp_chunk m K c 11 _ (Fin.ext (k0_dev30_eq c)) rfl rfl (k0_off23_eq c) (k0_off23_eq c) rfl (oSl_eq c 11 _ (k0_off24_eq c) _) (oSl_eq c 11 _ (k0_off24_eq c) _) rfl rfl)
  stepL (wp_chunk m K c 12 _ (Fin.ext (k0_dev31_eq c)) rfl rfl (k0_off25_eq c) (k0_off25_eq c) rfl (oSl_eq c 12 _ (k0_off26_eq c) _) (oSl_eq c 12 _ (k0_off26_eq c) _) rfl rfl)
  stepL (wp_chunk m K c 13 _ (Fin.ext (k0_dev32_eq c)) rfl rfl (k0_off27_eq c) (k0_off27_eq c) rfl (oSl_eq c 13 _ (k0_off28_eq c) _) (oSl_eq c 13 _ (k0_off28_eq c) _) rfl rfl)
  stepL (wp_chunk m K c 14 _ (Fin.ext (k0_dev33_eq c)) rfl rfl (k0_off29_eq c) (k0_off29_eq c) rfl (oSl_eq c 14 _ (k0_off30_eq c) _) (oSl_eq c 14 _ (k0_off30_eq c) _) rfl rfl)
  stepL (wp_chunk m K c 15 _ (Fin.ext (k0_dev34_eq c)) rfl rfl (k0_off31_eq c) (k0_off31_eq c) rfl (oSl_eq c 15 _ (k0_off32_eq c) _) (oSl_eq c 15 _ (k0_off32_eq c) _) rfl rfl)
  ihave HS := (S2_cast m c last_succ) $$ HS
  ihave H2 := (S2_elim m c) $$ HS
  icases H2 with ⟨HpXr1, HxH', HcG, HcYs⟩
  ihave HO := (owesE_cast (F := F) c (show OY c ((15 : Fin 16).val + 1) = 0 from by rw [last_succ, OY_sixteen])) $$ HO
  -- phase 3: the y-peer's column block
  ihave HS := (S3_intro m c) $$ [HpYr HcYr]
  · isplitl [HpYr]; iexact HpYr
    iexact HcYr
  stepS (wp_ywait m K c 0 rfl (wdst := oSl (k0_off2 c) (k0_off2_inb c)) rfl)
  stepS (wp_ywait m K c 1 rfl (wdst := oSl (k0_off4 c) (k0_off4_inb c)) rfl)
  stepS (wp_ywait m K c 2 rfl (wdst := oSl (k0_off6 c) (k0_off6_inb c)) rfl)
  stepS (wp_ywait m K c 3 rfl (wdst := oSl (k0_off8 c) (k0_off8_inb c)) rfl)
  stepS (wp_ywait m K c 4 rfl (wdst := oSl (k0_off10 c) (k0_off10_inb c)) rfl)
  stepS (wp_ywait m K c 5 rfl (wdst := oSl (k0_off12 c) (k0_off12_inb c)) rfl)
  stepS (wp_ywait m K c 6 rfl (wdst := oSl (k0_off14 c) (k0_off14_inb c)) rfl)
  stepS (wp_ywait m K c 7 rfl (wdst := oSl (k0_off16 c) (k0_off16_inb c)) rfl)
  stepS (wp_ywait m K c 8 rfl (wdst := oSl (k0_off18 c) (k0_off18_inb c)) rfl)
  stepS (wp_ywait m K c 9 rfl (wdst := oSl (k0_off20 c) (k0_off20_inb c)) rfl)
  stepS (wp_ywait m K c 10 rfl (wdst := oSl (k0_off22 c) (k0_off22_inb c)) rfl)
  stepS (wp_ywait m K c 11 rfl (wdst := oSl (k0_off24 c) (k0_off24_inb c)) rfl)
  stepS (wp_ywait m K c 12 rfl (wdst := oSl (k0_off26 c) (k0_off26_inb c)) rfl)
  stepS (wp_ywait m K c 13 rfl (wdst := oSl (k0_off28 c) (k0_off28_inb c)) rfl)
  stepS (wp_ywait m K c 14 rfl (wdst := oSl (k0_off30 c) (k0_off30_inb c)) rfl)
  stepS (wp_ywait m K c 15 rfl (wdst := oSl (k0_off32 c) (k0_off32_inb c)) rfl)
  ihave HS := (S3_cast m c last_succ) $$ HS
  ihave H3 := (S3_elim m c) $$ HS
  icases H3 with ⟨HpYr1, HyrP⟩
  -- phase 4: the send cells
  ihave HS := (S4_intro m c) $$ [HpXs Hcs HpYs HcYs]
  · isplitl [HpXs]; iexact HpXs
    isplitl [Hcs]; iexact Hcs
    isplitl [HpYs]; iexact HpYs
    iexact HcYs
  stepS (wp_swait m K c 0 rfl rfl (d1 := xsrc 0) (d2 := oSl (k0_off2 c) (k0_off2_inb c)) rfl rfl)
  stepS (wp_swait m K c 1 rfl rfl (d1 := xsrc 1) (d2 := oSl (k0_off4 c) (k0_off4_inb c)) rfl rfl)
  stepS (wp_swait m K c 2 rfl rfl (d1 := xsrc 2) (d2 := oSl (k0_off6 c) (k0_off6_inb c)) rfl rfl)
  stepS (wp_swait m K c 3 rfl rfl (d1 := xsrc 3) (d2 := oSl (k0_off8 c) (k0_off8_inb c)) rfl rfl)
  stepS (wp_swait m K c 4 rfl rfl (d1 := xsrc 4) (d2 := oSl (k0_off10 c) (k0_off10_inb c)) rfl rfl)
  stepS (wp_swait m K c 5 rfl rfl (d1 := xsrc 5) (d2 := oSl (k0_off12 c) (k0_off12_inb c)) rfl rfl)
  stepS (wp_swait m K c 6 rfl rfl (d1 := xsrc 6) (d2 := oSl (k0_off14 c) (k0_off14_inb c)) rfl rfl)
  stepS (wp_swait m K c 7 rfl rfl (d1 := xsrc 7) (d2 := oSl (k0_off16 c) (k0_off16_inb c)) rfl rfl)
  stepS (wp_swait m K c 8 rfl rfl (d1 := xsrc 8) (d2 := oSl (k0_off18 c) (k0_off18_inb c)) rfl rfl)
  stepS (wp_swait m K c 9 rfl rfl (d1 := xsrc 9) (d2 := oSl (k0_off20 c) (k0_off20_inb c)) rfl rfl)
  stepS (wp_swait m K c 10 rfl rfl (d1 := xsrc 10) (d2 := oSl (k0_off22 c) (k0_off22_inb c)) rfl rfl)
  stepS (wp_swait m K c 11 rfl rfl (d1 := xsrc 11) (d2 := oSl (k0_off24 c) (k0_off24_inb c)) rfl rfl)
  stepS (wp_swait m K c 12 rfl rfl (d1 := xsrc 12) (d2 := oSl (k0_off26 c) (k0_off26_inb c)) rfl rfl)
  stepS (wp_swait m K c 13 rfl rfl (d1 := xsrc 13) (d2 := oSl (k0_off28 c) (k0_off28_inb c)) rfl rfl)
  stepS (wp_swait m K c 14 rfl rfl (d1 := xsrc 14) (d2 := oSl (k0_off30 c) (k0_off30_inb c)) rfl rfl)
  stepS (wp_swait m K c 15 rfl rfl (d1 := xsrc 15) (d2 := oSl (k0_off32 c) (k0_off32_inb c)) rfl rfl)
  ihave HS := (S4_cast m c last_succ) $$ HS
  ihave H4 := (S4_elim m c) $$ HS
  icases H4 with ⟨HpXs1, HxsP, HpYs1, HysP⟩
  -- the own cells close; the buffers are whole again
  imod (close_cells m K c) $$ [HpXs1 HpXr1 HpYs1 HpYr1] with Hsem
  · isplitr; iexact Hrec
    isplitl [HpXs1]; iexact HpXs1
    isplitl [HpXr1]; iexact HpXr1
    isplitl [HpYs1]; iexact HpYs1
    iexact HpYr1
  ihave Hj := (exit_join m c) $$ [HxsP HxH' HcG HysP HyrP]
  · isplitl [HxsP]; iexact HxsP
    isplitl [HxH']; iexact HxH'
    isplitl [HcG]; iexact HcG
    isplitl [HysP]; iexact HysP
    iexact HyrP
  icases Hj with ⟨Hx, Hc, Hout⟩
  rw [wp_ret]; imodintro
  iapply Hk
  unfold bodyPost Φ₁ Dat.owesAt Pipeline.owesWithin
  rw [show (dats m 0 c).owed t₀.succ = 0 from rfl]
  isplitl [Hc Hsem]
  · isplitl [Hc]; iexact Hc
    iexact Hsem
  isplitl [HO]
  · unfold owesE
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.KernelIdeal.Coll
end
-- ==== Proof.LaunchFinal.lean ====
import proofs.«900323_g7700000000000324_dist_rsx_agy_m512_n512_v7x_xy2x2_f32_1_alg».proof.Proof.Tables
import proofs.«900323_g7700000000000324_dist_rsx_agy_m512_n512_v7x_xy2x2_f32_1_alg».proof.Proof.Regions

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-- The arrays' contents after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array after the run is the staged result buffer's contents: `outG`. -/
theorem finalA_o (c : Dev nD) : finalA m c (1 : Fin 2) = outG m c := by
  -- the one point writes the window back; its block is the whole array at zero offsets, its payload the staged contents
  have h := (dats (F := F) m 0 c).arrAt_succ (1 : Fin 2) t₀
  rw [if_pos (flush0_1 t₀)] at h
  show (dats (F := F) m 0 c).arrAt (1 : Fin 2) (t₀.val + 1) = outG m c
  rw [h]
  exact Memref.write_access_unit_zero_univ (Elt F) main_v1 (funext fun a => Nat.zero_mul _) _ _ _

end Cert.KernelIdeal.Coll
end
-- ==== Proof.Launch.lean ====
import proofs.«900323_g7700000000000324_dist_rsx_agy_m512_n512_v7x_xy2x2_f32_1_alg».proof.Proof.Tables
import proofs.«900323_g7700000000000324_dist_rsx_agy_m512_n512_v7x_xy2x2_f32_1_alg».proof.Proof.Regions
import proofs.«900323_g7700000000000324_dist_rsx_agy_m512_n512_v7x_xy2x2_f32_1_alg».proof.Proof.LaunchFinal

noncomputable section

namespace Cert.KernelIdeal.Coll

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The launch: the collective's cells funded and allocated for all devices at once, the launch credit dealt,
    and the region run from every device's body obligation -/

/-- A device's own (scoped) semaphores: the 64 DMA semaphores of the four families. -/
abbrev osem : Fin 4 × Fin 16 → SemLoc sig := fun aj => csem (some aj)

theorem ownSemFacts : Pipeline.OwnSemFacts cfg0.spec osem := by decide +kernel

theorem share_eq (c : Dev nD) (w : Fin cfg0.W) : (dats m 0 c).share w = fullShare := by unfold Dat.share; split <;> rfl

omit [FloatOps F] in
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens minted, per device: its barrier's false and true, and the one duty of each transfer cell. -/
abbrev TK : Type := Bool ⊕ (Fin 4 × Fin 16)
def tokOf (cj : Dev nD × TK) : GSem nD τ sig × ℕ × Bool := match cj.2 with
  | .inl b => (cellK cj.1 kBar, 0, b)
  | .inr aj => (cellK cj.1 (some aj), 0, false)
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  have : j = j' := by
    cases j with
    | inl b => cases j' with
      | inl b' =>
        have h3 : b = b' := congrArg (fun x : GSem nD τ sig × ℕ × Bool => x.2.2) h
        rw [h3]
      | inr aj' =>
        have h2 : csem none = csem (some aj') := congrArg (fun x : GSem nD τ sig × ℕ × Bool => x.1.2) h
        exact absurd (csem_injective h2) (fun h' => by cases h')
    | inr aj => cases j' with
      | inl b' =>
        have h2 : csem (some aj) = csem none := congrArg (fun x : GSem nD τ sig × ℕ × Bool => x.1.2) h
        exact absurd (csem_injective h2) (fun h' => by cases h')
      | inr aj' =>
        have h2 : csem (some aj) = csem (some aj') := congrArg (fun x : GSem nD τ sig × ℕ × Bool => x.1.2) h
        rw [Option.some.inj (csem_injective h2)]
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (cellK c kBar) 0 false ∗ dutyTok ER (cellK c kBar) 0 true)
    ∗ bigSep Finset.univ fun j : Fin 16 => iprop(dutyTok ER (cellK c (kXs j)) 0 false ∗ dutyTok ER (cellK c (kXr j)) 0 false
        ∗ dutyTok ER (cellK c (kYs j)) 0 false ∗ dutyTok ER (cellK c (kYr j)) 0 false))

/-- What the launch element deals device c. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_CK (Φ : CK → sProp 𝕄) : bigSep Finset.univ Φ = iprop(Φ none ∗ bigSep Finset.univ fun aj : Fin 4 × Fin 16 => Φ (some aj)) := by
  rw [show (Finset.univ : Finset CK) = insert none (Finset.univ.map Function.Embedding.some) from by
    ext k; cases k <;> simp, bigSep_insert (by simp), bigSep_map]; rfl
omit [FloatOps F] in
theorem bigSep_dma (Φ : Fin 4 × Fin 16 → sProp 𝕄) :
    bigSep Finset.univ Φ = bigSep Finset.univ fun j : Fin 16 => iprop(Φ (0, j) ∗ Φ (1, j) ∗ Φ (2, j) ∗ Φ (3, j)) := by
  rw [bigSep_univ_equiv (Equiv.prodComm (Fin 16) (Fin 4)) Φ, bigSep_univ_prod]
  exact bigSep_congr fun j _ => by rw [bigSep_fin4]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_bool, bigSep_dma]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The 64 transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 16 => semVal (cellK c (some aj)) 0 := rfl
omit [FloatOps F] in
/-- the barrier semaphore the launch's one unscoped semaphore. -/
theorem unscopedSems0_eq (c : Dev nD) : (unscopedSems0 c : sProp 𝕄) = semVal (cellK c kBar) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H
  iexists K
  iexact H

omit [FloatOps F] in
/-- The tokens dealt over the mesh: a barrier's false token to the x-peer, its true token to the y-peer, the receive
    tokens along x to the x-peer, along y to the y-peer. -/
theorem toks_around : (bigSep Finset.univ fun c : Dev nD => (toks c : sProp 𝕄)) ⊢ bigSep Finset.univ fun c : Dev nD => payToks c := by
  unfold toks payToks
  simp only [bigSep_sep']
  rw [bigSep_univ_equiv xpE (fun c : Dev nD => (dutyTok ER (cellK c kBar) 0 false : sProp 𝕄)),
    bigSep_univ_equiv ypE (fun c : Dev nD => (dutyTok ER (cellK c kBar) 0 true : sProp 𝕄)),
    bigSep_univ_equiv xpE (fun c : Dev nD => (bigSep Finset.univ fun j : Fin 16 => dutyTok ER (cellK c (kXr j)) 0 false : sProp 𝕄)),
    bigSep_univ_equiv ypE (fun c : Dev nD => (bigSep Finset.univ fun j : Fin 16 => dutyTok ER (cellK c (kYr j)) 0 false : sProp 𝕄))]
  iintro ⟨⟨H1, H2⟩, H3⟩
  isplitl [H1]; · iexact H1
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What the peers owe device c's cells: two units on its barrier, and per chunk the credit of its two receive cells. -/
def TX (c : Dev nD) : CellTallies nD τ sig Unit := ∑ i ∈ ge 0, tallyAt (cellK c (kXr i)) () Nx
def TY (c : Dev nD) : CellTallies nD τ sig Unit := ∑ i ∈ ge 0, tallyAt (cellK c (kYr i)) () Ny
def T₀ (c : Dev nD) : CellTallies nD τ sig Unit := ((TY c + TX c) + tallyAt (cellK c kBar) () 1) + tallyAt (cellK c kBar) () 1

theorem sum_O₀ : (∑ d, O₀ d) = ∑ d, T₀ d := by
  have e1 : (∑ d, OY d 0) = ∑ d, TY d := Equiv.sum_comp ypE TY
  have e2 : (∑ d, OX d 0) = ∑ d, TX d := Equiv.sum_comp xpE TX
  have e3 : (∑ d : Dev nD, (tallyAt (cellK (yp d) kBar) () 1 : CellTallies nD τ sig Unit)) = ∑ d : Dev nD, tallyAt (cellK d kBar) () 1 :=
    Equiv.sum_comp ypE (fun d : Dev nD => (tallyAt (cellK d kBar) () 1 : CellTallies nD τ sig Unit))
  have e4 : (∑ d : Dev nD, (tallyAt (cellK (xp d) kBar) () 1 : CellTallies nD τ sig Unit)) = ∑ d : Dev nD, tallyAt (cellK d kBar) () 1 :=
    Equiv.sum_comp xpE (fun d : Dev nD => (tallyAt (cellK d kBar) () 1 : CellTallies nD τ sig Unit))
  unfold O₀ O₁ T₀
  rw [Finset.sum_add_distrib, Finset.sum_add_distrib, Finset.sum_add_distrib, Finset.sum_add_distrib, Finset.sum_add_distrib,
    Finset.sum_add_distrib, e1, e2, e3, e4]

theorem T₀_own (d : Dev nD) (g : GSem nD τ sig) (h : T₀ d g ≠ 0) : g.1 = (d : Thread nD τ) := by
  by_contra hn
  have hz (k : CK) (n : ℕ) : (tallyAt (cellK d k) () n : CellTallies nD τ sig Unit) g = 0 :=
    tallyAt_ne_cell (fun hg => hn (by rw [hg])) () n
  apply h
  unfold T₀ TX TY
  rw [Pi.add_apply, Pi.add_apply, Pi.add_apply, Finset.sum_apply, Finset.sum_apply, hz,
    Finset.sum_eq_zero (fun i _ => hz (kYr i) Ny), Finset.sum_eq_zero (fun i _ => hz (kXr i) Nx), add_zero, add_zero, add_zero]

omit [FloatOps F] in
theorem creds_intro (c : Dev nD) : (Pipeline.launchCred O₀ c : sProp 𝕄) ⊢ creds c := by
  rw [Pipeline.launchCred_of_sum O₀ T₀ sum_O₀ T₀_own c]
  unfold T₀ TX TY creds
  rw [ge_zero, add_assoc, tallyAt_add]
  refine (cred_add _ _).1.trans ?_
  iintro ⟨H, Hb⟩
  ihave H2 := (cred_add _ _).1 $$ H
  icases H2 with ⟨Hy, Hx⟩
  isplitl [Hb]; · iexact Hb
  isplitl [Hx]
  · iapply (Entails.of_eq (Pipeline.cred_finsetSum Finset.univ fun i : Fin 16 => tallyAt (cellK c (kXr i)) () Nx)); iexact Hx
  · iapply (Entails.of_eq (Pipeline.cred_finsetSum Finset.univ fun i : Fin 16 => tallyAt (cellK c (kYr i)) () Ny)); iexact Hy

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, Hz⟩
  isplitr; · iempintro
  isplitl [Hz]; · iexact Hz
  iexists (commG m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled 2×2 mesh, from any memory with zero counters: given every device's body obligation, every weakly fair
    execution of @main terminates and every final state has each device's arrays at the proof data's final contents. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.KernelIdeal.Coll
end
-- ==== Proof.Value.lean ====
import proofs.«900323_g7700000000000324_dist_rsx_agy_m512_n512_v7x_xy2x2_f32_1_alg».proof.Proof.Proto1
import proofs.«900323_g7700000000000324_dist_rsx_agy_m512_n512_v7x_xy2x2_f32_1_alg».proof.Proof.Gen.ReferenceIdeal.Run
import proofs.«900323_g7700000000000324_dist_rsx_agy_m512_n512_v7x_xy2x2_f32_1_alg».proof.Proof.Gen.ReferenceIdeal.Read
import proofs.«900323_g7700000000000324_dist_rsx_agy_m512_n512_v7x_xy2x2_f32_1_alg».proof.Defs
import Idealize.ShloMosaic.Lib.ValueIdx
import Idealize.ShloMosaic.Lib.Pipeline.Value
import Idealize.ShloMosaic.Lib.Layout
import Idealize.ShloMosaic.PureOps.Ideal.Laws

noncomputable section

namespace Cert.KernelIdeal.CollValue

open Cert.KernelIdeal Cert.KernelIdeal.Gen Cert.KernelIdeal.Coll
open Idealize.ShloMosaic
open Idealize.ShloMosaic.TcCoe
open Idealize.SL Idealize.SL.Sem

open Idealize.ShloMosaic.ValueIdx

section Pieces

variable (m : (ℓ : Loc Cert.KernelIdeal.nD Cert.KernelIdeal.τ Cert.KernelIdeal.sig) → Buf (Elt Ideal) ℓ)

/-- The staged block is the device's argument buffer: the window is the whole array at offset zero. -/
theorem xA_eq (c : Dev nD) (i : S1x512x512.Idx) :
    xA (F := Ideal) m c i = m ((c.tc : Thread nD τ).loc main_arg0) i := by
  show m ((c.tc : Thread nD τ).loc main_arg0) _ = m ((c.tc : Thread nD τ).loc main_arg0) _
  refine congrArg (m ((c.tc : Thread nD τ).loc main_arg0)) (funext fun a => Fin.ext ?_)
  show 0 * _ + 1 * (i a).val = (i a).val
  omega

/-- The landing buffer at row `r`, column `k` is the x-peer's block there, behind its unit axis. -/
theorem commG_apply (c : Dev nD) (r k : Fin 512) :
    commG (F := Ideal) m c (ix2 r k) = xA (F := Ideal) m (xp c) (ix3 0 r k) := by
  show xA (F := Ideal) m (xp c) _ = xA (F := Ideal) m (xp c) _
  refine congrArg (xA (F := Ideal) m (xp c)) ?_
  refine Shape.reshapeEquiv_eq_of_rowMajor _ ?_
  rw [Shape.rowMajor_val_three, Shape.rowMajor_val_two]
  simp

/-- A load of rows `32 j …` of the block reads row `32 j + y0`. -/
theorem loadX_apply (f : (cc0_stg0_0 : Ref sig .tc).ty.Contents (Elt Ideal)) (j : Fin 16) (y0 : Fin 32) (y1 : Fin 512) :
    XM.view.readAt (Elt Ideal) (xrect j).toLoadRect f (ix3 0 y0 y1) = f (ix3 0 ⟨32 * j.val + y0.val, by omega⟩ y1) := by
  show f _ = f _
  refine congrArg f (funext fun a => Fin.ext ?_)
  match a with
  | ⟨0, _⟩ => rfl
  | ⟨1, _⟩ => show 32 * j.val + 1 * y0.val = 32 * j.val + y0.val; omega
  | ⟨2, _⟩ => show 0 + 1 * y1.val = y1.val; omega

/-- The same of the landing buffer. -/
theorem loadC_apply (f : (cc0_scratch0 : Ref sig .tc).ty.Contents (Elt Ideal)) (j : Fin 16) (y0 : Fin 32) (y1 : Fin 512) :
    CM.view.readAt (Elt Ideal) (crect j).toLoadRect f (ix2 y0 y1) = f (ix2 ⟨32 * j.val + y0.val, by omega⟩ y1) := by
  show f _ = f _
  refine congrArg f (funext fun a => Fin.ext ?_)
  match a with
  | ⟨0, _⟩ => show 32 * j.val + 1 * y0.val = 32 * j.val + y0.val; omega
  | ⟨1, _⟩ => show 0 + 1 * y1.val = y1.val; omega

/-- Chunk `j` of a device's sum at row `y0`, column `y1`: row `32 j + y0` of its block plus the same of its x-peer's. -/
theorem sumV_apply (d : Dev nD) (j : Fin 16) (y0 : Fin 32) (y1 : Fin 512) :
    sumV (F := Ideal) m d j (ix2 y0 y1)
      = @HAdd.hAdd EReal EReal EReal _ (xA (F := Ideal) m d (ix3 0 ⟨32 * j.val + y0.val, by omega⟩ y1))
          (xA (F := Ideal) m (xp d) (ix3 0 ⟨32 * j.val + y0.val, by omega⟩ y1)) := by
  have h1 : shapeCast S32x512 (XM.view.readAt (Elt Ideal) (xrect j).toLoadRect (xA (F := Ideal) m d))
        shapeCasts_S1x32x512_S32x512 (ix2 y0 y1)
      = xA (F := Ideal) m d (ix3 0 ⟨32 * j.val + y0.val, by omega⟩ y1) :=
    (shapeCast_apply (s := S1x32x512) (t := S32x512) _ shapeCasts_S1x32x512_S32x512 (ix2 y0 y1) (ix3 0 y0 y1)
      (by rw [Shape.rowMajor_val_three, Shape.rowMajor_val_two]; simp)).trans (loadX_apply _ j y0 y1)
  have h2 : CM.view.readAt (Elt Ideal) (crect j).toLoadRect (commG (F := Ideal) m d) (ix2 y0 y1)
      = xA (F := Ideal) m (xp d) (ix3 0 ⟨32 * j.val + y0.val, by omega⟩ y1) :=
    (loadC_apply _ j y0 y1).trans (commG_apply m d _ y1)
  show @HAdd.hAdd EReal EReal EReal _
      (shapeCast S32x512 (XM.view.readAt (Elt Ideal) (xrect j).toLoadRect (xA (F := Ideal) m d))
        shapeCasts_S1x32x512_S32x512 (ix2 y0 y1))
      (CM.view.readAt (Elt Ideal) (crect j).toLoadRect (commG (F := Ideal) m d) (ix2 y0 y1)) = _
  rw [h1, h2]

end Pieces

section Whole

/-- Device `c`'s block of the whole array at `(0, r, k)`: the whole array at `(c / 2, r, 512 (c % 2) + k)`. -/
theorem block_apply (X : (⟨3, ![2, 512, 1024]⟩ : Shape).Idx → EReal) (c : Dev nD) (r k : Fin 512) :
    (Layout.blockN ⟨3, ![1, 512, 512]⟩ ⟨3, ![2, 512, 1024]⟩ (Layout.meshBlock [2, 2] ![[0], [], [1]] c) X) (ix3 0 r k)
      = X (ix3 ⟨c.val / 2, by have h : c.val < 4 := c.isLt; omega⟩ r ⟨512 * (c.val % 2) + k.val, by omega⟩) := by
  rw [Layout.blockN_apply]
  refine congrArg X (funext fun a => Fin.ext ?_)
  have hc : c.val < 4 := c.isLt
  match a with
  | ⟨0, _⟩ =>
    show Layout.meshLin [2, 2] c.val [0] * 1 + 0 = c.val / 2
    simp [Layout.meshLin, Layout.meshCoord, Layout.cutSize]
    omega
  | ⟨1, _⟩ =>
    show Layout.meshLin [2, 2] c.val [] * 512 + r.val = r.val
    simp [Layout.meshLin]
  | ⟨2, _⟩ =>
    show Layout.meshLin [2, 2] c.val [1] * 512 + k.val = 512 * (c.val % 2) + k.val
    simp [Layout.meshLin, Layout.meshCoord, Layout.cutSize]
    omega

theorem rowDev_val (c : Dev nD) (b : Fin 2) : (rowDev c b).val = 2 * (c.val / 2) + b.val := rfl
theorem xp_val (c : Dev nD) : (xp c).val = ((c.val % 2) + 2) - 2 * (c.val / 2) := rfl

/-- An element of the whole array named by coordinates is the element the reference's sum reads at slice `a`. -/
theorem X_idx (X : (⟨3, ![2, 512, 1024]⟩ : Shape).Idx → EReal) (i : S512x1024.Idx) (a : Fin 2)
    (p : Fin 2) (r : Fin 512) (k : Fin 1024) (hp : p.val = a.val) (hr : r.val = (i 0).val) (hk : k.val = (i 1).val) :
    X (ix3 p r k) = X (Cert.ReferenceIdeal.Read.idx_main_v0 i a) :=
  congrArg X (funext fun b => Fin.ext (by
    match b with
    | ⟨0, _⟩ => exact hp
    | ⟨1, _⟩ => exact hr
    | ⟨2, _⟩ => exact hk))

end Whole

/-- Over the extended reals: when every device's argument buffer is its block of the whole `x` (cut in two along the
    leading axis by the device's x coordinate and in two along the last by its y coordinate), what every device ends with,
    `outG`, is the reference's sum of the two leading slices of the whole `x`. -/
theorem outG_eq_reference
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hagree : ∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 1024]⟩ (Layout.meshBlock [2, 2] ![[0], [], [1]] c) (m' (((0 : Dev Cert.ReferenceIdeal.nD).tc : Thread Cert.ReferenceIdeal.nD Cert.ReferenceIdeal.τ).loc Cert.ReferenceIdeal.main_arg0)))
    (c : Dev Cert.KernelIdeal.nD) :
    (outG (F := Ideal) m c : S512x1024.Idx → EReal)
      = Cert.ReferenceIdeal.Read.val_main_v0 (m' (((0 : Dev Cert.ReferenceIdeal.nD).tc : Thread Cert.ReferenceIdeal.nD Cert.ReferenceIdeal.τ).loc Cert.ReferenceIdeal.main_arg0)) := by
  funext i
  have hc : c.val < 4 := c.isLt
  have hi0 : (i 0).val < 512 := (i 0).isLt
  have hi1 : (i 1).val < 1024 := (i 1).isLt
  -- the whole array, and a device's block of it by coordinates
  generalize hX : m' (((0 : Dev Cert.ReferenceIdeal.nD).tc : Thread Cert.ReferenceIdeal.nD Cert.ReferenceIdeal.τ).loc Cert.ReferenceIdeal.main_arg0) = X at hagree ⊢
  have hA : ∀ (d : Dev nD) (r k : Fin 512), xA (F := Ideal) m d (ix3 0 r k)
      = X (ix3 ⟨d.val / 2, by have h : d.val < 4 := d.isLt; omega⟩ r ⟨512 * (d.val % 2) + k.val, by omega⟩) :=
    fun d r k => (xA_eq m d _).trans ((congrFun (hagree d) _).trans (block_apply X d r k))
  -- the reference: zero plus the two leading slices
  have hz : ∀ j, (Cert.ReferenceIdeal.Read.val_main_cst (F := Ideal)) j = (0 : EReal) :=
    fun _ => Ideal.ofBits_zero_f32
  rw [Cert.ReferenceIdeal.Read.val_main_v0_apply, Fin.sum_univ_two, hz, zero_add]
  -- the kernel: the device of this column block, its chunk of rows
  have hL : outG (F := Ideal) m c i
      = sumV (F := Ideal) m (rowDev c ⟨(i 1).val / 512, by omega⟩) ⟨(i 0).val / 32, by omega⟩
          (ix2 ⟨(i 0).val % 32, Nat.mod_lt _ (by decide)⟩ ⟨(i 1).val % 512, Nat.mod_lt _ (by decide)⟩) := rfl
  rw [hL, sumV_apply, hA, hA]
  have hd : (rowDev c ⟨(i 1).val / 512, by omega⟩).val = 2 * (c.val / 2) + (i 1).val / 512 := rfl
  have hx : (xp (rowDev c ⟨(i 1).val / 512, by omega⟩)).val
      = ((rowDev c ⟨(i 1).val / 512, by omega⟩).val % 2 + 2) - 2 * ((rowDev c ⟨(i 1).val / 512, by omega⟩).val / 2) := rfl
  rcases (by omega : c.val / 2 = 0 ∨ c.val / 2 = 1) with h | h
  · exact congrArg₂ (fun u v : EReal => u + v)
      (X_idx X i 0 _ _ _ (by show (rowDev c ⟨(i 1).val / 512, _⟩).val / 2 = 0; omega)
        (by show 32 * ((i 0).val / 32) + (i 0).val % 32 = (i 0).val; omega)
        (by show 512 * ((rowDev c ⟨(i 1).val / 512, _⟩).val % 2) + (i 1).val % 512 = (i 1).val; omega))
      (X_idx X i 1 _ _ _ (by show (xp (rowDev c ⟨(i 1).val / 512, _⟩)).val / 2 = 1; omega)
        (by show 32 * ((i 0).val / 32) + (i 0).val % 32 = (i 0).val; omega)
        (by show 512 * ((xp (rowDev c ⟨(i 1).val / 512, _⟩)).val % 2) + (i 1).val % 512 = (i 1).val; omega))
  · rw [add_comm (G := EReal)]
    exact congrArg₂ (fun u v : EReal => u + v)
      (X_idx X i 0 _ _ _ (by show (xp (rowDev c ⟨(i 1).val / 512, _⟩)).val / 2 = 0; omega)
        (by show 32 * ((i 0).val / 32) + (i 0).val % 32 = (i 0).val; omega)
        (by show 512 * ((xp (rowDev c ⟨(i 1).val / 512, _⟩)).val % 2) + (i 1).val % 512 = (i 1).val; omega))
      (X_idx X i 1 _ _ _ (by show (rowDev c ⟨(i 1).val / 512, _⟩).val / 2 = 1; omega)
        (by show 32 * ((i 0).val / 32) + (i 0).val % 32 = (i 0).val; omega)
        (by show 512 * ((rowDev c ⟨(i 1).val / 512, _⟩).val % 2) + (i 1).val % 512 = (i 1).val; omega))

end Cert.KernelIdeal.CollValue

end
-- ==== Proof.K.Proto0.lean ====
import proofs.«900323_g7700000000000324_dist_rsx_agy_m512_n512_v7x_xy2x2_f32_1_alg».proof.Proof.Gen.Kernel.Frame
import proofs.«900323_g7700000000000324_dist_rsx_agy_m512_n512_v7x_xy2x2_f32_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the collective's (duty names `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The mesh: device `2 * x + y`; the peer along x flips x, the peer along y flips y -/

def xp (c : Dev nD) : Dev nD := ⟨((c.val % 2) + 2) - 2 * (c.val / 2), by have h : c.val < 4 := c.isLt; show _ < 4; omega⟩
def yp (c : Dev nD) : Dev nD := ⟨(2 * (c.val / 2) + 1) - (c.val % 2), by have h : c.val < 4 := c.isLt; show _ < 4; omega⟩
/-- The column block of the result a device computes: its y coordinate. -/
def col (c : Dev nD) : Fin 2 := ⟨c.val % 2, Nat.mod_lt _ (by decide)⟩

theorem xp_xp (c : Dev nD) : xp (xp c) = c := by revert c; decide
theorem yp_yp (c : Dev nD) : yp (yp c) = c := by revert c; decide
theorem xp_ne (c : Dev nD) : xp c ≠ c := by revert c; decide
theorem yp_ne (c : Dev nD) : yp c ≠ c := by revert c; decide
theorem xp_ne_yp (c : Dev nD) : xp c ≠ yp c := by revert c; decide
theorem col_xp (c : Dev nD) : col (xp c) = col c := by revert c; decide
theorem col_yp (c : Dev nD) : col (yp c) = 1 - col c := by revert c; decide
theorem xp_yp (c : Dev nD) : xp (yp c) = yp (xp c) := by revert c; decide

def xpE : Dev nD ≃ Dev nD := ⟨xp, xp, xp_xp, xp_xp⟩
def ypE : Dev nD ≃ Dev nD := ⟨yp, yp, yp_yp, yp_yp⟩

/-! ## The buffers and their row chunks -/

abbrev XM : Memref sig .tc .vmem S1x512x512 .f32 := Memref.whole cc0_stg0_0
abbrev OM : Memref sig .tc .vmem S512x1024 .f32 := Memref.whole cc0_stg1_0
abbrev CM : Memref sig .tc .vmem S512x512 .f32 := Memref.whole cc0_scratch0

theorem x_inb (j : Fin 16) : ∀ a, (![0, 32 * j.val, 0] : Fin 3 → Nat) a + S1x32x512.size a ≤ S1x512x512.size a := by
  intro a; have := j.isLt; fin_cases a <;> simp <;> omega
theorem c_inb (j : Fin 16) : ∀ a, (![32 * j.val, 0] : Fin 2 → Nat) a + S32x512.size a ≤ S512x512.size a := by
  intro a; have := j.isLt; fin_cases a <;> simp <;> omega
theorem o_inb (b : Fin 2) (j : Fin 16) : ∀ a, (![32 * j.val, 512 * b.val] : Fin 2 → Nat) a + S32x512.size a ≤ S512x1024.size a := by
  intro a; have := j.isLt; have := b.isLt; fin_cases a <;> simp <;> omega
theorem s_inb (j : Fin 16) : ∀ a, (![j.val] : Fin 1 → Nat) a + S1.size a ≤ S16.size a := by
  intro a; have := j.isLt; fin_cases a; simp; omega

/-- Rows `32 j … 32 j + 31` of this device's block of `x`, as the transfer along x reads them. -/
def xrect (j : Fin 16) : Rect S1x512x512 := Rect.unit (s := S1x512x512) ![0, 32 * j.val, 0] S1x32x512.size (x_inb j)
def crect (j : Fin 16) : Rect S512x512 := Rect.unit (s := S512x512) ![32 * j.val, 0] S32x512.size (c_inb j)
def orect (b : Fin 2) (j : Fin 16) : Rect S512x1024 := Rect.unit (s := S512x1024) ![32 * j.val, 512 * b.val] S32x512.size (o_inb b j)

def xsrc (j : Fin 16) : Memref sig .tc .vmem S32x512 .f32 := (XM.slice (xrect j) (fun _ => rfl)).squeeze S32x512 squeezes_S1x32x512_S32x512
def cdst (j : Fin 16) : Memref sig .tc .vmem S32x512 .f32 := CM.slice (crect j) (fun _ => rfl)
def oblk (b : Fin 2) (j : Fin 16) : Memref sig .tc .vmem S32x512 .f32 := OM.slice (orect b j) (fun _ => rfl)

/-! ## The semaphores and the cells -/

abbrev barS : Sem sig := (SemArray.scalar (sig.barrier 0 rfl) : Sems sig S_).sem
/-- The four families of sixteen DMA semaphores, in the order of the scratch operands: send along x, receive along x,
    send along y, receive along y. -/
def dS (a : Fin 4) (j : Fin 16) : DmaSem sig := ⟨2 + 16 * a.val + j.val, by have := j.isLt; have := a.isLt; show _ < 66; omega⟩
abbrev xsS (j : Fin 16) : DmaSem sig := dS 0 j
abbrev xrS (j : Fin 16) : DmaSem sig := dS 1 j
abbrev ysS (j : Fin 16) : DmaSem sig := dS 2 j
abbrev yrS (j : Fin 16) : DmaSem sig := dS 3 j

/-- The kinds of cell a device has: its barrier (`none`); per row chunk the send and receive cells of the two transfers. -/
abbrev CK : Type := Option (Fin 4 × Fin 16)
abbrev kBar : CK := none
abbrev kXs (j : Fin 16) : CK := some (0, j)
abbrev kXr (j : Fin 16) : CK := some (1, j)
abbrev kYs (j : Fin 16) : CK := some (2, j)
abbrev kYr (j : Fin 16) : CK := some (3, j)

def csem : CK → SemLoc sig
  | none => .reg barS
  | some (a, j) => .dma (dS a j)

abbrev kcell (ck : Dev nD × CK) : GSem nD τ sig := ((ck.1 : Thread nD τ), csem ck.2)
abbrev cellK (c : Dev nD) (k : CK) : GSem nD τ sig := ((c : Thread nD τ), csem k)

/-- Which kind of cell a semaphore is. -/
def ckOf : SemLoc sig → Option CK
  | .reg s => if s = barS then some none else none
  | .dma s => if h : 2 ≤ s.val then some (some (⟨(s.val - 2) / 16, by have : s.val < 66 := s.isLt; omega⟩, ⟨(s.val - 2) % 16, Nat.mod_lt _ (by decide)⟩)) else none

theorem ckOf_csem : ∀ k : CK, ckOf (csem k) = some k := by decide +kernel
theorem csem_injective : Function.Injective csem := fun a b h => Option.some.inj (by rw [← ckOf_csem a, ← ckOf_csem b, h])

end Cert.Kernel.Coll

end
-- ==== Proof.K.Proto1.lean ====
import proofs.«900323_g7700000000000324_dist_rsx_agy_m512_n512_v7x_xy2x2_f32_1_alg».proof.Proof.K.Proto0
import Idealize.ShloMosaic.Lib.ValueIdx

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Contents -/

/-- Device `c`'s block of `x`, as staged. -/
def xA (c : Dev nD) : (cc0_stg0_0 : Ref sig .tc).ty.Contents (Elt F) :=
  (win0_0.blk (0 : Fin 1)).view.read (Elt F) (m ((c : Thread nD τ).loc main_arg0))

theorem sq_X : S1x512x512.Squeezes S512x512 := by decide

/-- What the transfers along x leave in device `c`'s landing buffer: the x-peer's block of `x`, its unit axis dropped. -/
def commG (c : Dev nD) : (cc0_scratch0 : Ref sig .tc).ty.Contents (Elt F) :=
  (XM.squeeze S512x512 sq_X).view.read (Elt F) (xA m (xp c))

/-- The sum of a 32-row chunk of the device's block and the same rows of the landing buffer. -/
def addChunk (v : Vec F S1x32x512 .f32) (w : Vec F S32x512 .f32) : FVec F S32x512 .f32 :=
  addf (shapeCast S32x512 v shapeCasts_S1x32x512_S32x512) w

/-- Chunk `j` of what device `c` computes: rows `32 j …` of its block plus the same rows of its x-peer's. -/
def sumV (c : Dev nD) (j : Fin 16) : FVec F S32x512 .f32 :=
  addChunk (XM.view.readAt (Elt F) (xrect j).toLoadRect (xA m c)) (CM.view.readAt (Elt F) (crect j).toLoadRect (commG m c))

/-- The device with `c`'s x coordinate and y coordinate `b`. -/
def rowDev (c : Dev nD) (b : Fin 2) : Dev nD := ⟨2 * (c.val / 2) + b.val, by have h : c.val < 4 := c.isLt; have := b.isLt; show _ < 4; omega⟩

theorem rowDev_col (c : Dev nD) : rowDev c (col c) = c := by revert c; decide
theorem rowDev_col_yp (c : Dev nD) : rowDev c (col (yp c)) = yp c := by revert c; decide
theorem rowDev_yp (c : Dev nD) (b : Fin 2) : rowDev (yp c) b = rowDev c b := by revert c b; decide

/-- The whole result on device `c`: column block `b`, row chunk `j` is what the device of `c`'s mesh row at y = `b` computes. -/
def outG (c : Dev nD) : (cc0_stg1_0 : Ref sig .tc).ty.Contents (Elt F) := fun i =>
  sumV m (rowDev c ⟨(i 1).val / 512, by have := (i 1).isLt; show _ < 2; change (i 1).val < 1024 at this; omega⟩)
    ⟨(i 0).val / 32, by have := (i 0).isLt; change (i 0).val < 512 at this; omega⟩
    (Idealize.ShloMosaic.ValueIdx.ix2 ⟨(i 0).val % 32, Nat.mod_lt _ (by decide)⟩ ⟨(i 1).val % 512, Nat.mod_lt _ (by decide)⟩)

theorem outG_yp (c : Dev nD) : outG m (yp c) = outG m c := by
  funext i; unfold outG; rw [rowDev_yp]

/-! ## Points-to pieces -/

abbrev half : PosShare TreeShare := fullShare.left
abbrev half' : PosShare TreeShare := fullShare.right

abbrev xLoc (c : Dev nD) : Loc nD τ sig := (c : Thread nD τ).loc cc0_stg0_0
abbrev oLoc (c : Dev nD) : Loc nD τ sig := (c : Thread nD τ).loc cc0_stg1_0
abbrev cLoc (c : Dev nD) : Loc nD τ sig := (c : Thread nD τ).loc cc0_scratch0

/-- The elements of the three buffers a chunk's transfer or access touches. -/
def xSet (c : Dev nD) (j : Fin 16) : Finset (Idx (xLoc c)) := (xsrc j).view.set
def cSet (c : Dev nD) (j : Fin 16) : Finset (Idx (cLoc c)) := (cdst j).view.set
def oSet (c : Dev nD) (b : Fin 2) (j : Fin 16) : Finset (Idx (oLoc c)) := (oblk b j).view.set

/-! ## The schedule -/

def Nx : ℕ := (cdst 0).view.dmaCredit
def Ny : ℕ := (oblk 0 0).view.dmaCredit
theorem Nx_pos : 0 < Nx := View.dmaCredit_pos _ (by decide)
theorem Ny_pos : 0 < Ny := View.dmaCredit_pos _ (by decide)

/-- What the x-peer's barrier signal hands device `c`: the peer's landing buffer, chunk by chunk. -/
def barPayX (c : Dev nD) : sProp 𝕄 :=
  bigSep Finset.univ fun j : Fin 16 => iprop(∃ f, cLoc (xp c) ↦[cSet (xp c) j]{fullShare} f)
/-- What the y-peer's signal hands it: the peer's result buffer on `c`'s column block, chunk by chunk. -/
def barPayY (c : Dev nD) : sProp 𝕄 :=
  bigSep Finset.univ fun j : Fin 16 => iprop(∃ f, oLoc (yp c) ↦[oSet (yp c) (col c) j]{fullShare} f)

def xsPay (c : Dev nD) (j : Fin 16) : sProp 𝕄 := xLoc c ↦[xSet c j]{half} xA m c
def xrPay (c : Dev nD) (j : Fin 16) : sProp 𝕄 := cLoc c ↦[cSet c j]{fullShare} commG m c
def ysPay (c : Dev nD) (j : Fin 16) : sProp 𝕄 := oLoc c ↦[oSet c (col c) j]{fullShare} outG m c
def yrPay (c : Dev nD) (j : Fin 16) : sProp 𝕄 := oLoc c ↦[oSet c (col (yp c)) j]{fullShare} outG m c

def dmaPay (c : Dev nD) (a : Fin 4) (j : Fin 16) : sProp 𝕄 :=
  if a = 0 then xsPay m c j else if a = 1 then xrPay m c j else if a = 2 then ysPay m c j else yrPay m c j

/-- One round: a barrier cell has the duties `false` (from the x-peer) and `true` (from the y-peer), one unit each; each of
    the 64 transfer cells the one duty `false` of its chunk's credit. -/
def Rd : Rounds.Schedule (GSem nD τ sig) Bool 𝕄 where
  duties g r := if r = 0 ∧ g.1.2 = .tc then (match ckOf g.2 with | some none => Finset.univ | some (some _) => {false} | none => ∅) else ∅
  unitless _ := False
  amount g _ _ := match ckOf g.2 with | some (some (a, _)) => if a.val < 2 then Nx else Ny | _ => 1
  payload g _ d := match ckOf g.2 with
    | some none => if d then barPayY g.1.1 else barPayX g.1.1
    | some (some (a, j)) => dmaPay m g.1.1 a j
    | none => iprop(emp)
  amount_pos g _ _ _ := by
    split
    · split
      · exact Nx_pos
      · exact Ny_pos
    · exact Nat.one_pos

instance Rd_payload_storable (g : GSem nD τ sig) (r : ℕ) (d : Bool) :
    BI.Storable (upEmb : UEmb _ 𝕄) ((Rd (F := F) m).payload g r d) := by
  show BI.Storable upEmb (match ckOf g.2 with
    | some none => if d then barPayY g.1.1 else barPayX g.1.1
    | some (some (a, j)) => dmaPay m g.1.1 a j
    | none => iprop(emp))
  unfold barPayY barPayX dmaPay xsPay xrPay ysPay yrPay
  (repeat' split) <;> infer_instance

end Cert.Kernel.Coll

end
-- ==== Proof.K.State.lean ====
import proofs.«900323_g7700000000000324_dist_rsx_agy_m512_n512_v7x_xy2x2_f32_1_alg».proof.Proof.K.Proto1

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Chunks still to do and chunks done -/

/-- The chunks from `n` on, and those before `n`. -/
def ge (n : ℕ) : Finset (Fin 16) := Finset.univ.filter fun i => n ≤ i.val
def lt (n : ℕ) : Finset (Fin 16) := Finset.univ.filter fun i => i.val < n

theorem ge_zero : ge 0 = Finset.univ := by decide
theorem ge_sixteen : ge 16 = ∅ := by decide
theorem lt_zero : lt 0 = ∅ := by decide
theorem lt_sixteen : lt 16 = Finset.univ := by decide
theorem ge_peel (j : Fin 16) : ge j.val = insert j (ge (j.val + 1)) := by
  ext i; simp only [ge, Finset.mem_filter, Finset.mem_univ, true_and, Finset.mem_insert, Fin.ext_iff]; omega
theorem not_mem_ge_succ (j : Fin 16) : j ∉ ge (j.val + 1) := by
  simp only [ge, Finset.mem_filter, Finset.mem_univ, true_and]; omega
theorem lt_peel (j : Fin 16) : lt (j.val + 1) = insert j (lt j.val) := by
  ext i; simp only [lt, Finset.mem_filter, Finset.mem_univ, true_and, Finset.mem_insert, Fin.ext_iff]; omega
theorem not_mem_lt (j : Fin 16) : j ∉ lt j.val := by
  simp only [lt, Finset.mem_filter, Finset.mem_univ, true_and]; omega

omit [FloatOps F] in
theorem bigSep_ge_peel (Φ : Fin 16 → sProp 𝕄) (j : Fin 16) : bigSep (ge j.val) Φ = iprop(Φ j ∗ bigSep (ge (j.val + 1)) Φ) := by
  rw [ge_peel, bigSep_insert (not_mem_ge_succ j)]; rfl
omit [FloatOps F] in
theorem bigSep_lt_peel (Φ : Fin 16 → sProp 𝕄) (j : Fin 16) : bigSep (lt (j.val + 1)) Φ = iprop(Φ j ∗ bigSep (lt j.val) Φ) := by
  rw [lt_peel, bigSep_insert (not_mem_lt j)]; rfl

/-! ## What a device owes -/

/-- The credit of the transfers along x (along y) not yet issued, from chunk `n` on. -/
def OX (c : Dev nD) (n : ℕ) : CellTallies nD τ sig Unit := ∑ i ∈ ge n, tallyAt (cellK (xp c) (kXr i)) () Nx
def OY (c : Dev nD) (n : ℕ) : CellTallies nD τ sig Unit := ∑ i ∈ ge n, tallyAt (cellK (yp c) (kYr i)) () Ny
/-- After the first signal; at launch. -/
def O₁ (c : Dev nD) : CellTallies nD τ sig Unit := (OY c 0 + OX c 0) + tallyAt (cellK (yp c) kBar) () 1
def O₀ (c : Dev nD) : CellTallies nD τ sig Unit := O₁ c + tallyAt (cellK (xp c) kBar) () 1

theorem OX_peel (c : Dev nD) (j : Fin 16) : OX c j.val = OX c (j.val + 1) + tallyAt (cellK (xp c) (kXr j)) () Nx := by
  unfold OX; rw [ge_peel, Finset.sum_insert (not_mem_ge_succ j), add_comm]
theorem OY_peel (c : Dev nD) (j : Fin 16) : OY c j.val = OY c (j.val + 1) + tallyAt (cellK (yp c) (kYr j)) () Ny := by
  unfold OY; rw [ge_peel, Finset.sum_insert (not_mem_ge_succ j), add_comm]
theorem OX_sixteen (c : Dev nD) : OX c 16 = 0 := by unfold OX; rw [ge_sixteen, Finset.sum_empty]
theorem OY_sixteen (c : Dev nD) : OY c 16 = 0 := by unfold OY; rw [ge_sixteen, Finset.sum_empty]

/-- What a device owes, its waits recorded or not. -/
def owesE (c : Dev nD) (O : CellTallies nD τ sig Unit) : sProp 𝕄 := iprop(∃ W : Waits sig Unit, owes (c : Thread nD τ) O W)

/-! ## The levels: staging and send cells 0, barrier cells 1, receive cells along x 2, along y 3 -/

def L (g : GSem nD τ sig) : Finset Unit := if g.1.2 = .tc then {()} else ∅
def lv (g : GSem nD τ sig) (_ : Unit) : ℕ :=
  match ckOf g.2 with | some none => 1 | some (some (a, _)) => if a = 1 then 2 else if a = 3 then 3 else 0 | none => 0

/-! ## The ghost state -/

variable (K : Dev nD × CK → ℕ)

/-- Every cell's invariant under its name, and that every cell is at round 0: persistent, shared by all devices. -/
def records : sProp 𝕄 :=
  iprop((bigSep Finset.univ fun ck : Dev nD × CK => cellInv ER (Rd m) (K ck) (kcell ck))
    ∗ bigSep Finset.univ fun ck : Dev nD × CK => reached ER (kcell ck) 0)

instance records_persistent : BI.Persistent (records m K) := by unfold records; infer_instance

/-- The tokens of the duties device `c` pays: both peers' barrier duties, and per chunk its own two send duties and the
    peers' two receive duties. -/
def payToks (c : Dev nD) : sProp 𝕄 :=
  iprop(dutyTok ER (cellK (xp c) kBar) 0 false ∗ dutyTok ER (cellK (yp c) kBar) 0 true
    ∗ bigSep Finset.univ fun j : Fin 16 => iprop(dutyTok ER (cellK c (kXs j)) 0 false ∗ dutyTok ER (cellK (xp c) (kXr j)) 0 false
        ∗ dutyTok ER (cellK c (kYs j)) 0 false ∗ dutyTok ER (cellK (yp c) (kYr j)) 0 false))

/-- Its positions on its own 65 cells. -/
def positions (c : Dev nD) : sProp 𝕄 := bigSep Finset.univ fun k : CK => atPos ER (cellK c k) 0 ∅ 0

/-- The credit of what the peers owe its barrier and receive cells. -/
def creds (c : Dev nD) : sProp 𝕄 :=
  iprop(cred (tallyAt (cellK c kBar) () 2)
    ∗ (bigSep Finset.univ fun j : Fin 16 => cred (tallyAt (cellK c (kXr j)) () Nx))
    ∗ bigSep Finset.univ fun j : Fin 16 => cred (tallyAt (cellK c (kYr j)) () Ny))

def ghost (c : Dev nD) : sProp 𝕄 := iprop(records m K ∗ positions c ∗ payToks c)

/-- What device `c`'s body starts from. -/
def start (c : Dev nD) : sProp 𝕄 := iprop((∃ K, ghost m K c) ∗ creds c ∗ levAts L lv)

/-! ## The phases of the body, by chunk -/

/-- Phase 1, the sends along x. To do for chunk `i`: the two duty tokens, half of the source rows, the peer's landing rows.
    Done: the send cell's credit. -/
def x1Todo (c : Dev nD) (i : Fin 16) : sProp 𝕄 :=
  iprop(dutyTok ER (cellK c (kXs i)) 0 false ∗ dutyTok ER (cellK (xp c) (kXr i)) 0 false
    ∗ (xLoc c ↦[xSet c i]{half} xA m c) ∗ ∃ f, cLoc (xp c) ↦[cSet (xp c) i]{fullShare} f)
def x1Done (c : Dev nD) (i : Fin 16) : sProp 𝕄 := cred (tallyAt (cellK c (kXs i)) () Nx)
def S1 (c : Dev nD) (n : ℕ) : sProp 𝕄 := iprop(bigSep (ge n) (x1Todo m c) ∗ bigSep (lt n) (x1Done c))

/-- Phase 2, per chunk: wait for the peer's rows, add, store, send along y. -/
def x2Todo (c : Dev nD) (i : Fin 16) : sProp 𝕄 :=
  iprop(atPos ER (cellK c (kXr i)) 0 ∅ 0 ∗ cred (tallyAt (cellK c (kXr i)) () Nx)
    ∗ (xLoc c ↦[xSet c i]{half'} xA m c) ∗ (∃ f, oLoc c ↦[oSet c (col c) i]{fullShare} f)
    ∗ dutyTok ER (cellK c (kYs i)) 0 false ∗ dutyTok ER (cellK (yp c) (kYr i)) 0 false
    ∗ ∃ f, oLoc (yp c) ↦[oSet (yp c) (col c) i]{fullShare} f)
def x2Done (c : Dev nD) (i : Fin 16) : sProp 𝕄 :=
  iprop(atPos ER (cellK c (kXr i)) 1 ∅ 0 ∗ (xLoc c ↦[xSet c i]{half'} xA m c) ∗ (cLoc c ↦[cSet c i]{fullShare} commG m c)
    ∗ cred (tallyAt (cellK c (kYs i)) () Ny))
def S2 (c : Dev nD) (n : ℕ) : sProp 𝕄 := iprop(bigSep (ge n) (x2Todo m c) ∗ bigSep (lt n) (x2Done m c))

/-- Phase 3, the waits for the y-peer's rows. -/
def x3Todo (c : Dev nD) (i : Fin 16) : sProp 𝕄 := iprop(atPos ER (cellK c (kYr i)) 0 ∅ 0 ∗ cred (tallyAt (cellK c (kYr i)) () Ny))
def x3Done (c : Dev nD) (i : Fin 16) : sProp 𝕄 := iprop(atPos ER (cellK c (kYr i)) 1 ∅ 0 ∗ yrPay m c i)
def S3 (c : Dev nD) (n : ℕ) : sProp 𝕄 := iprop(bigSep (ge n) (x3Todo c) ∗ bigSep (lt n) (x3Done m c))

/-- Phase 4, the waits on the two send cells. -/
def x4Todo (c : Dev nD) (i : Fin 16) : sProp 𝕄 :=
  iprop(atPos ER (cellK c (kXs i)) 0 ∅ 0 ∗ cred (tallyAt (cellK c (kXs i)) () Nx) ∗ atPos ER (cellK c (kYs i)) 0 ∅ 0 ∗ cred (tallyAt (cellK c (kYs i)) () Ny))
def x4Done (c : Dev nD) (i : Fin 16) : sProp 𝕄 :=
  iprop(atPos ER (cellK c (kXs i)) 1 ∅ 0 ∗ xsPay m c i ∗ atPos ER (cellK c (kYs i)) 1 ∅ 0 ∗ ysPay m c i)
def S4 (c : Dev nD) (n : ℕ) : sProp 𝕄 := iprop(bigSep (ge n) (x4Todo c) ∗ bigSep (lt n) (x4Done m c))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def Φ₀ (c : Dev nD) : sProp 𝕄 := iprop(start m c ∗ ∃ f, cLoc c ↦{fullShare} f)
/-- After the point: the landing buffer holds the x-peer's block; the 64 own cells are closed at zero. -/
def Φ₁ (c : Dev nD) : sProp 𝕄 :=
  iprop((cLoc c ↦{fullShare} commG m c) ∗ bigSep Finset.univ fun aj : Fin 4 × Fin 16 => semVal (cellK c (some aj)) 0)

def dats (_ : Fin 1) (c : Dev nD) : Dat τ (Elt F) Unit ℕ UU ℕ cfg0 c where
  A w := m ((cfg0.win w).arr.view.loc (c : Thread nD τ))
  after w _ := match w with
    | ⟨0, _⟩ => xA m c
    | ⟨1, _⟩ => outG m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.Coll

end
-- ==== Proof.K.Tables.lean ====
import proofs.«900323_g7700000000000324_dist_rsx_agy_m512_n512_v7x_xy2x2_f32_1_alg».proof.Proof.K.State

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The schedule's tables, cell by cell -/

theorem duties_bar (c : Dev nD) : (Rd (F := F) m).duties (cellK c kBar) 0 = Finset.univ := by
  dsimp only [Rd]; rw [if_pos ⟨rfl, rfl⟩]
  show (match ckOf (csem kBar) with | some none => Finset.univ | some (some _) => {false} | none => ∅) = _
  rw [ckOf_csem]
theorem duties_dma (c : Dev nD) (a : Fin 4) (j : Fin 16) : (Rd (F := F) m).duties (cellK c (some (a, j))) 0 = {false} := by
  dsimp only [Rd]; rw [if_pos ⟨rfl, rfl⟩]
  show (match ckOf (csem (some (a, j))) with | some none => Finset.univ | some (some _) => {false} | none => ∅) = _
  rw [ckOf_csem]
theorem duties_later (g : GSem nD τ sig) : ∀ r, 1 ≤ r → (Rd (F := F) m).duties g r = ∅ := by
  intro r hr; dsimp only [Rd]; rw [if_neg (fun h => by omega)]

theorem amount_bar (c : Dev nD) (d : Bool) : (Rd (F := F) m).amount (cellK c kBar) 0 d = 1 := by
  show (match ckOf (csem kBar) with | some (some (a, _)) => if a.val < 2 then Nx else Ny | _ => 1) = _
  rw [ckOf_csem]
theorem amount_xs (c : Dev nD) (j : Fin 16) (d : Bool) : (Rd (F := F) m).amount (cellK c (kXs j)) 0 d = Nx := by
  show (match ckOf (csem (kXs j)) with | some (some (a, _)) => if a.val < 2 then Nx else Ny | _ => 1) = _
  rw [ckOf_csem]; rfl
theorem amount_xr (c : Dev nD) (j : Fin 16) (d : Bool) : (Rd (F := F) m).amount (cellK c (kXr j)) 0 d = Nx := by
  show (match ckOf (csem (kXr j)) with | some (some (a, _)) => if a.val < 2 then Nx else Ny | _ => 1) = _
  rw [ckOf_csem]; rfl
theorem amount_ys (c : Dev nD) (j : Fin 16) (d : Bool) : (Rd (F := F) m).amount (cellK c (kYs j)) 0 d = Ny := by
  show (match ckOf (csem (kYs j)) with | some (some (a, _)) => if a.val < 2 then Nx else Ny | _ => 1) = _
  rw [ckOf_csem]; rfl
theorem amount_yr (c : Dev nD) (j : Fin 16) (d : Bool) : (Rd (F := F) m).amount (cellK c (kYr j)) 0 d = Ny := by
  show (match ckOf (csem (kYr j)) with | some (some (a, _)) => if a.val < 2 then Nx else Ny | _ => 1) = _
  rw [ckOf_csem]; rfl

theorem expect_bar (c : Dev nD) : (Rd (F := F) m).expect (cellK c kBar) 0 = 2 := by
  unfold Schedule.expect Schedule.amountOf
  rw [duties_bar, Finset.sum_congr rfl (fun d _ => amount_bar m c d)]; rfl
theorem expect_xs (c : Dev nD) (j : Fin 16) : (Rd (F := F) m).expect (cellK c (kXs j)) 0 = Nx := by
  unfold Schedule.expect Schedule.amountOf
  rw [duties_dma, Finset.sum_singleton, amount_xs]
theorem expect_xr (c : Dev nD) (j : Fin 16) : (Rd (F := F) m).expect (cellK c (kXr j)) 0 = Nx := by
  unfold Schedule.expect Schedule.amountOf
  rw [duties_dma, Finset.sum_singleton, amount_xr]
theorem expect_ys (c : Dev nD) (j : Fin 16) : (Rd (F := F) m).expect (cellK c (kYs j)) 0 = Ny := by
  unfold Schedule.expect Schedule.amountOf
  rw [duties_dma, Finset.sum_singleton, amount_ys]
theorem expect_yr (c : Dev nD) (j : Fin 16) : (Rd (F := F) m).expect (cellK c (kYr j)) 0 = Ny := by
  unfold Schedule.expect Schedule.amountOf
  rw [duties_dma, Finset.sum_singleton, amount_yr]

theorem payload_bar_false (c : Dev nD) : (Rd (F := F) m).payload (cellK c kBar) 0 false = barPayX c := by
  show (match ckOf (csem kBar) with
    | some none => if false then barPayY (cellK c kBar).1.1 else barPayX (cellK c kBar).1.1
    | some (some (a, j)) => dmaPay m (cellK c kBar).1.1 a j
    | none => iprop(emp)) = _
  rw [ckOf_csem]; rfl
theorem payload_bar_true (c : Dev nD) : (Rd (F := F) m).payload (cellK c kBar) 0 true = barPayY c := by
  show (match ckOf (csem kBar) with
    | some none => if true then barPayY (cellK c kBar).1.1 else barPayX (cellK c kBar).1.1
    | some (some (a, j)) => dmaPay m (cellK c kBar).1.1 a j
    | none => iprop(emp)) = _
  rw [ckOf_csem]; rfl
theorem payload_xs (c : Dev nD) (j : Fin 16) (d : Bool) : (Rd (F := F) m).payload (cellK c (kXs j)) 0 d = xsPay m c j := by
  show (match ckOf (csem (kXs j)) with
    | some none => if d then barPayY (cellK c (kXs j)).1.1 else barPayX (cellK c (kXs j)).1.1
    | some (some (a, j')) => dmaPay m (cellK c (kXs j)).1.1 a j'
    | none => iprop(emp)) = _
  rw [ckOf_csem]; rfl
theorem payload_xr (c : Dev nD) (j : Fin 16) (d : Bool) : (Rd (F := F) m).payload (cellK c (kXr j)) 0 d = xrPay m c j := by
  show (match ckOf (csem (kXr j)) with
    | some none => if d then barPayY (cellK c (kXr j)).1.1 else barPayX (cellK c (kXr j)).1.1
    | some (some (a, j')) => dmaPay m (cellK c (kXr j)).1.1 a j'
    | none => iprop(emp)) = _
  rw [ckOf_csem]; rfl
theorem payload_ys (c : Dev nD) (j : Fin 16) (d : Bool) : (Rd (F := F) m).payload (cellK c (kYs j)) 0 d = ysPay m c j := by
  show (match ckOf (csem (kYs j)) with
    | some none => if d then barPayY (cellK c (kYs j)).1.1 else barPayX (cellK c (kYs j)).1.1
    | some (some (a, j')) => dmaPay m (cellK c (kYs j)).1.1 a j'
    | none => iprop(emp)) = _
  rw [ckOf_csem]; rfl
theorem payload_yr (c : Dev nD) (j : Fin 16) (d : Bool) : (Rd (F := F) m).payload (cellK c (kYr j)) 0 d = yrPay m c j := by
  show (match ckOf (csem (kYr j)) with
    | some none => if d then barPayY (cellK c (kYr j)).1.1 else barPayX (cellK c (kYr j)).1.1
    | some (some (a, j')) => dmaPay m (cellK c (kYr j)).1.1 a j'
    | none => iprop(emp)) = _
  rw [ckOf_csem]; rfl

/-- The rest of a cell's round 0, nothing taken yet. -/
theorem rest_bar (c : Dev nD) :
    bigSep ((Rd (F := F) m).duties (cellK c kBar) 0 \ ∅) (fun d => (Rd (F := F) m).payload (cellK c kBar) 0 d) = iprop(barPayX c ∗ barPayY c) := by
  rw [Finset.sdiff_empty, duties_bar, bigSep_univ_eq_bigSepL [false, true] (by decide) (by decide), bigSepL_cons_cons,
    bigSepL_singleton, payload_bar_false, payload_bar_true]; rfl
theorem rest_xs (c : Dev nD) (j : Fin 16) :
    bigSep ((Rd (F := F) m).duties (cellK c (kXs j)) 0 \ ∅) (fun d => (Rd (F := F) m).payload (cellK c (kXs j)) 0 d) = xsPay m c j := by
  rw [Finset.sdiff_empty, duties_dma, bigSep_singleton, payload_xs]
theorem rest_xr (c : Dev nD) (j : Fin 16) :
    bigSep ((Rd (F := F) m).duties (cellK c (kXr j)) 0 \ ∅) (fun d => (Rd (F := F) m).payload (cellK c (kXr j)) 0 d) = xrPay m c j := by
  rw [Finset.sdiff_empty, duties_dma, bigSep_singleton, payload_xr]
theorem rest_ys (c : Dev nD) (j : Fin 16) :
    bigSep ((Rd (F := F) m).duties (cellK c (kYs j)) 0 \ ∅) (fun d => (Rd (F := F) m).payload (cellK c (kYs j)) 0 d) = ysPay m c j := by
  rw [Finset.sdiff_empty, duties_dma, bigSep_singleton, payload_ys]
theorem rest_yr (c : Dev nD) (j : Fin 16) :
    bigSep ((Rd (F := F) m).duties (cellK c (kYr j)) 0 \ ∅) (fun d => (Rd (F := F) m).payload (cellK c (kYr j)) 0 d) = yrPay m c j := by
  rw [Finset.sdiff_empty, duties_dma, bigSep_singleton, payload_yr]

/-! ## The levels -/

theorem L_of_ne (g : GSem nD τ sig) (h : g.1.2 ≠ .tc) : L g = ∅ := if_neg h
theorem L_tc (c : Dev nD) (sm : SemLoc sig) : L ((c : Thread nD τ), sm) = {()} := if_pos rfl

/-- The levels of the barrier cells, of the receive cells, and of the cells below the collective's. -/
private theorem lv_bar (t : Thread nD τ) : lv (t, csem kBar) () = 1 := by
  show (match ckOf (csem kBar) with | some none => 1 | some (some (a, _)) => if a = 1 then 2 else if a = 3 then 3 else 0 | none => 0) = 1
  rw [ckOf_csem]
private theorem lv_xr (t : Thread nD τ) (i : Fin 16) : lv (t, csem (kXr i)) () = 2 := by
  show (match ckOf (csem (kXr i)) with | some none => 1 | some (some (a, _)) => if a = 1 then 2 else if a = 3 then 3 else 0 | none => 0) = 2
  rw [ckOf_csem]; rfl
private theorem lv_yr (t : Thread nD τ) (i : Fin 16) : lv (t, csem (kYr i)) () = 3 := by
  show (match ckOf (csem (kYr i)) with | some none => 1 | some (some (a, _)) => if a = 1 then 2 else if a = 3 then 3 else 0 | none => 0) = 3
  rw [ckOf_csem]; rfl
private theorem lv_low (t : Thread nD τ) (q : DmaSem sig) (hq : q.val < 2) : lv (t, .dma q) () = 0 := by
  have h : ckOf (SemLoc.dma q : SemLoc sig) = none := by
    show (if h : 2 ≤ q.val then _ else none) = none
    exact dif_neg (by omega)
  show (match ckOf (SemLoc.dma q : SemLoc sig) with | some none => 1 | some (some (a, _)) => if a = 1 then 2 else if a = 3 then 3 else 0 | none => 0) = 0
  rw [h]

/-- A one-cell tally is positive at its cell only. -/
private theorem tallyAt_pos {g0 g : GSem nD τ sig} {k : ℕ} {u : Unit} (h : 0 < tallyAt g0 () k g u) : g = g0 := by
  rw [tallyAt_apply] at h
  by_contra hn
  rw [if_neg (fun h' => hn h'.1)] at h
  exact Nat.lt_irrefl 0 h

/-- What is owed along x (along y) is owed to the peer's receive cells. -/
private theorem OX_pos {c : Dev nD} {n : ℕ} {g : GSem nD τ sig} {u : Unit} (h : 0 < OX c n g u) : ∃ i, g = cellK (xp c) (kXr i) := by
  obtain ⟨i, _, hi⟩ := Pipeline.sum_pos_exists h
  exact ⟨i, tallyAt_pos hi⟩
private theorem OY_pos {c : Dev nD} {n : ℕ} {g : GSem nD τ sig} {u : Unit} (h : 0 < OY c n g u) : ∃ i, g = cellK (yp c) (kYr i) := by
  obtain ⟨i, _, hi⟩ := Pipeline.sum_pos_exists h
  exact ⟨i, tallyAt_pos hi⟩

omit [FloatOps F] in
/-- A wait on a cell of level `ℓ` while everything owed is on TensorCore cells of higher level. -/
theorem mayWait_of (c : Dev nD) (sm : SemLoc sig) (O : CellTallies nD τ sig Unit)
    (hO : ∀ g u, 0 < O g u → g.1.2 = .tc ∧ lv ((c : Thread nD τ), sm) () < lv g u) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => by rw [L, if_pos (hO g u hg).1]; exact Finset.mem_singleton.mpr (Subsingleton.elim _ _))
    (fun p hp => by rw [Finset.mem_singleton.mp hp])
    (fun g u hg => (hO g u hg).2)

omit [FloatOps F] in
/-- At the barrier wait: all 32 receive credits are still owed. -/
theorem mayWait_bar (c : Dev nD) : (levAts L lv : sProp 𝕄) ⊢ MayWait (c : Thread nD τ) (.reg barS) () (OY c 0 + OX c 0) := by
  refine mayWait_of c (.reg barS) _ (fun g u hg => ?_)
  have hb : lv ((c : Thread nD τ), SemLoc.reg barS) () = 1 := lv_bar (c : Thread nD τ)
  rw [hb]
  rcases Pipeline.add_pos_cases hg with h | h
  · obtain ⟨i, rfl⟩ := OY_pos h
    exact ⟨rfl, by rw [lv_yr]; decide⟩
  · obtain ⟨i, rfl⟩ := OX_pos h
    exact ⟨rfl, by rw [lv_xr]; decide⟩
omit [FloatOps F] in
/-- At the wait for chunk `j` along x: only receive credits along y are still owed. -/
theorem mayWait_xr (c : Dev nD) (j : Fin 16) (n : ℕ) : (levAts L lv : sProp 𝕄) ⊢ MayWait (c : Thread nD τ) (.dma (xrS j)) () (OY c n) := by
  refine mayWait_of c (.dma (xrS j)) _ (fun g u hg => ?_)
  have hb : lv ((c : Thread nD τ), SemLoc.dma (xrS j)) () = 2 := lv_xr (c : Thread nD τ) j
  rw [hb]
  obtain ⟨i, rfl⟩ := OY_pos hg
  exact ⟨rfl, by rw [lv_yr]; decide⟩
omit [FloatOps F] in
/-- The pipeline's staging cells sit below everything a device owes at launch. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · refine mayWait_of c (.dma q) _ (fun g u hg => ?_)
    rw [lv_low (c : Thread nD τ) q hq]
    rcases Pipeline.add_pos_cases hg with h | h
    · rcases Pipeline.add_pos_cases h with h | h
      · rcases Pipeline.add_pos_cases h with h | h
        · obtain ⟨i, rfl⟩ := OY_pos h
          exact ⟨rfl, by rw [lv_yr]; decide⟩
        · obtain ⟨i, rfl⟩ := OX_pos h
          exact ⟨rfl, by rw [lv_xr]; decide⟩
      · rw [tallyAt_pos h]
        exact ⟨rfl, by rw [lv_bar]; decide⟩
    · rw [tallyAt_pos h]
      exact ⟨rfl, by rw [lv_bar]; decide⟩
  · rw [MayWait_zero]; iintro -; iempintro

end Cert.Kernel.Coll
end
-- ==== Proof.K.Regions.lean ====
import proofs.«900323_g7700000000000324_dist_rsx_agy_m512_n512_v7x_xy2x2_f32_1_alg».proof.Proof.K.State
import Idealize.ShloMosaic.Lib.Pipeline.Value

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-! ## The three buffers cut into their row chunks -/

/-! A chunk's set is its rectangle's: rows `32 j … 32 j + 31` (and, for the result, columns `512 b … 512 b + 511`). -/

omit [FloatOps F] in
theorem xSet_eq (c : Dev nD) (j : Fin 16) : xSet c j = ((xrect j).set : Finset (Idx (xLoc c))) :=
  (View.set_reshape _ _).trans (View.set_slice_whole _ _)
omit [FloatOps F] in
theorem cSet_eq (c : Dev nD) (j : Fin 16) : cSet c j = ((crect j).set : Finset (Idx (cLoc c))) :=
  View.set_slice_whole _ _
omit [FloatOps F] in
theorem oSet_eq (c : Dev nD) (b : Fin 2) (j : Fin 16) : oSet c b j = ((orect b j).set : Finset (Idx (oLoc c))) :=
  View.set_slice_whole _ _

omit [FloatOps F] in
theorem mem_xSet (c : Dev nD) (j : Fin 16) (i : Idx (xLoc c)) :
    i ∈ xSet c j ↔ 32 * j.val ≤ (i 1).val ∧ (i 1).val < 32 * j.val + 32 := by
  rw [xSet_eq]
  unfold xrect
  rw [Rect.mem_set_unit]
  constructor
  · intro h; have h1 := h 1; simpa using h1
  · intro h a
    have h0 : (i 0).val < 1 := (i 0).isLt
    have h2 : (i 2).val < 512 := (i 2).isLt
    fin_cases a
    · simp; omega
    · simpa using h
    · simp; omega
omit [FloatOps F] in
theorem mem_cSet (c : Dev nD) (j : Fin 16) (i : Idx (cLoc c)) :
    i ∈ cSet c j ↔ 32 * j.val ≤ (i 0).val ∧ (i 0).val < 32 * j.val + 32 := by
  rw [cSet_eq]
  unfold crect
  rw [Rect.mem_set_unit]
  constructor
  · intro h; have h1 := h 0; simpa using h1
  · intro h a
    have h2 : (i 1).val < 512 := (i 1).isLt
    fin_cases a
    · simpa using h
    · simp; omega
omit [FloatOps F] in
theorem mem_oSet (c : Dev nD) (b : Fin 2) (j : Fin 16) (i : Idx (oLoc c)) :
    i ∈ oSet c b j ↔ (32 * j.val ≤ (i 0).val ∧ (i 0).val < 32 * j.val + 32) ∧ (512 * b.val ≤ (i 1).val ∧ (i 1).val < 512 * b.val + 512) := by
  rw [oSet_eq]
  unfold orect
  rw [Rect.mem_set_unit]
  constructor
  · intro h; have h0 := h 0; have h1 := h 1; exact ⟨by simpa using h0, by simpa using h1⟩
  · intro h a
    fin_cases a
    · simpa using h.1
    · simpa using h.2

omit [FloatOps F] in
/-- The block of `x` is its 16 row chunks. -/
theorem X_split (c : Dev nD) (q : PosShare TreeShare) (f : Buf (Elt F) (xLoc c)) :
    (xLoc c ↦{q} f : sProp 𝕄) = bigSep Finset.univ fun j : Fin 16 => xLoc c ↦[xSet c j]{q} f := by
  have hU : (Finset.univ : Finset (Idx (xLoc c))) = Finset.univ.biUnion fun j : Fin 16 => xSet c j := by
    ext i
    simp only [Finset.mem_univ, true_iff, Finset.mem_biUnion, mem_xSet, true_and]
    have h1 : (i 1).val < 512 := (i 1).isLt
    exact ⟨⟨(i 1).val / 32, by omega⟩, by show 32 * ((i 1).val / 32) ≤ _; omega, by show _ < 32 * ((i 1).val / 32) + 32; omega⟩
  rw [hU]
  refine pointsTo_biUnion _ _ fun j _ j' _ hne => ?_
  rw [Finset.disjoint_left]
  intro i hi hi'
  rw [mem_xSet] at hi hi'
  exact hne (Fin.ext (by omega))
omit [FloatOps F] in
/-- The landing buffer is its 16 row chunks. -/
theorem C_split (c : Dev nD) (f : Buf (Elt F) (cLoc c)) :
    (cLoc c ↦{fullShare} f : sProp 𝕄) = bigSep Finset.univ fun j : Fin 16 => cLoc c ↦[cSet c j]{fullShare} f := by
  have hU : (Finset.univ : Finset (Idx (cLoc c))) = Finset.univ.biUnion fun j : Fin 16 => cSet c j := by
    ext i
    simp only [Finset.mem_univ, true_iff, Finset.mem_biUnion, mem_cSet, true_and]
    have h1 : (i 0).val < 512 := (i 0).isLt
    exact ⟨⟨(i 0).val / 32, by omega⟩, by show 32 * ((i 0).val / 32) ≤ _; omega, by show _ < 32 * ((i 0).val / 32) + 32; omega⟩
  rw [hU]
  refine pointsTo_biUnion _ _ fun j _ j' _ hne => ?_
  rw [Finset.disjoint_left]
  intro i hi hi'
  rw [mem_cSet] at hi hi'
  exact hne (Fin.ext (by omega))
omit [FloatOps F] in
/-- The result buffer is its two column blocks of 16 row chunks each. -/
theorem O_split (c : Dev nD) (f : Buf (Elt F) (oLoc c)) :
    (oLoc c ↦{fullShare} f : sProp 𝕄)
      = iprop((bigSep Finset.univ fun j : Fin 16 => oLoc c ↦[oSet c 0 j]{fullShare} f) ∗ bigSep Finset.univ fun j : Fin 16 => oLoc c ↦[oSet c 1 j]{fullShare} f) := by
  have hU : (Finset.univ : Finset (Idx (oLoc c)))
      = (Finset.univ.biUnion fun j : Fin 16 => oSet c 0 j) ∪ (Finset.univ.biUnion fun j : Fin 16 => oSet c 1 j) := by
    ext i
    simp only [Finset.mem_univ, true_iff, Finset.mem_union, Finset.mem_biUnion, mem_oSet, true_and]
    have h0 : (i 0).val < 512 := (i 0).isLt
    have h1 : (i 1).val < 1024 := (i 1).isLt
    by_cases hb : (i 1).val < 512
    · left
      refine ⟨⟨(i 0).val / 32, by omega⟩, ⟨?_, ?_⟩, ?_, ?_⟩
      · show 32 * ((i 0).val / 32) ≤ _; omega
      · show _ < 32 * ((i 0).val / 32) + 32; omega
      · show 512 * 0 ≤ _; omega
      · show _ < 512 * 0 + 512; omega
    · right
      refine ⟨⟨(i 0).val / 32, by omega⟩, ⟨?_, ?_⟩, ?_, ?_⟩
      · show 32 * ((i 0).val / 32) ≤ _; omega
      · show _ < 32 * ((i 0).val / 32) + 32; omega
      · show 512 * 1 ≤ _; omega
      · show _ < 512 * 1 + 512; omega
  have hd : Disjoint (Finset.univ.biUnion fun j : Fin 16 => oSet c 0 j) (Finset.univ.biUnion fun j : Fin 16 => oSet c 1 j) := by
    rw [Finset.disjoint_left]
    intro i hi hi'
    simp only [Finset.mem_biUnion, mem_oSet, Finset.mem_univ, true_and] at hi hi'
    obtain ⟨j, -, hj⟩ := hi
    obtain ⟨j', -, hj'⟩ := hi'
    have e0 : ((0 : Fin 2) : ℕ) = 0 := rfl
    have e1 : ((1 : Fin 2) : ℕ) = 1 := rfl
    rw [e0] at hj; rw [e1] at hj'
    omega
  have hdj : ∀ b : Fin 2, ∀ j ∈ (Finset.univ : Finset (Fin 16)), ∀ j' ∈ (Finset.univ : Finset (Fin 16)), j ≠ j' → Disjoint (oSet c b j) (oSet c b j') := by
    intro b j _ j' _ hne
    rw [Finset.disjoint_left]
    intro i hi hi'
    rw [mem_oSet] at hi hi'
    exact hne (Fin.ext (by omega))
  have hu : (oLoc c ↦[(Finset.univ.biUnion fun j : Fin 16 => oSet c 0 j) ∪ (Finset.univ.biUnion fun j : Fin 16 => oSet c 1 j)]{fullShare} f : sProp 𝕄)
      ⊣⊢ iprop((oLoc c ↦[Finset.univ.biUnion fun j : Fin 16 => oSet c 0 j]{fullShare} f) ∗ oLoc c ↦[Finset.univ.biUnion fun j : Fin 16 => oSet c 1 j]{fullShare} f) := pointsTo_union hd
  rw [hU, BI.equiv_iff.mp ⟨hu.1, hu.2⟩, pointsTo_biUnion _ _ (hdj 0), pointsTo_biUnion _ _ (hdj 1)]

/-! ## The credit of a chunk's transfer is the same for every chunk of one buffer shape -/

omit [FloatOps F] in
theorem xsrc_credit (j : Fin 16) : (xsrc j).view.dmaCredit = Nx := rfl
omit [FloatOps F] in
theorem cdst_credit (j : Fin 16) : (cdst j).view.dmaCredit = Nx := rfl
omit [FloatOps F] in
theorem oblk_credit (b : Fin 2) (j : Fin 16) : (oblk b j).view.dmaCredit = Ny := rfl

/-! ## The elements a load or store of a chunk touches -/

omit [FloatOps F] in
/-- The elements a load or store of chunk `j` touches are the chunk's. -/
theorem xload_set (c : Dev nD) (j : Fin 16) : (XM.view.setOn (xrect j).toLoadRect.set : Finset (Idx (xLoc c))) = xSet c j := by
  rw [xSet_eq]; exact Finset.map_refl
omit [FloatOps F] in
theorem cload_set (c : Dev nD) (j : Fin 16) : (CM.view.setOn (crect j).toLoadRect.set : Finset (Idx (cLoc c))) = cSet c j := by
  rw [cSet_eq]; exact Finset.map_refl
omit [FloatOps F] in
theorem oload_set (c : Dev nD) (b : Fin 2) (j : Fin 16) : (OM.view.setOn (orect b j).toLoadRect.set : Finset (Idx (oLoc c))) = oSet c b j := by
  rw [oSet_eq]; exact Finset.map_refl
omit [FloatOps F] in
theorem ostore_set (c : Dev nD) (b : Fin 2) (j : Fin 16) :
    ((OM.access (orect b j) : View sig .tc .vmem _ _).setOn Finset.univ : Finset (Idx (oLoc c))) ⊆ oSet c b j :=
  subset_of_eq rfl

/-! ## What lands, and what is stored, is the named contents on the chunk -/

omit [FloatOps F] in
/-- Re-indexing a rank-2 index into the shape with a leading unit axis keeps the two coordinates. -/
theorem unsq3 {n1 n2 : ℕ} (h : (⟨2, ![n1, n2]⟩ : Shape).numel = (⟨3, ![1, n1, n2]⟩ : Shape).numel)
    (y : (⟨2, ![n1, n2]⟩ : Shape).Idx) :
    Shape.reshapeEquiv h y = Idealize.ShloMosaic.ValueIdx.ix3 (0 : Fin 1) (y 0 : Fin n1) (y 1 : Fin n2) := by
  apply Shape.reshapeEquiv_eq_of_rowMajor
  have e3 := Shape.rowMajor_val_three (d := ![1, n1, n2]) (Idealize.ShloMosaic.ValueIdx.ix3 (0 : Fin 1) (y 0 : Fin n1) (y 1 : Fin n2))
  have e2 := Shape.rowMajor_val_two (d := ![n1, n2]) y
  refine e3.trans (Eq.trans ?_ e2.symm)
  show ((0 : ℕ) * n1 + (y 0).val) * n2 + (y 1).val = (y 0).val * n2 + (y 1).val
  simp

/-- The rows the transfer along x writes into the peer's landing buffer are the peer's `commG` there, whatever was there. -/
theorem landX (c : Dev nD) (j : Fin 16) (fd : Buf (Elt F) (cLoc (xp c))) :
    ∀ i ∈ cSet (xp c) j, (cdst j).view.write (Elt F) fd ((xsrc j).view.read (Elt F) (xA m c)) Finset.univ i = commG m (xp c) i := by
  intro i hi
  obtain ⟨y, rfl⟩ := View.exists_emb_of_mem_set (cdst j).view hi
  refine (View.write_emb_of_mem (v := (cdst j).view) (Val := Elt F) fd ((xsrc j).view.read (Elt F) (xA m c)) (M := Finset.univ) (x := y) (Finset.mem_univ y)).trans ?_
  unfold commG
  rw [xp_xp]
  have k1 := unsq3 (n1 := 32) (n2 := 512) squeezes_S1x32x512_S32x512.numel_eq y
  have k2 := unsq3 (n1 := 512) (n2 := 512) sq_X.numel_eq ((crect j).emb y)
  show xA m c ((xrect j).emb (Shape.reshapeEquiv squeezes_S1x32x512_S32x512.numel_eq y)) = xA m c (Shape.reshapeEquiv sq_X.numel_eq ((crect j).emb y))
  refine congrArg (xA m c) ?_
  refine (congrArg (xrect j).emb k1).trans (Eq.trans ?_ k2.symm)
  funext a
  fin_cases a <;> rfl

/-- `sumV` at equal device, chunk and index. -/
theorem sumV_congr {d d' : Dev nD} {j j' : Fin 16} {y y' : S32x512.Idx} (hd : d = d') (hj : j = j') (hy : y = y') :
    sumV m d j y = sumV m d' j' y' := by subst hd hj hy; rfl
/-- `outG` at row `32 j + y₀`, column `512 b + y₁` is chunk `j` of what the device at y = `b` computes, at `(y₀, y₁)`. -/
theorem outG_at (c : Dev nD) (b : Fin 2) (j : Fin 16) (y : S32x512.Idx) (i : Idx (oLoc c))
    (h0 : (i 0).val = 32 * j.val + (y 0).val) (h1 : (i 1).val = 512 * b.val + (y 1).val) :
    outG m c i = sumV m (rowDev c b) j y := by
  have y0 : (y 0).val < 32 := (y 0).isLt
  have y1 : (y 1).val < 512 := (y 1).isLt
  unfold outG
  refine sumV_congr m (congrArg (rowDev c) (Fin.ext ?_)) (Fin.ext ?_) ?_
  · show (i 1).val / 512 = b.val; omega
  · show (i 0).val / 32 = j.val; omega
  · funext d
    match d with
    | ⟨0, _⟩ => exact Fin.ext (by show (i 0).val % 32 = (y 0).val; omega)
    | ⟨1, _⟩ => exact Fin.ext (by show (i 1).val % 512 = (y 1).val; omega)

/-- The rows the transfer along y writes into the peer's result buffer are the peer's `outG` there. -/
theorem landY (c : Dev nD) (j : Fin 16) (fd : Buf (Elt F) (oLoc (yp c))) :
    ∀ i ∈ oSet (yp c) (col c) j, (oblk (col c) j).view.write (Elt F) fd ((oblk (col c) j).view.read (Elt F) (outG m c)) Finset.univ i = outG m (yp c) i := by
  intro i hi
  obtain ⟨y, rfl⟩ := View.exists_emb_of_mem_set (oblk (col c) j).view hi
  refine (View.write_emb_of_mem (v := (oblk (col c) j).view) (Val := Elt F) fd ((oblk (col c) j).view.read (Elt F) (outG m c))
    (M := Finset.univ) (x := y) (Finset.mem_univ y)).trans ?_
  refine Eq.trans ?_ (congrFun (outG_yp m c).symm _)
  rfl

/-- The store of chunk `j`'s sum makes the chunk `outG`. -/
theorem stored (c : Dev nD) (j : Fin 16) (f : Buf (Elt F) (oLoc c)) :
    ∀ i ∈ oSet c (col c) j, ((OM.access (orect (col c) j) : View sig .tc .vmem _ _).write (Elt F) f (sumV m c j) Finset.univ) i = outG m c i := by
  intro i hi
  obtain ⟨y, rfl⟩ := View.exists_emb_of_mem_set (oblk (col c) j).view hi
  refine (View.write_emb_of_mem (v := (OM.access (orect (col c) j) : View sig .tc .vmem _ _)) (Val := Elt F) f (sumV m c j)
    (M := Finset.univ) (x := y) (Finset.mem_univ y)).trans ?_
  refine Eq.trans ?_ (outG_at m c (col c) j y _ ?_ ?_).symm
  · rw [rowDev_col]; rfl
  · show 32 * j.val + 1 * (y 0).val = _; omega
  · show 512 * (col c).val + 1 * (y 1).val = _; omega

/-- A load of chunk `j` of the landing buffer sees `commG`'s rows when the buffer agrees with it on the chunk. -/
theorem load_comm (c : Dev nD) (j : Fin 16) (g : Buf (Elt F) (cLoc c)) (hg : ∀ i ∈ cSet c j, g i = commG m c i) :
    CM.view.readAt (Elt F) (crect j).toLoadRect g = CM.view.readAt (Elt F) (crect j).toLoadRect (commG m c) :=
  View.readAt_congr fun i hi => hg i ((Finset.ext_iff.mp (cload_set c j) i).mp hi)

end Cert.Kernel.Coll
end
-- ==== Proof.K.StepsA.lean ====
import proofs.«900323_g7700000000000324_dist_rsx_agy_m512_n512_v7x_xy2x2_f32_1_alg».proof.Proof.K.Tables
import proofs.«900323_g7700000000000324_dist_rsx_agy_m512_n512_v7x_xy2x2_f32_1_alg».proof.Proof.K.Regions

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-! ## The shared record, cell by cell -/

/-- The invariant of any one cell, out of the shared record. -/
theorem inv_at_aux (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem inv_at (ck : Dev nD × CK) : records m K ⊢ cellInv ER (Rd m) (K ck) (kcell ck) := by
  unfold records
  iintro ⟨H, -⟩
  iapply (inv_at_aux m K ck)
  iexact H

/-- That any one cell is at round 0, out of the shared record. -/
theorem reached_at_aux (ck : Dev nD × CK) :
    (bigSep Finset.univ fun ck : Dev nD × CK => (reached ER (kcell ck) 0 : sProp 𝕄)) ⊢ reached ER (kcell ck) 0 :=
  bigSep_elim (Finset.mem_univ ck)
theorem reached_at (ck : Dev nD × CK) : records m K ⊢ reached ER (kcell ck) 0 := by
  unfold records
  iintro ⟨-, H⟩
  iapply (reached_at_aux (F := F) ck)
  iexact H

/-! ## The entry handshake -/

/-- The signal to the x-peer's barrier: its duty `false`, handing over this device's landing buffer chunk by chunk. -/
theorem wp_sig_x (c n : Dev nD) (hn : n = xp c) {k' : ℕ} (hk' : k' = 1) {sem : Sem sig} (hsem : sem = barS)
    {α : Type} {Q : α → sProp 𝕄} {k : PUnit → Prog (TpuEff nD τ sig (Elt F) Λ₀ .tc) α} :
    iprop(records m K ∗ owesE c (O₀ c) ∗ dutyTok ER (cellK (xp c) kBar) 0 false
        ∗ (bigSep Finset.univ fun j : Fin 16 => iprop(∃ f, cLoc c ↦[cSet c j]{fullShare} f))
        ∗ (owesE c (O₁ c) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n : Thread nD τ) sem k') k) Q := by
  subst hn hk' hsem
  unfold owesE
  iintro ⟨#Hrec, HO, Htok, Hpay, Hk⟩
  icases HO with ⟨%W, HO⟩
  iapply (Rounds.wp_signal 𝒱₀ ER (Rd m) (c : Thread nD τ) none (dst := (xp c : Thread nD τ)) (κ := K (xp c, kBar))
      (d := false) (by show false ∈ (Rd m).duties (cellK (xp c) kBar) 0; rw [duties_bar]; exact Finset.mem_univ _)
      (amount_bar m (xp c) false) () (O₁ c) rfl (W := W))
    $$ [HO Htok Hpay]
  · isplitr; · iapply (inv_at m K (xp c, kBar)); iexact Hrec
    isplitl [HO]; · iexact HO
    isplitl [Htok]; · iexact Htok
    isplitl [Hpay]
    · rw [show (Rd m).payload ((xp c : Thread nD τ), SemLoc.reg barS) 0 false = barPayX (xp c) from payload_bar_false m (xp c)]
      unfold barPayX; rw [xp_xp]; iexact Hpay
    · iapply (reached_at m K (xp c, kBar)); iexact Hrec
  iintro HO
  iapply Hk
  iexists W; iexact HO

/-- The signal to the y-peer's barrier: its duty `true`, handing over the peer's column block of this device's result buffer. -/
theorem wp_sig_y (c n : Dev nD) (hn : n = yp c) {k' : ℕ} (hk' : k' = 1) {sem : Sem sig} (hsem : sem = barS)
    {α : Type} {Q : α → sProp 𝕄} {k : PUnit → Prog (TpuEff nD τ sig (Elt F) Λ₀ .tc) α} :
    iprop(records m K ∗ owesE c (O₁ c) ∗ dutyTok ER (cellK (yp c) kBar) 0 true
        ∗ (bigSep Finset.univ fun j : Fin 16 => iprop(∃ f, oLoc c ↦[oSet c (col (yp c)) j]{fullShare} f))
        ∗ (owesE c (OY c 0 + OX c 0) -∗ wp frame (wpE (defs₀ (F := F)) 𝒱₀ (c : Thread nD τ) none) Set.univ (k ⟨⟩) Q))
      ⊢ wp frame (wpE (defs₀ (F := F)) 𝒱₀ (c : Thread nD τ) none) Set.univ (.op (.semSignal (n : Thread nD τ) sem k') k) Q := by
  subst hn hk' hsem
  unfold owesE
  iintro ⟨#Hrec, HO, Htok, Hpay, Hk⟩
  icases HO with ⟨%W, HO⟩
  iapply (Rounds.wp_signal 𝒱₀ ER (Rd m) (c : Thread nD τ) none (dst := (yp c : Thread nD τ)) (κ := K (yp c, kBar))
      (d := true) (by show true ∈ (Rd m).duties (cellK (yp c) kBar) 0; rw [duties_bar]; exact Finset.mem_univ _)
      (amount_bar m (yp c) true) () (OY c 0 + OX c 0) rfl (W := W))
    $$ [HO Htok Hpay]
  · isplitr; · iapply (inv_at m K (yp c, kBar)); iexact Hrec
    isplitl [HO]; · iexact HO
    isplitl [Htok]; · iexact Htok
    isplitl [Hpay]
    · rw [show (Rd m).payload ((yp c : Thread nD τ), SemLoc.reg barS) 0 true = barPayY (yp c) from payload_bar_true m (yp c)]
      unfold barPayY; rw [yp_yp]; iexact Hpay
    · iapply (reached_at m K (yp c, kBar)); iexact Hrec
  iintro HO
  iapply Hk
  iexists W; iexact HO

/-- The wait for both peers' signals: both payloads come with it. -/
theorem wp_bar_wait (c : Dev nD) {k' : ℕ} (hk' : k' = 2) {sem : Sem sig} (hsem : sem = barS)
    {α : Type} {Q : α → sProp 𝕄} {k : PUnit → Prog (TpuEff nD τ sig (Elt F) Λ₀ .tc) α} :
    iprop(records m K ∗ levAts L lv ∗ owesE c (OY c 0 + OX c 0) ∗ cred (tallyAt (cellK c kBar) () 2) ∗ atPos ER (cellK c kBar) 0 ∅ 0
        ∗ ((owesE c (OY c 0 + OX c 0) ∗ atPos ER (cellK c kBar) 1 ∅ 0 ∗ barPayX c ∗ barPayY c) -∗ wp frame (wpE (defs₀ (F := F)) 𝒱₀ (c : Thread nD τ) none) Set.univ (k ⟨⟩) Q))
      ⊢ wp frame (wpE (defs₀ (F := F)) 𝒱₀ (c : Thread nD τ) none) Set.univ (.op (.semWait sem k') k) Q := by
  subst hk' hsem
  unfold owesE
  iintro ⟨#Hrec, Hlev, HO, Hc, Hat, Hk⟩
  icases HO with ⟨%W, HO⟩
  iapply (Rounds.wp_wait_rest_token 𝒱₀ ER (Rd m) (c : Thread nD τ) none (κ := K (c, kBar))
      (wpE_semWait_eq 𝒱₀ (c : Thread nD τ) none Set.univ) (Set.mem_univ _) () (O := OY c 0 + OX c 0) (W := W) (R := 0) (m := 0) (T := ∅)
      (by show 0 + 2 = (Rd m).expect (cellK c kBar) 0; rw [expect_bar])) $$ [Hlev HO Hc Hat]
  · isplitr; · iapply (inv_at m K (c, kBar)); iexact Hrec
    isplitl [Hc]; · iexact Hc
    isplitl [HO]; · iexact HO
    isplitl [Hlev]; · iapply (mayWait_bar c); iexact Hlev
    iexact Hat
  iintro ⟨HO, Hat, -, Hpay⟩
  ihave Hp := (Entails.of_eq (show bigSep ((Rd m).duties ((c : Thread nD τ), SemLoc.reg barS) 0 \ ∅)
      (fun d => (Rd m).payload ((c : Thread nD τ), SemLoc.reg barS) 0 d) = iprop(barPayX c ∗ barPayY c) from rest_bar m c)) $$ Hpay
  icases Hp with ⟨HpX, HpY⟩
  iapply Hk
  isplitl [HO]; · iexists (insert (SemLoc.reg barS, ()) W); iexact HO
  isplitl [Hat]; · iexact Hat
  isplitl [HpX]; · iexact HpX
  iexact HpY

/-! ## Phase 1: the send of chunk `j` along x -/

theorem wp_xsend (c : Dev nD) (j : Fin 16) (n : Dev nD) (hn : n = xp c)
    {src dst : Memref sig .tc .vmem S32x512 .f32} (hs : src = xsrc j) (hd : dst = cdst j)
    {sS sR : DmaSem sig} (hsS : sS = xsS j) (hsR : sR = xrS j)
    {hsc : (dst : Memref sig (Dev.tc n : Thread nD τ).2.kind .vmem S32x512 .f32).view.ref.isScScratch = false}
    {hsrc : src.view.WordExact} {hdst : dst.view.WordExact}
    {hsem : DmaTarget.Typed .vmem (.dma sR) (.remote (Dev.tc n : Thread nD τ) dst (.dma sS) hsc)}
    {α : Type} {Q : α → sProp 𝕄} {k : PUnit → Prog (TpuEff nD τ sig (Elt F) Λ₀ .tc) α} :
    iprop(records m K ∗ owesE c (OY c 0 + OX c j.val) ∗ S1 m c j.val
        ∗ ((owesE c (OY c 0 + OX c (j.val + 1)) ∗ S1 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.enqueueDma src (.remote (Dev.tc n : Thread nD τ) dst (.dma sS) hsc) (.dma sR) hsrc hdst hsem) k) Q := by
  subst hn hs hd hsS hsR
  unfold owesE S1
  rw [bigSep_ge_peel (x1Todo m c) j, bigSep_lt_peel (x1Done c) j]
  iintro ⟨#Hrec, HO, ⟨⟨Hj, Htodo⟩, Hdone⟩, Hk⟩
  unfold x1Todo
  icases Hj with ⟨HtS, HtR, Hx, Hc⟩
  icases HO with ⟨%W, HO⟩
  icases Hc with ⟨%fd, Hc⟩
  iapply (Rounds.wp_send_pointsTo 𝒱₀ ER (Rd m) (c : Thread nD τ) none (c' := (xp c : Thread nD τ)) (src := xsrc j) (dst := cdst j)
      (q := half) (fs := xA m c) (fd := fd) (κ₁ := K (c, kXs j)) (κ₂ := K (xp c, kXr j))
      (r₁ := 0) (r₂ := 0) (d₁ := false) (d₂ := false)
      (by show false ∈ (Rd m).duties (cellK c (kXs j)) 0; rw [duties_dma]; exact Finset.mem_singleton_self _)
      (by show false ∈ (Rd m).duties (cellK (xp c) (kXr j)) 0; rw [duties_dma]; exact Finset.mem_singleton_self _)
      () () Nx rfl (amount_xs m c j false) (amount_xr m (xp c) j false)
      (O₀ := OY c 0 + OX c j.val) (OY c 0 + OX c (j.val + 1)) (by rw [OX_peel c j, add_assoc]) (W := W)
      (by show _ ⊢ (Rd m).payload (cellK c (kXs j)) 0 false; rw [payload_xs]; exact BI.Entails.refl _)
      (by show _ ⊢ (Rd m).payload (cellK (xp c) (kXr j)) 0 false; rw [payload_xr]; unfold xrPay; exact Entails.of_eq (pointsTo_congr (landX m c j fd)))) $$ [HO HtS HtR Hx Hc]
  · isplitr; · iapply (inv_at m K (c, kXs j)); iexact Hrec
    isplitr; · iapply (inv_at m K (xp c, kXr j)); iexact Hrec
    isplitl [Hx]; · iexact Hx
    isplitl [Hc]; · iexact Hc
    isplitl [HO]; · iexact HO
    isplitl [HtS]; · iexact HtS
    isplitr; · iapply (reached_at m K (c, kXs j)); iexact Hrec
    isplitl [HtR]; · iexact HtR
    iapply (reached_at m K (xp c, kXr j)); iexact Hrec
  iintro ⟨Hcr, HO⟩
  iapply Hk
  isplitl [HO]; · iexists W; iexact HO
  isplitl [Htodo]; · iexact Htodo
  isplitl [Hcr]; · unfold x1Done; iexact Hcr
  iexact Hdone

end Cert.Kernel.Coll
end
-- ==== Proof.K.StepsB.lean ====
import proofs.«900323_g7700000000000324_dist_rsx_agy_m512_n512_v7x_xy2x2_f32_1_alg».proof.Proof.K.Tables
import proofs.«900323_g7700000000000324_dist_rsx_agy_m512_n512_v7x_xy2x2_f32_1_alg».proof.Proof.K.Regions

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-- The invariant of any one cell, out of the shared record. -/
private theorem recInv (ck : Dev nD × CK) : records m K ⊢ cellInv ER (Rd m) (K ck) (kcell ck) := by
  unfold records
  exact sep_elim_left.trans (bigSep_elim (Finset.mem_univ ck) (Φ := fun ck : Dev nD × CK => (cellInv ER (Rd m) (K ck) (kcell ck) : sProp 𝕄)))

/-- That any one cell is at round 0, out of the shared record. -/
private theorem recReached (ck : Dev nD × CK) : records m K ⊢ reached ER (kcell ck) 0 := by
  unfold records
  exact sep_elim_right.trans (bigSep_elim (Finset.mem_univ ck) (Φ := fun ck : Dev nD × CK => (reached ER (kcell ck) 0 : sProp 𝕄)))

/-! ## Phase 2, chunk `j`: wait for the x-peer's rows, load both chunks, store their sum, send it along y -/

theorem wp_chunk (c : Dev nD) (j : Fin 16) (n : Dev nD) (hn : n = yp c)
    {sXR : DmaSem sig} (hsXR : sXR = xrS j)
    {wsrc wdst : Memref sig .tc .vmem S32x512 .f32} (hwd : wdst = cdst j) {hw1 : wsrc.view.WordExact} {hw2 : wdst.view.WordExact}
    {hlx : XM.view.LoadsAt (xrect j).toLoadRect} {hlc : CM.view.LoadsAt (crect j).toLoadRect}
    {off : Fin 2 → ℕ} (hoff : off = ![32 * j.val, 512 * (col c).val]) {inb : ∀ a, off a + S32x512.size a ≤ S512x1024.size a}
    {hlo : OM.view.LoadsAt (Rect.unit (s := S512x1024) off S32x512.size inb).toLoadRect}
    {off' : Fin 2 → ℕ} (hoff' : off' = ![32 * j.val, 512 * (col c).val]) {inb' : ∀ a, off' a + S32x512.size a ≤ S512x1024.size a}
    {pay : Vec F S1x32x512 .f32 → Vec F S32x512 .f32 → FVec F S32x512 .f32} (hpay : pay = addChunk)
    {hst : ((OM.access (Rect.unit (s := S512x1024) off' S32x512.size inb') : View sig .tc .vmem _ _)).Stores Finset.univ}
    {hst' : (Finset.univ : Finset (Rect.unit (s := S512x1024) off' S32x512.size inb').shape.Idx) = Finset.univ ∨ ∀ a, (Rect.unit (s := S512x1024) off' S32x512.size inb').stride a = 1}
    {ysrc ydst : Memref sig .tc .vmem S32x512 .f32} (hys : ysrc = oblk (col c) j) (hyd : ydst = oblk (col c) j)
    {sYS sYR : DmaSem sig} (hsYS : sYS = ysS j) (hsYR : sYR = yrS j)
    {hsc : (ydst : Memref sig (Dev.tc n : Thread nD τ).2.kind .vmem S32x512 .f32).view.ref.isScScratch = false}
    {hysrc : ysrc.view.WordExact} {hydst : ydst.view.WordExact}
    {hysem : DmaTarget.Typed .vmem (.dma sYR) (.remote (Dev.tc n : Thread nD τ) ydst (.dma sYS) hsc)}
    {α : Type} {Q : α → sProp 𝕄} {k : PUnit → Prog (TpuEff nD τ sig (Elt F) Λ₀ .tc) α} :
    iprop(records m K ∗ levAts L lv ∗ owesE c (OY c j.val) ∗ S2 m c j.val
        ∗ ((owesE c (OY c (j.val + 1)) ∗ S2 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ
          (.op (.waitDma2 sXR wsrc wdst hw1 hw2) fun _ =>
            .op (.load XM (xrect j).toLoadRect hlx) fun v1 =>
            .op (.load CM (crect j).toLoadRect hlc) fun v2 =>
            .op (.load OM (Rect.unit (s := S512x1024) off S32x512.size inb).toLoadRect hlo) fun _ =>
            .op (.store OM (Rect.unit (s := S512x1024) off' S32x512.size inb') (pay v1 v2) Finset.univ hst hst') fun _ =>
            .op (.enqueueDma ysrc (.remote (Dev.tc n : Thread nD τ) ydst (.dma sYS) hsc) (.dma sYR) hysrc hydst hysem) k) Q := by
  subst hn hsXR hwd hoff hoff' hpay hys hyd hsYS hsYR
  unfold owesE S2
  rw [bigSep_ge_peel (x2Todo m c) j, bigSep_lt_peel (x2Done m c) j]
  iintro ⟨#Hrec, Hlev, HO, ⟨⟨Hj, Htodo⟩, Hdone⟩, Hk⟩
  unfold x2Todo
  icases Hj with ⟨Hat, Hcr, Hx, Ho, HtS, HtR, Hpo⟩
  icases HO with ⟨%W, HO⟩
  icases Ho with ⟨%fo, Ho⟩
  icases Hpo with ⟨%fd, Hpo⟩
  have hNx : (cdst j).view.dmaCredit = Nx := rfl
  have hrest : bigSep ((Rd (F := F) m).duties ((c : Thread nD τ), SemLoc.dma (xrS j)) 0 \ ∅)
      (fun d => (Rd (F := F) m).payload ((c : Thread nD τ), SemLoc.dma (xrS j)) 0 d)
        = (cLoc c ↦[cSet c j]{fullShare} commG m c : sProp 𝕄) := rest_xr m c j
  iapply (Rounds.wp_wait_rest_token 𝒱₀ ER (Rd m) (c : Thread nD τ) none (κ := K (c, kXr j))
      (wpE_waitDma2_eq 𝒱₀ (c : Thread nD τ) none Set.univ) (Set.mem_univ _) () (O := OY c j.val) (W := W) (R := 0) (m := 0) (T := ∅)
      (by rw [hNx, Nat.zero_add]; exact (expect_xr m c j).symm)) $$ [Hlev HO Hcr Hat]
  · isplitr; · iapply (recInv m K (c, kXr j)); iexact Hrec
    isplitl [Hcr]; · rw [hNx]; iexact Hcr
    isplitl [HO]; · iexact HO
    isplitl [Hlev]; · iapply (mayWait_xr c j j.val); iexact Hlev
    iexact Hat
  iintro ⟨HO, Hat, -, Hpay⟩
  ihave Hc := (Entails.of_eq hrest) $$ Hpay
  iapply (wp_load 𝒱₀ (c : Thread nD τ) none Set.univ (m := XM) (r := (xrect j).toLoadRect) (S := xSet c j) (q := half') (f := xA m c)
      (xload_set c j).subset) $$ Hx
  iintro Hx
  iapply (wp_load 𝒱₀ (c : Thread nD τ) none Set.univ (m := CM) (r := (crect j).toLoadRect) (S := cSet c j) (q := fullShare) (f := commG m c)
      (cload_set c j).subset) $$ Hc
  iintro Hc
  iapply (wp_load 𝒱₀ (c : Thread nD τ) none Set.univ (m := OM) (r := (orect (col c) j).toLoadRect) (S := oSet c (col c) j) (q := fullShare) (f := fo)
      (oload_set c (col c) j).subset) $$ Ho
  iintro Ho
  iapply (wp_store 𝒱₀ (c : Thread nD τ) none Set.univ (m := OM) (r := orect (col c) j) (w := sumV m c j) (Mk := Finset.univ)
      (S := oSet c (col c) j) (f := fo) (show (oSet c (col c) j) ⊆ oSet c (col c) j from subset_rfl)) $$ Ho
  iintro Ho
  ihave Ho := (Entails.of_eq (pointsTo_congr (ℓ := oLoc c) (q := fullShare) (stored m c j fo))) $$ Ho
  have hland : (oLoc (yp c) ↦[oSet (yp c) (col c) j]{fullShare}
        ((oblk (col c) j).view.write (Elt F) fd ((oblk (col c) j).view.read (Elt F) (outG m c)) Finset.univ) : sProp 𝕄)
      ⊢ (Rd (F := F) m).payload (cellK (yp c) (kYr j)) 0 false := by
    rw [payload_yr, pointsTo_congr (landY m c j fd)]; unfold yrPay; rw [yp_yp]
  iapply (Rounds.wp_send_pointsTo 𝒱₀ ER (Rd m) (c : Thread nD τ) none (c' := (yp c : Thread nD τ)) (src := oblk (col c) j) (dst := oblk (col c) j)
      (q := fullShare) (fs := outG m c) (fd := fd) (κ₁ := K (c, kYs j)) (κ₂ := K (yp c, kYr j))
      (r₁ := 0) (r₂ := 0) (d₁ := false) (d₂ := false)
      (show false ∈ (Rd (F := F) m).duties (cellK c (kYs j)) 0 by rw [duties_dma]; exact Finset.mem_singleton_self _)
      (show false ∈ (Rd (F := F) m).duties (cellK (yp c) (kYr j)) 0 by rw [duties_dma]; exact Finset.mem_singleton_self _)
      () () Ny rfl (amount_ys m c j false) (amount_yr m (yp c) j false)
      (OY c (j.val + 1)) (OY_peel c j) (W := insert (SemLoc.dma (xrS j), ()) W)
      (Entails.of_eq (payload_ys m c j false).symm)
      hland) $$ [HO HtS HtR Ho Hpo]
  · isplitr; · iapply (recInv m K (c, kYs j)); iexact Hrec
    isplitr; · iapply (recInv m K (yp c, kYr j)); iexact Hrec
    isplitl [Ho]; · iexact Ho
    isplitl [Hpo]; · iexact Hpo
    isplitl [HO]; · iexact HO
    isplitl [HtS]; · iexact HtS
    isplitr; · iapply (recReached m K (c, kYs j)); iexact Hrec
    isplitl [HtR]; · iexact HtR
    iapply (recReached m K (yp c, kYr j)); iexact Hrec
  iintro ⟨Hcr', HO⟩
  iapply Hk
  isplitl [HO]; · iexists (insert (SemLoc.dma (xrS j), ()) W); iexact HO
  isplitl [Htodo]; · iexact Htodo
  isplitr [Hdone]
  · unfold x2Done
    isplitl [Hat]; · iexact Hat
    isplitl [Hx]; · iexact Hx
    isplitl [Hc]; · iexact Hc
    iexact Hcr'
  iexact Hdone

end Cert.Kernel.Coll
end
-- ==== Proof.K.StepsC.lean ====
import proofs.«900323_g7700000000000324_dist_rsx_agy_m512_n512_v7x_xy2x2_f32_1_alg».proof.Proof.K.Tables
import proofs.«900323_g7700000000000324_dist_rsx_agy_m512_n512_v7x_xy2x2_f32_1_alg».proof.Proof.K.Regions

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-- The invariant of any one cell, out of the shared record. -/
private theorem rec_inv (ck : Dev nD × CK) : records m K ⊢ cellInv ER (Rd m) (K ck) (kcell ck) := by
  unfold records
  iintro ⟨H, -⟩
  iapply (show (bigSep Finset.univ fun ck : Dev nD × CK => (cellInv ER (Rd m) (K ck) (kcell ck) : sProp 𝕄)) ⊢ cellInv ER (Rd m) (K ck) (kcell ck) from
    bigSep_elim (Finset.mem_univ ck))
  iexact H

/-! ## Phase 3: the wait for chunk `j` of the y-peer's column block -/

theorem wp_ywait (c : Dev nD) (j : Fin 16) {sYR : DmaSem sig} (hs : sYR = yrS j)
    {wsrc wdst : Memref sig .tc .vmem S32x512 .f32} (hcr : wdst.view.dmaCredit = Ny) {hw1 : wsrc.view.WordExact} {hw2 : wdst.view.WordExact}
    {α : Type} {Q : α → sProp 𝕄} {k : PUnit → Prog (TpuEff nD τ sig (Elt F) Λ₀ .tc) α} :
    iprop(records m K ∗ owesE c 0 ∗ S3 m c j.val ∗ ((owesE c 0 ∗ S3 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sYR wsrc wdst hw1 hw2) k) Q := by
  subst hs
  unfold owesE S3
  rw [bigSep_ge_peel (x3Todo c) j, bigSep_lt_peel (x3Done m c) j]
  iintro ⟨#Hrec, HO, ⟨⟨Hj, Htodo⟩, Hdone⟩, Hk⟩
  unfold x3Todo
  icases Hj with ⟨Hat, Hc⟩
  icases HO with ⟨%W, HO⟩
  iapply (Rounds.wp_wait_rest_token 𝒱₀ ER (Rd m) (c : Thread nD τ) none (κ := K (c, kYr j)) (sm := csem (kYr j))
      (wpE_waitDma2_eq 𝒱₀ (c : Thread nD τ) none Set.univ) (Set.mem_univ _) () (O := 0) (W := W) (R := 0) (m := 0) (T := ∅)
      (by rw [hcr]; exact (Nat.zero_add _).trans (expect_yr m c j).symm)) $$ [HO Hc Hat]
  · isplitr; · iapply (rec_inv m K (c, kYr j)); iexact Hrec
    isplitl [Hc]; · rw [hcr]; iexact Hc
    isplitl [HO]; · iexact HO
    isplitr; · rw [MayWait_zero]; iempintro
    iexact Hat
  iintro ⟨HO, Hat, -, Hpay⟩
  ihave Hp := (Entails.of_eq (rest_yr m c j)) $$ Hpay
  iapply Hk
  isplitl [HO]; · iexists (insert (csem (kYr j), ()) W); iexact HO
  isplitl [Htodo]; · iexact Htodo
  isplitl [Hat Hp]
  · unfold x3Done
    isplitl [Hat]; · iexact Hat
    iexact Hp
  iexact Hdone

/-! ## Phase 4: the waits on chunk `j`'s two send cells: the sources come back -/

theorem wp_swait (c : Dev nD) (j : Fin 16) {sXS sYS : DmaSem sig} (hsx : sXS = xsS j) (hsy : sYS = ysS j)
    {s1 d1 s2 d2 : Memref sig .tc .vmem S32x512 .f32} (hcr1 : d1.view.dmaCredit = Nx) (hcr2 : d2.view.dmaCredit = Ny)
    {h1 : s1.view.WordExact} {h2 : d1.view.WordExact} {h3 : s2.view.WordExact} {h4 : d2.view.WordExact}
    {α : Type} {Q : α → sProp 𝕄} {k : PUnit → Prog (TpuEff nD τ sig (Elt F) Λ₀ .tc) α} :
    iprop(records m K ∗ owesE c 0 ∗ S4 m c j.val ∗ ((owesE c 0 ∗ S4 m c (j.val + 1)) -∗ wp frame (wpE (defs₀ (F := F)) 𝒱₀ (c : Thread nD τ) none) Set.univ (k ⟨⟩) Q))
      ⊢ wp frame (wpE (defs₀ (F := F)) 𝒱₀ (c : Thread nD τ) none) Set.univ (.op (.waitDma2 sXS s1 d1 h1 h2) fun _ => .op (.waitDma2 sYS s2 d2 h3 h4) k) Q := by
  subst hsx hsy
  unfold owesE S4
  rw [bigSep_ge_peel (x4Todo c) j, bigSep_lt_peel (x4Done m c) j]
  iintro ⟨#Hrec, HO, ⟨⟨Hj, Htodo⟩, Hdone⟩, Hk⟩
  unfold x4Todo
  icases Hj with ⟨Hat1, Hc1, Hat2, Hc2⟩
  icases HO with ⟨%W, HO⟩
  iapply (Rounds.wp_wait_rest_token 𝒱₀ ER (Rd m) (c : Thread nD τ) none (κ := K (c, kXs j)) (sm := csem (kXs j))
      (wpE_waitDma2_eq 𝒱₀ (c : Thread nD τ) none Set.univ) (Set.mem_univ _) () (O := 0) (W := W) (R := 0) (m := 0) (T := ∅)
      (by rw [hcr1]; exact (Nat.zero_add _).trans (expect_xs m c j).symm)) $$ [HO Hc1 Hat1]
  · isplitr; · iapply (rec_inv m K (c, kXs j)); iexact Hrec
    isplitl [Hc1]; · rw [hcr1]; iexact Hc1
    isplitl [HO]; · iexact HO
    isplitr; · rw [MayWait_zero]; iempintro
    iexact Hat1
  iintro ⟨HO, Hat1, -, Hpay1⟩
  iapply (Rounds.wp_wait_rest_token 𝒱₀ ER (Rd m) (c : Thread nD τ) none (κ := K (c, kYs j)) (sm := csem (kYs j))
      (wpE_waitDma2_eq 𝒱₀ (c : Thread nD τ) none Set.univ) (Set.mem_univ _) () (O := 0) (W := insert (csem (kXs j), ()) W) (R := 0) (m := 0) (T := ∅)
      (by rw [hcr2]; exact (Nat.zero_add _).trans (expect_ys m c j).symm)) $$ [HO Hc2 Hat2]
  · isplitr; · iapply (rec_inv m K (c, kYs j)); iexact Hrec
    isplitl [Hc2]; · rw [hcr2]; iexact Hc2
    isplitl [HO]; · iexact HO
    isplitr; · rw [MayWait_zero]; iempintro
    iexact Hat2
  iintro ⟨HO, Hat2, -, Hpay2⟩
  ihave Hp1 := (Entails.of_eq (rest_xs m c j)) $$ Hpay1
  ihave Hp2 := (Entails.of_eq (rest_ys m c j)) $$ Hpay2
  iapply Hk
  isplitl [HO]; · iexists (insert (csem (kYs j), ()) (insert (csem (kXs j), ()) W)); iexact HO
  isplitl [Htodo]; · iexact Htodo
  isplitl [Hat1 Hp1 Hat2 Hp2]
  · unfold x4Done
    isplitl [Hat1]; · iexact Hat1
    isplitl [Hp1]; · iexact Hp1
    isplitl [Hat2]; · iexact Hat2
    iexact Hp2
  iexact Hdone

/-! ## The 64 own cells close: every one of them is past its only round -/

/-- One cell past its only round closes: the shared record holds its invariant. -/
private theorem close_one (c : Dev nD) (a : Fin 4) (i : Fin 16) :
    iprop(records m K ∗ atPos ER (cellK c (some (a, i))) 1 ∅ 0) ⊢ (|={Set.univ}=> semVal (cellK c (some (a, i))) 0 : sProp 𝕄) := by
  iintro ⟨#Hrec, Hat⟩
  iapply (Rounds.cell_close ER (Rd m) (g := cellK c (some (a, i))) (κ := K (c, some (a, i))) (Set.mem_univ _) (fun h => h) (R := 0 + 1) (duties_later m _))
  isplitr; · iapply (rec_inv m K (c, some (a, i))); iexact Hrec
  iexact Hat

/-- One family of sixteen cells closes under one update: the shared record serves every cell of the family. -/
private theorem close_fam (c : Dev nD) (a : Fin 4) :
    iprop(records m K ∗ bigSep Finset.univ fun i : Fin 16 => atPos ER (cellK c (some (a, i))) 1 ∅ 0)
      ⊢ (|={Set.univ}=> bigSep Finset.univ fun i : Fin 16 => semVal (cellK c (some (a, i))) 0 : sProp 𝕄) :=
  ((sep_mono_left (BI.bigSep_of_persistent (Finset.univ : Finset (Fin 16)) (records m K))).trans
    (by rw [← bigSep_sep']; exact bigSep_mono fun i _ => close_one m K c a i)).trans (bigSep_fupd _ _)

/-- The 64 transfer cells, family by family. -/
private theorem cells_split (Φ : Fin 4 × Fin 16 → sProp 𝕄) :
    bigSep Finset.univ Φ
      = iprop((bigSep Finset.univ fun i : Fin 16 => Φ (0, i)) ∗ (bigSep Finset.univ fun i : Fin 16 => Φ (1, i))
          ∗ (bigSep Finset.univ fun i : Fin 16 => Φ (2, i)) ∗ bigSep Finset.univ fun i : Fin 16 => Φ (3, i)) := by
  rw [bigSep_univ_prod, bigSep_univ_eq_bigSepL [(0 : Fin 4), 1, 2, 3] (by decide) (by decide), bigSepL_cons_cons, bigSepL_cons_cons,
    bigSepL_cons_cons, bigSepL_singleton]
  rfl

theorem close_cells (c : Dev nD) :
    iprop(records m K
        ∗ (bigSep Finset.univ fun i : Fin 16 => atPos ER (cellK c (kXs i)) 1 ∅ 0) ∗ (bigSep Finset.univ fun i : Fin 16 => atPos ER (cellK c (kXr i)) 1 ∅ 0)
        ∗ (bigSep Finset.univ fun i : Fin 16 => atPos ER (cellK c (kYs i)) 1 ∅ 0) ∗ (bigSep Finset.univ fun i : Fin 16 => atPos ER (cellK c (kYr i)) 1 ∅ 0))
      ⊢ (|={Set.univ}=> bigSep Finset.univ fun aj : Fin 4 × Fin 16 => semVal (cellK c (some aj)) 0 : sProp 𝕄) := by
  rw [cells_split]
  iintro ⟨#Hrec, H0, H1, H2, H3⟩
  imod (close_fam m K c 0) $$ [H0] with H0
  · isplitr; · iexact Hrec
    iexact H0
  imod (close_fam m K c 1) $$ [H1] with H1
  · isplitr; · iexact Hrec
    iexact H1
  imod (close_fam m K c 2) $$ [H2] with H2
  · isplitr; · iexact Hrec
    iexact H2
  imod (close_fam m K c 3) $$ [H3] with H3
  · isplitr; · iexact Hrec
    iexact H3
  imodintro
  isplitl [H0]; · iexact H0
  isplitl [H1]; · iexact H1
  isplitl [H2]; · iexact H2
  iexact H3

end Cert.Kernel.Coll
end
-- ==== Proof.K.Glue.lean ====
import proofs.«900323_g7700000000000324_dist_rsx_agy_m512_n512_v7x_xy2x2_f32_1_alg».proof.Proof.K.Tables
import proofs.«900323_g7700000000000324_dist_rsx_agy_m512_n512_v7x_xy2x2_f32_1_alg».proof.Proof.K.Regions

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-! ## Entry: the three buffers cut into chunks -/

/-- The landing buffer, the block of `x` (in two half shares) and the result buffer (its own and its y-peer's column block),
    chunk by chunk. -/
theorem entry_split (c : Dev nD) (fc : Buf (Elt F) (cLoc c)) (fo : Buf (Elt F) (oLoc c)) :
    iprop((cLoc c ↦{fullShare} fc) ∗ (xLoc c ↦{fullShare} xA m c) ∗ (oLoc c ↦{fullShare} fo))
      ⊢ (iprop((bigSep Finset.univ fun j : Fin 16 => iprop(∃ f, cLoc c ↦[cSet c j]{fullShare} f))
          ∗ (bigSep Finset.univ fun j : Fin 16 => xLoc c ↦[xSet c j]{half} xA m c) ∗ (bigSep Finset.univ fun j : Fin 16 => xLoc c ↦[xSet c j]{half'} xA m c)
          ∗ (bigSep Finset.univ fun j : Fin 16 => iprop(∃ f, oLoc c ↦[oSet c (col c) j]{fullShare} f))
          ∗ (bigSep Finset.univ fun j : Fin 16 => iprop(∃ f, oLoc c ↦[oSet c (col (yp c)) j]{fullShare} f))) : sProp 𝕄) := by
  have hcol : ∀ c : Dev nD, (col c = 0 ∧ col (yp c) = 1) ∨ (col c = 1 ∧ col (yp c) = 0) := by decide
  have hC : (bigSep Finset.univ fun j : Fin 16 => (cLoc c ↦[cSet c j]{fullShare} fc : sProp 𝕄))
      ⊢ bigSep Finset.univ fun j : Fin 16 => iprop(∃ f, cLoc c ↦[cSet c j]{fullShare} f) :=
    bigSep_mono fun j _ => show (cLoc c ↦[cSet c j]{fullShare} fc : sProp 𝕄) ⊢ iprop(∃ f, cLoc c ↦[cSet c j]{fullShare} f) by
      iintro H; iexists fc; iexact H
  have hX : (bigSep Finset.univ fun j : Fin 16 => (xLoc c ↦[xSet c j]{fullShare} xA m c : sProp 𝕄))
      ⊢ iprop((bigSep Finset.univ fun j : Fin 16 => xLoc c ↦[xSet c j]{half} xA m c)
          ∗ (bigSep Finset.univ fun j : Fin 16 => xLoc c ↦[xSet c j]{half'} xA m c)) := by
    rw [← bigSep_sep']
    exact bigSep_mono fun j _ => (pointsTo_share (PosShare.mem_left_op_right fullShare)).1
  have hO : ∀ b : Fin 2, (bigSep Finset.univ fun j : Fin 16 => (oLoc c ↦[oSet c b j]{fullShare} fo : sProp 𝕄))
      ⊢ bigSep Finset.univ fun j : Fin 16 => iprop(∃ f, oLoc c ↦[oSet c b j]{fullShare} f) :=
    fun b => bigSep_mono fun j _ => show (oLoc c ↦[oSet c b j]{fullShare} fo : sProp 𝕄) ⊢ iprop(∃ f, oLoc c ↦[oSet c b j]{fullShare} f) by
      iintro H; iexists fo; iexact H
  rw [C_split c fc, X_split c fullShare (xA m c), O_split c fo]
  iintro ⟨HC, HX, HO0, HO1⟩
  ihave HC := hC $$ HC
  ihave HX := hX $$ HX
  icases HX with ⟨HX1, HX2⟩
  ihave HO0 := hO 0 $$ HO0
  ihave HO1 := hO 1 $$ HO1
  rcases hcol c with ⟨h0, h1⟩ | ⟨h0, h1⟩ <;> rw [h0, h1] <;> iframe

omit [FloatOps F] in
/-- A device's positions, family by family. -/
theorem positions_split (c : Dev nD) :
    (positions c : sProp 𝕄) ⊢ iprop(atPos ER (cellK c kBar) 0 ∅ 0
      ∗ (bigSep Finset.univ fun j : Fin 16 => atPos ER (cellK c (kXs j)) 0 ∅ 0) ∗ (bigSep Finset.univ fun j : Fin 16 => atPos ER (cellK c (kXr j)) 0 ∅ 0)
      ∗ (bigSep Finset.univ fun j : Fin 16 => atPos ER (cellK c (kYs j)) 0 ∅ 0) ∗ (bigSep Finset.univ fun j : Fin 16 => atPos ER (cellK c (kYr j)) 0 ∅ 0)) := by
  have hU : (Finset.univ : Finset CK) = insert none ((Finset.univ : Finset (Fin 4 × Fin 16)).map Function.Embedding.some) := by
    ext k; cases k <;> simp
  have hn : (none : CK) ∉ (Finset.univ : Finset (Fin 4 × Fin 16)).map Function.Embedding.some := by simp
  unfold positions
  rw [hU, bigSep_insert hn, BI.bigSep_map, bigSep_univ_prod, bigSep_univ_eq_bigSepL [0, 1, 2, 3] (by decide) (by decide),
    bigSepL_cons_cons, bigSepL_cons_cons, bigSepL_cons_cons, bigSepL_singleton]
  exact .refl

omit [FloatOps F] in
/-- The tokens it pays with: the two barrier duties, the pairs along x, the pairs along y. -/
theorem payToks_split (c : Dev nD) :
    (payToks c : sProp 𝕄) ⊢ iprop(dutyTok ER (cellK (xp c) kBar) 0 false ∗ dutyTok ER (cellK (yp c) kBar) 0 true
      ∗ (bigSep Finset.univ fun j : Fin 16 => iprop(dutyTok ER (cellK c (kXs j)) 0 false ∗ dutyTok ER (cellK (xp c) (kXr j)) 0 false))
      ∗ (bigSep Finset.univ fun j : Fin 16 => iprop(dutyTok ER (cellK c (kYs j)) 0 false ∗ dutyTok ER (cellK (yp c) (kYr j)) 0 false))) := by
  unfold payToks
  simp only [bigSep_sep']
  iintro ⟨H1, H2, H3, H4, H5, H6⟩
  iframe

/-! ## Into and out of the phases -/

theorem S1_intro (c : Dev nD) :
    iprop((bigSep Finset.univ fun j : Fin 16 => iprop(dutyTok ER (cellK c (kXs j)) 0 false ∗ dutyTok ER (cellK (xp c) (kXr j)) 0 false))
        ∗ (bigSep Finset.univ fun j : Fin 16 => xLoc c ↦[xSet c j]{half} xA m c) ∗ barPayX c) ⊢ S1 m c 0 := by
  delta S1 x1Todo x1Done barPayX
  rw [ge_zero, lt_zero, bigSep_empty]
  simp only [bigSep_sep']
  iintro ⟨⟨H1, H2⟩, H3, H4⟩
  iframe; iempintro

omit [FloatOps F] in
theorem S1_elim (c : Dev nD) : S1 m c 16 ⊢ ((bigSep Finset.univ fun j : Fin 16 => cred (tallyAt (cellK c (kXs j)) () Nx)) : sProp 𝕄) := by
  delta S1 x1Todo x1Done
  rw [ge_sixteen, lt_sixteen, bigSep_empty]
  iintro ⟨-, H⟩
  iexact H

theorem S2_intro (c : Dev nD) :
    iprop((bigSep Finset.univ fun j : Fin 16 => atPos ER (cellK c (kXr j)) 0 ∅ 0) ∗ (bigSep Finset.univ fun j : Fin 16 => cred (tallyAt (cellK c (kXr j)) () Nx))
        ∗ (bigSep Finset.univ fun j : Fin 16 => xLoc c ↦[xSet c j]{half'} xA m c) ∗ (bigSep Finset.univ fun j : Fin 16 => iprop(∃ f, oLoc c ↦[oSet c (col c) j]{fullShare} f))
        ∗ (bigSep Finset.univ fun j : Fin 16 => iprop(dutyTok ER (cellK c (kYs j)) 0 false ∗ dutyTok ER (cellK (yp c) (kYr j)) 0 false)) ∗ barPayY c)
      ⊢ S2 m c 0 := by
  delta S2 x2Todo x2Done barPayY
  rw [ge_zero, lt_zero, bigSep_empty]
  simp only [bigSep_sep']
  iintro ⟨H1, H2, H3, H4, ⟨H5, H6⟩, H7⟩
  iframe; iempintro

theorem S2_elim (c : Dev nD) :
    S2 m c 16 ⊢ iprop((bigSep Finset.univ fun j : Fin 16 => atPos ER (cellK c (kXr j)) 1 ∅ 0) ∗ (bigSep Finset.univ fun j : Fin 16 => xLoc c ↦[xSet c j]{half'} xA m c)
      ∗ (bigSep Finset.univ fun j : Fin 16 => cLoc c ↦[cSet c j]{fullShare} commG m c) ∗ (bigSep Finset.univ fun j : Fin 16 => cred (tallyAt (cellK c (kYs j)) () Ny))) := by
  delta S2 x2Todo x2Done
  rw [ge_sixteen, lt_sixteen, bigSep_empty]
  simp only [bigSep_sep']
  iintro ⟨-, H1, H2, H3, H4⟩
  iframe

theorem S3_intro (c : Dev nD) :
    iprop((bigSep Finset.univ fun j : Fin 16 => atPos ER (cellK c (kYr j)) 0 ∅ 0) ∗ (bigSep Finset.univ fun j : Fin 16 => cred (tallyAt (cellK c (kYr j)) () Ny))) ⊢ S3 m c 0 := by
  delta S3 x3Todo x3Done
  rw [ge_zero, lt_zero, bigSep_empty]
  simp only [bigSep_sep']
  iintro ⟨H1, H2⟩
  iframe; iempintro

theorem S3_elim (c : Dev nD) : S3 m c 16 ⊢ iprop((bigSep Finset.univ fun j : Fin 16 => atPos ER (cellK c (kYr j)) 1 ∅ 0) ∗ (bigSep Finset.univ fun j : Fin 16 => yrPay m c j)) := by
  delta S3 x3Todo x3Done
  rw [ge_sixteen, lt_sixteen, bigSep_empty]
  simp only [bigSep_sep']
  iintro ⟨-, H1, H2⟩
  iframe

theorem S4_intro (c : Dev nD) :
    iprop((bigSep Finset.univ fun j : Fin 16 => atPos ER (cellK c (kXs j)) 0 ∅ 0) ∗ (bigSep Finset.univ fun j : Fin 16 => cred (tallyAt (cellK c (kXs j)) () Nx))
        ∗ (bigSep Finset.univ fun j : Fin 16 => atPos ER (cellK c (kYs j)) 0 ∅ 0) ∗ (bigSep Finset.univ fun j : Fin 16 => cred (tallyAt (cellK c (kYs j)) () Ny))) ⊢ S4 m c 0 := by
  delta S4 x4Todo x4Done
  rw [ge_zero, lt_zero, bigSep_empty]
  simp only [bigSep_sep']
  iintro ⟨H1, H2, H3, H4⟩
  iframe; iempintro

theorem S4_elim (c : Dev nD) :
    S4 m c 16 ⊢ iprop((bigSep Finset.univ fun j : Fin 16 => atPos ER (cellK c (kXs j)) 1 ∅ 0) ∗ (bigSep Finset.univ fun j : Fin 16 => xsPay m c j)
      ∗ (bigSep Finset.univ fun j : Fin 16 => atPos ER (cellK c (kYs j)) 1 ∅ 0) ∗ (bigSep Finset.univ fun j : Fin 16 => ysPay m c j)) := by
  delta S4 x4Todo x4Done
  rw [ge_sixteen, lt_sixteen, bigSep_empty]
  simp only [bigSep_sep']
  iintro ⟨-, H1, H2, H3, H4⟩
  iframe

/-! ## Exit: the chunks joined back into the three buffers -/

theorem exit_join (c : Dev nD) :
    iprop((bigSep Finset.univ fun j : Fin 16 => xsPay m c j) ∗ (bigSep Finset.univ fun j : Fin 16 => xLoc c ↦[xSet c j]{half'} xA m c) ∗ (bigSep Finset.univ fun j : Fin 16 => cLoc c ↦[cSet c j]{fullShare} commG m c)
        ∗ (bigSep Finset.univ fun j : Fin 16 => ysPay m c j) ∗ (bigSep Finset.univ fun j : Fin 16 => yrPay m c j))
      ⊢ iprop((xLoc c ↦{fullShare} xA m c) ∗ (cLoc c ↦{fullShare} commG m c) ∗ (oLoc c ↦{fullShare} outG m c)) := by
  have hcol : ∀ c : Dev nD, (col c = 0 ∧ col (yp c) = 1) ∨ (col c = 1 ∧ col (yp c) = 0) := by decide
  have hX : iprop((bigSep Finset.univ fun j : Fin 16 => xLoc c ↦[xSet c j]{half} xA m c)
        ∗ (bigSep Finset.univ fun j : Fin 16 => xLoc c ↦[xSet c j]{half'} xA m c))
      ⊢ (bigSep Finset.univ fun j : Fin 16 => (xLoc c ↦[xSet c j]{fullShare} xA m c : sProp 𝕄)) := by
    rw [← bigSep_sep']
    exact bigSep_mono fun j _ => (pointsTo_share (PosShare.mem_left_op_right fullShare)).2
  rw [C_split c (commG m c), X_split c fullShare (xA m c), O_split c (outG m c)]
  unfold xsPay ysPay yrPay
  iintro ⟨H1, H2, H3, H4, H5⟩
  isplitl [H1 H2]
  · iapply hX; iframe
  rcases hcol c with ⟨h0, h1⟩ | ⟨h0, h1⟩ <;> rw [h0, h1] <;> iframe

end Cert.Kernel.Coll
end
-- ==== Proof.K.Body.lean ====
import proofs.«900323_g7700000000000324_dist_rsx_agy_m512_n512_v7x_xy2x2_f32_1_alg».proof.Proof.K.StepsA
import proofs.«900323_g7700000000000324_dist_rsx_agy_m512_n512_v7x_xy2x2_f32_1_alg».proof.Proof.K.StepsB
import proofs.«900323_g7700000000000324_dist_rsx_agy_m512_n512_v7x_xy2x2_f32_1_alg».proof.Proof.K.StepsC
import proofs.«900323_g7700000000000324_dist_rsx_agy_m512_n512_v7x_xy2x2_f32_1_alg».proof.Proof.K.Glue

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (K : Dev nD × CK → ℕ)

/-! ## The body of the kernel on one device, at a symbolic device `c`

The entry handshake (a signal to each peer's barrier, a wait for both), the sixteen sends of row chunks along x, then
chunk by chunk the wait for the x-peer's rows, the sum, its store and its send along y, the sixteen waits for the y-peer's
column block, and the waits on the send cells; the three buffers are cut into chunks at entry and joined again at exit. -/

def bodyPre (c : Dev nD) : sProp 𝕄 :=
  iprop((ghost m K c ∗ creds c ∗ levAts L lv ∗ ∃ f, cLoc c ↦{fullShare} f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xA m c) ∗ stg c cc0_stg1_0 (outG m c))

theorem fetch_0 (t : Fin cfg0.N) : (cfg0.win (0 : Fin 2)).fetch t = true := by rw [fin_N t]; rfl

omit [FloatOps F] in
theorem owesE_intro (c : Dev nD) (O : CellTallies nD τ sig Unit) (W : Waits sig Unit) : (owes (c : Thread nD τ) O W : sProp 𝕄) ⊢ owesE c O := by
  unfold owesE; iintro H; iexists W; iexact H
omit [FloatOps F] in
/-- Once all sixteen sends along x are issued only the credit along y is owed; once those are issued, nothing. -/
theorem owes_after_x (c : Dev nD) : (owesE c (OY c 0 + OX c 16) : sProp 𝕄) ⊢ owesE c (OY c 0) := by rw [OX_sixteen, add_zero]
omit [FloatOps F] in
theorem owes_after_y (c : Dev nD) : (owesE c (OY c 16) : sProp 𝕄) ⊢ owesE c 0 := by rw [OY_sixteen]

omit [FloatOps F] in
theorem owesE_cast (c : Dev nD) {O O' : CellTallies nD τ sig Unit} (h : O = O') : (owesE c O : sProp 𝕄) ⊢ owesE c O' := by subst h; exact .rfl
theorem S1_cast (c : Dev nD) {a b : ℕ} (h : a = b) : S1 m c a ⊢ S1 m c b := by subst h; exact .rfl
theorem S2_cast (c : Dev nD) {a b : ℕ} (h : a = b) : S2 m c a ⊢ S2 m c b := by subst h; exact .rfl
theorem S3_cast (c : Dev nD) {a b : ℕ} (h : a = b) : S3 m c a ⊢ S3 m c b := by subst h; exact .rfl
theorem S4_cast (c : Dev nD) {a b : ℕ} (h : a = b) : S4 m c a ⊢ S4 m c b := by subst h; exact .rfl
theorem last_succ : ((15 : Fin 16).val + 1) = 16 := rfl

/-- A chunk of the result buffer at an offset given as a term. -/
abbrev oSl (off : Fin 2 → ℕ) (inb : ∀ a, off a + S32x512.size a ≤ S512x1024.size a) : Memref sig .tc .vmem S32x512 .f32 :=
  OM.slice (Rect.unit (s := S512x1024) off S32x512.size inb) (fun _ => rfl)
theorem oSl_eq (c : Dev nD) (j : Fin 16) (off : Fin 2 → ℕ) (h : off = ![32 * j.val, 512 * (col c).val])
    (inb : ∀ a, off a + S32x512.size a ≤ S512x1024.size a) : oSl off inb = oblk (col c) j := by subst h; rfl

set_option hygiene false in
macro "stepS" t:pmTerm : tactic => `(tactic| (iapply $t; isplitr; iexact Hrec; isplitl [HO]; iexact HO; isplitl [HS]; iexact HS; iintro ⟨HO, HS⟩))
set_option hygiene false in
macro "stepL" t:pmTerm : tactic => `(tactic| (iapply $t; isplitr; iexact Hrec; isplitr; iexact Hlev; isplitl [HO]; iexact HO; isplitl [HS]; iexact HS; iintro ⟨HO, HS⟩))

set_option maxRecDepth 65536 in
set_option maxHeartbeats 16000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) cc0_scratch1 cc0_scratch2 cc0_scratch3 cc0_scratch4) Kt := by
  simp only [cc0_body_eq_skeleton]; unfold cc0_body_skel
  simp only [k0_part31_eq_skeleton]; unfold k0_part31_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel k0_part27_skel k0_part28_skel k0_part29_skel k0_part30_skel
  simp only [semSignalWord, semWaitWord, Prog.lift, Prog.bind_op, Prog.bind_ret, Prog.pure_eq_ret, wp_deviceId]
  unfold bodyPre ghost
  iintro ⟨⟨⟨⟨#Hrec, Hpos, Htok⟩, Hcr, #Hlev, ⟨%fc, Hc⟩⟩, Ho, ⟨%d0, %g0, %hg0, Hx⟩, ⟨%d1, %g1, %hg1, Hout⟩⟩, Hk⟩
  have hx : g0 = xA m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  ihave HO := (owesE_intro c (O₀ c) W) $$ HO
  -- the buffers cut into chunks, the ghost state family by family
  ihave Hsp := (entry_split m c fc g1) $$ [Hc Hx Hout]
  · isplitl [Hc]; iexact Hc
    isplitl [Hx]; iexact Hx
    iexact Hout
  icases Hsp with ⟨HcP, HxH, HxH', HoK, HoG⟩
  ihave Hp := (positions_split (F := F) c) $$ Hpos
  icases Hp with ⟨HpB, HpXs, HpXr, HpYs, HpYr⟩
  ihave Ht := (payToks_split (F := F) c) $$ Htok
  icases Ht with ⟨HtBx, HtBy, HtX, HtY⟩
  unfold creds
  icases Hcr with ⟨HcB, HcXr, HcYr⟩
  -- the entry handshake
  iapply (wp_sig_x m K c _ (Fin.ext (k0_dev1_eq c)) (by decide) rfl)
  isplitr; iexact Hrec
  isplitl [HO]; iexact HO
  isplitl [HtBx]; iexact HtBx
  isplitl [HcP]; iexact HcP
  iintro HO
  iapply (wp_sig_y m K c _ (Fin.ext (k0_dev2_eq c)) (by decide) rfl)
  isplitr; iexact Hrec
  isplitl [HO]; iexact HO
  isplitl [HtBy]; iexact HtBy
  isplitl [HoG]; iexact HoG
  iintro HO
  iapply (wp_bar_wait m K c (by decide) rfl)
  isplitr; iexact Hrec
  isplitr; iexact Hlev
  isplitl [HO]; iexact HO
  isplitl [HcB]; iexact HcB
  isplitl [HpB]; iexact HpB
  iintro ⟨HO, HpB, HbX, HbY⟩
  -- phase 1: the sixteen sends along x
  ihave HS := (S1_intro m c) $$ [HtX HxH HbX]
  · isplitl [HtX]; iexact HtX
    isplitl [HxH]; iexact HxH
    iexact HbX
  stepS (wp_xsend m K c 0 _ (Fin.ext (k0_dev3_eq c)) rfl rfl rfl rfl)
  stepS (wp_xsend m K c 1 _ (Fin.ext (k0_dev4_eq c)) rfl rfl rfl rfl)
  stepS (wp_xsend m K c 2 _ (Fin.ext (k0_dev5_eq c)) rfl rfl rfl rfl)
  stepS (wp_xsend m K c 3 _ (Fin.ext (k0_dev6_eq c)) rfl rfl rfl rfl)
  stepS (wp_xsend m K c 4 _ (Fin.ext (k0_dev7_eq c)) rfl rfl rfl rfl)
  stepS (wp_xsend m K c 5 _ (Fin.ext (k0_dev8_eq c)) rfl rfl rfl rfl)
  stepS (wp_xsend m K c 6 _ (Fin.ext (k0_dev9_eq c)) rfl rfl rfl rfl)
  stepS (wp_xsend m K c 7 _ (Fin.ext (k0_dev10_eq c)) rfl rfl rfl rfl)
  stepS (wp_xsend m K c 8 _ (Fin.ext (k0_dev11_eq c)) rfl rfl rfl rfl)
  stepS (wp_xsend m K c 9 _ (Fin.ext (k0_dev12_eq c)) rfl rfl rfl rfl)
  stepS (wp_xsend m K c 10 _ (Fin.ext (k0_dev13_eq c)) rfl rfl rfl rfl)
  stepS (wp_xsend m K c 11 _ (Fin.ext (k0_dev14_eq c)) rfl rfl rfl rfl)
  stepS (wp_xsend m K c 12 _ (Fin.ext (k0_dev15_eq c)) rfl rfl rfl rfl)
  stepS (wp_xsend m K c 13 _ (Fin.ext (k0_dev16_eq c)) rfl rfl rfl rfl)
  stepS (wp_xsend m K c 14 _ (Fin.ext (k0_dev17_eq c)) rfl rfl rfl rfl)
  stepS (wp_xsend m K c 15 _ (Fin.ext (k0_dev18_eq c)) rfl rfl rfl rfl)
  ihave HS := (S1_cast m c last_succ) $$ HS
  ihave Hcs := (S1_elim (F := F) m c) $$ HS
  ihave HO := (owesE_cast (F := F) c (show OY c 0 + OX c ((15 : Fin 16).val + 1) = OY c (0 : Fin 16).val from by
    rw [last_succ, OX_sixteen, add_zero]; rfl)) $$ HO
  -- phase 2: chunk by chunk
  ihave HS := (S2_intro m c) $$ [HpXr HcXr HxH' HoK HtY HbY]
  · isplitl [HpXr]; iexact HpXr
    isplitl [HcXr]; iexact HcXr
    isplitl [HxH']; iexact HxH'
    isplitl [HoK]; iexact HoK
    isplitl [HtY]; iexact HtY
    iexact HbY
  stepL (wp_chunk m K c 0 _ (Fin.ext (k0_dev19_eq c)) rfl rfl (k0_off1_eq c) (k0_off1_eq c) rfl (oSl_eq c 0 _ (k0_off2_eq c) _) (oSl_eq c 0 _ (k0_off2_eq c) _) rfl rfl)
  stepL (wp_chunk m K c 1 _ (Fin.ext (k0_dev20_eq c)) rfl rfl (k0_off3_eq c) (k0_off3_eq c) rfl (oSl_eq c 1 _ (k0_off4_eq c) _) (oSl_eq c 1 _ (k0_off4_eq c) _) rfl rfl)
  stepL (wp_chunk m K c 2 _ (Fin.ext (k0_dev21_eq c)) rfl rfl (k0_off5_eq c) (k0_off5_eq c) rfl (oSl_eq c 2 _ (k0_off6_eq c) _) (oSl_eq c 2 _ (k0_off6_eq c) _) rfl rfl)
  stepL (wp_chunk m K c 3 _ (Fin.ext (k0_dev22_eq c)) rfl rfl (k0_off7_eq c) (k0_off7_eq c) rfl (oSl_eq c 3 _ (k0_off8_eq c) _) (oSl_eq c 3 _ (k0_off8_eq c) _) rfl rfl)
  stepL (wp_chunk m K c 4 _ (Fin.ext (k0_dev23_eq c)) rfl rfl (k0_off9_eq c) (k0_off9_eq c) rfl (oSl_eq c 4 _ (k0_off10_eq c) _) (oSl_eq c 4 _ (k0_off10_eq c) _) rfl rfl)
  stepL (wp_chunk m K c 5 _ (Fin.ext (k0_dev24_eq c)) rfl rfl (k0_off11_eq c) (k0_off11_eq c) rfl (oSl_eq c 5 _ (k0_off12_eq c) _) (oSl_eq c 5 _ (k0_off12_eq c) _) rfl rfl)
  stepL (wp_chunk m K c 6 _ (Fin.ext (k0_dev25_eq c)) rfl rfl (k0_off13_eq c) (k0_off13_eq c) rfl (oSl_eq c 6 _ (k0_off14_eq c) _) (oSl_eq c 6 _ (k0_off14_eq c) _) rfl rfl)
  stepL (wp_chunk m K c 7 _ (Fin.ext (k0_dev26_eq c)) rfl rfl (k0_off15_eq c) (k0_off15_eq c) rfl (oSl_eq c 7 _ (k0_off16_eq c) _) (oSl_eq c 7 _ (k0_off16_eq c) _) rfl rfl)
  stepL (wp_chunk m K c 8 _ (Fin.ext (k0_dev27_eq c)) rfl rfl (k0_off17_eq c) (k0_off17_eq c) rfl (oSl_eq c 8 _ (k0_off18_eq c) _) (oSl_eq c 8 _ (k0_off18_eq c) _) rfl rfl)
  stepL (wp_chunk m K c 9 _ (Fin.ext (k0_dev28_eq c)) rfl rfl (k0_off19_eq c) (k0_off19_eq c) rfl (oSl_eq c 9 _ (k0_off20_eq c) _) (oSl_eq c 9 _ (k0_off20_eq c) _) rfl rfl)
  stepL (wp_chunk m K c 10 _ (Fin.ext (k0_dev29_eq c)) rfl rfl (k0_off21_eq c) (k0_off21_eq c) rfl (oSl_eq c 10 _ (k0_off22_eq c) _) (oSl_eq c 10 _ (k0_off22_eq c) _) rfl rfl)
  stepL (wp_chunk m K c 11 _ (Fin.ext (k0_dev30_eq c)) rfl rfl (k0_off23_eq c) (k0_off23_eq c) rfl (oSl_eq c 11 _ (k0_off24_eq c) _) (oSl_eq c 11 _ (k0_off24_eq c) _) rfl rfl)
  stepL (wp_chunk m K c 12 _ (Fin.ext (k0_dev31_eq c)) rfl rfl (k0_off25_eq c) (k0_off25_eq c) rfl (oSl_eq c 12 _ (k0_off26_eq c) _) (oSl_eq c 12 _ (k0_off26_eq c) _) rfl rfl)
  stepL (wp_chunk m K c 13 _ (Fin.ext (k0_dev32_eq c)) rfl rfl (k0_off27_eq c) (k0_off27_eq c) rfl (oSl_eq c 13 _ (k0_off28_eq c) _) (oSl_eq c 13 _ (k0_off28_eq c) _) rfl rfl)
  stepL (wp_chunk m K c 14 _ (Fin.ext (k0_dev33_eq c)) rfl rfl (k0_off29_eq c) (k0_off29_eq c) rfl (oSl_eq c 14 _ (k0_off30_eq c) _) (oSl_eq c 14 _ (k0_off30_eq c) _) rfl rfl)
  stepL (wp_chunk m K c 15 _ (Fin.ext (k0_dev34_eq c)) rfl rfl (k0_off31_eq c) (k0_off31_eq c) rfl (oSl_eq c 15 _ (k0_off32_eq c) _) (oSl_eq c 15 _ (k0_off32_eq c) _) rfl rfl)
  ihave HS := (S2_cast m c last_succ) $$ HS
  ihave H2 := (S2_elim m c) $$ HS
  icases H2 with ⟨HpXr1, HxH', HcG, HcYs⟩
  ihave HO := (owesE_cast (F := F) c (show OY c ((15 : Fin 16).val + 1) = 0 from by rw [last_succ, OY_sixteen])) $$ HO
  -- phase 3: the y-peer's column block
  ihave HS := (S3_intro m c) $$ [HpYr HcYr]
  · isplitl [HpYr]; iexact HpYr
    iexact HcYr
  stepS (wp_ywait m K c 0 rfl (wdst := oSl (k0_off2 c) (k0_off2_inb c)) rfl)
  stepS (wp_ywait m K c 1 rfl (wdst := oSl (k0_off4 c) (k0_off4_inb c)) rfl)
  stepS (wp_ywait m K c 2 rfl (wdst := oSl (k0_off6 c) (k0_off6_inb c)) rfl)
  stepS (wp_ywait m K c 3 rfl (wdst := oSl (k0_off8 c) (k0_off8_inb c)) rfl)
  stepS (wp_ywait m K c 4 rfl (wdst := oSl (k0_off10 c) (k0_off10_inb c)) rfl)
  stepS (wp_ywait m K c 5 rfl (wdst := oSl (k0_off12 c) (k0_off12_inb c)) rfl)
  stepS (wp_ywait m K c 6 rfl (wdst := oSl (k0_off14 c) (k0_off14_inb c)) rfl)
  stepS (wp_ywait m K c 7 rfl (wdst := oSl (k0_off16 c) (k0_off16_inb c)) rfl)
  stepS (wp_ywait m K c 8 rfl (wdst := oSl (k0_off18 c) (k0_off18_inb c)) rfl)
  stepS (wp_ywait m K c 9 rfl (wdst := oSl (k0_off20 c) (k0_off20_inb c)) rfl)
  stepS (wp_ywait m K c 10 rfl (wdst := oSl (k0_off22 c) (k0_off22_inb c)) rfl)
  stepS (wp_ywait m K c 11 rfl (wdst := oSl (k0_off24 c) (k0_off24_inb c)) rfl)
  stepS (wp_ywait m K c 12 rfl (wdst := oSl (k0_off26 c) (k0_off26_inb c)) rfl)
  stepS (wp_ywait m K c 13 rfl (wdst := oSl (k0_off28 c) (k0_off28_inb c)) rfl)
  stepS (wp_ywait m K c 14 rfl (wdst := oSl (k0_off30 c) (k0_off30_inb c)) rfl)
  stepS (wp_ywait m K c 15 rfl (wdst := oSl (k0_off32 c) (k0_off32_inb c)) rfl)
  ihave HS := (S3_cast m c last_succ) $$ HS
  ihave H3 := (S3_elim m c) $$ HS
  icases H3 with ⟨HpYr1, HyrP⟩
  -- phase 4: the send cells
  ihave HS := (S4_intro m c) $$ [HpXs Hcs HpYs HcYs]
  · isplitl [HpXs]; iexact HpXs
    isplitl [Hcs]; iexact Hcs
    isplitl [HpYs]; iexact HpYs
    iexact HcYs
  stepS (wp_swait m K c 0 rfl rfl (d1 := xsrc 0) (d2 := oSl (k0_off2 c) (k0_off2_inb c)) rfl rfl)
  stepS (wp_swait m K c 1 rfl rfl (d1 := xsrc 1) (d2 := oSl (k0_off4 c) (k0_off4_inb c)) rfl rfl)
  stepS (wp_swait m K c 2 rfl rfl (d1 := xsrc 2) (d2 := oSl (k0_off6 c) (k0_off6_inb c)) rfl rfl)
  stepS (wp_swait m K c 3 rfl rfl (d1 := xsrc 3) (d2 := oSl (k0_off8 c) (k0_off8_inb c)) rfl rfl)
  stepS (wp_swait m K c 4 rfl rfl (d1 := xsrc 4) (d2 := oSl (k0_off10 c) (k0_off10_inb c)) rfl rfl)
  stepS (wp_swait m K c 5 rfl rfl (d1 := xsrc 5) (d2 := oSl (k0_off12 c) (k0_off12_inb c)) rfl rfl)
  stepS (wp_swait m K c 6 rfl rfl (d1 := xsrc 6) (d2 := oSl (k0_off14 c) (k0_off14_inb c)) rfl rfl)
  stepS (wp_swait m K c 7 rfl rfl (d1 := xsrc 7) (d2 := oSl (k0_off16 c) (k0_off16_inb c)) rfl rfl)
  stepS (wp_swait m K c 8 rfl rfl (d1 := xsrc 8) (d2 := oSl (k0_off18 c) (k0_off18_inb c)) rfl rfl)
  stepS (wp_swait m K c 9 rfl rfl (d1 := xsrc 9) (d2 := oSl (k0_off20 c) (k0_off20_inb c)) rfl rfl)
  stepS (wp_swait m K c 10 rfl rfl (d1 := xsrc 10) (d2 := oSl (k0_off22 c) (k0_off22_inb c)) rfl rfl)
  stepS (wp_swait m K c 11 rfl rfl (d1 := xsrc 11) (d2 := oSl (k0_off24 c) (k0_off24_inb c)) rfl rfl)
  stepS (wp_swait m K c 12 rfl rfl (d1 := xsrc 12) (d2 := oSl (k0_off26 c) (k0_off26_inb c)) rfl rfl)
  stepS (wp_swait m K c 13 rfl rfl (d1 := xsrc 13) (d2 := oSl (k0_off28 c) (k0_off28_inb c)) rfl rfl)
  stepS (wp_swait m K c 14 rfl rfl (d1 := xsrc 14) (d2 := oSl (k0_off30 c) (k0_off30_inb c)) rfl rfl)
  stepS (wp_swait m K c 15 rfl rfl (d1 := xsrc 15) (d2 := oSl (k0_off32 c) (k0_off32_inb c)) rfl rfl)
  ihave HS := (S4_cast m c last_succ) $$ HS
  ihave H4 := (S4_elim m c) $$ HS
  icases H4 with ⟨HpXs1, HxsP, HpYs1, HysP⟩
  -- the own cells close; the buffers are whole again
  imod (close_cells m K c) $$ [HpXs1 HpXr1 HpYs1 HpYr1] with Hsem
  · isplitr; iexact Hrec
    isplitl [HpXs1]; iexact HpXs1
    isplitl [HpXr1]; iexact HpXr1
    isplitl [HpYs1]; iexact HpYs1
    iexact HpYr1
  ihave Hj := (exit_join m c) $$ [HxsP HxH' HcG HysP HyrP]
  · isplitl [HxsP]; iexact HxsP
    isplitl [HxH']; iexact HxH'
    isplitl [HcG]; iexact HcG
    isplitl [HysP]; iexact HysP
    iexact HyrP
  icases Hj with ⟨Hx, Hc, Hout⟩
  rw [wp_ret]; imodintro
  iapply Hk
  unfold bodyPost Φ₁ Dat.owesAt Pipeline.owesWithin
  rw [show (dats m 0 c).owed t₀.succ = 0 from rfl]
  isplitl [Hc Hsem]
  · isplitl [Hc]; iexact Hc
    iexact Hsem
  isplitl [HO]
  · unfold owesE
    icases HO with ⟨%W', HO⟩
    iexists W'
    isplitr; · ipureintro; exact fun _ _ => Or.inl trivial
    iexact HO
  isplitl [Hx]
  · iexists _; isplitr; · (ipureintro; rfl)
    iexact Hx
  iexists _; isplitr; · (ipureintro; rfl)
  iexact Hout

omit [FloatOps F] in
theorem bigSep_W (Φ : Fin cfg0.W → sProp 𝕄) : bigSep Finset.univ Φ = iprop(Φ (0 : Fin 2) ∗ Φ (1 : Fin 2)) := bigSep_W0 Φ

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) cc0_scratch1 cc0_scratch2 cc0_scratch3 cc0_scratch4) (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2⟩
      isplitl [H1]; · iexact H1
      isplitl [H2]; · iexact H2
      iexact Hscr
    isplitl [Ho]; · iexact Ho
    isplitl [Hx] <;> iassumption
  · iintro H; iexact H

end Cert.Kernel.Coll
end
-- ==== Proof.K.LaunchFinal.lean ====
import proofs.«900323_g7700000000000324_dist_rsx_agy_m512_n512_v7x_xy2x2_f32_1_alg».proof.Proof.K.Tables
import proofs.«900323_g7700000000000324_dist_rsx_agy_m512_n512_v7x_xy2x2_f32_1_alg».proof.Proof.K.Regions

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ)

/-- The arrays' contents after the run. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

/-- The argument array after the run holds what it held. -/
theorem finalA_x (c : Dev nD) : finalA m c (0 : Fin 2) = m (win0_0.arr.view.loc (c : Thread nD τ)) :=
  (dats (F := F) m 0 c).arrAt_in (0 : Fin 2) rfl _

/-- The result array after the run is the staged result buffer's contents: `outG`. -/
theorem finalA_o (c : Dev nD) : finalA m c (1 : Fin 2) = outG m c := by
  -- the one point writes the window back; its block is the whole array at zero offsets, its payload the staged contents
  have h := (dats (F := F) m 0 c).arrAt_succ (1 : Fin 2) t₀
  rw [if_pos (flush0_1 t₀)] at h
  show (dats (F := F) m 0 c).arrAt (1 : Fin 2) (t₀.val + 1) = outG m c
  rw [h]
  exact Memref.write_access_unit_zero_univ (Elt F) main_v1 (funext fun a => Nat.zero_mul _) _ _ _

end Cert.Kernel.Coll
end
-- ==== Proof.K.Launch.lean ====
import proofs.«900323_g7700000000000324_dist_rsx_agy_m512_n512_v7x_xy2x2_f32_1_alg».proof.Proof.K.Tables
import proofs.«900323_g7700000000000324_dist_rsx_agy_m512_n512_v7x_xy2x2_f32_1_alg».proof.Proof.K.Regions
import proofs.«900323_g7700000000000324_dist_rsx_agy_m512_n512_v7x_xy2x2_f32_1_alg».proof.Proof.K.LaunchFinal

noncomputable section

namespace Cert.Kernel.Coll

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ
variable (m : (ℓ : Loc nD τ sig) → Buf (Elt F) ℓ) (ρ : Dev nD → PrngReg)

/-! ## The launch: the collective's cells funded and allocated for all devices at once, the launch credit dealt,
    and the region run from every device's body obligation -/

/-- A device's own (scoped) semaphores: the 64 DMA semaphores of the four families. -/
abbrev osem : Fin 4 × Fin 16 → SemLoc sig := fun aj => csem (some aj)

theorem ownSemFacts : Pipeline.OwnSemFacts cfg0.spec osem := by decide +kernel

theorem share_eq (c : Dev nD) (w : Fin cfg0.W) : (dats m 0 c).share w = fullShare := by unfold Dat.share; split <;> rfl

omit [FloatOps F] in
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def ringCells : Finset (GSem nD τ sig) := Finset.univ.map ⟨kcell, kcell_injective⟩

/-- The duty tokens minted, per device: its barrier's false and true, and the one duty of each transfer cell. -/
abbrev TK : Type := Bool ⊕ (Fin 4 × Fin 16)
def tokOf (cj : Dev nD × TK) : GSem nD τ sig × ℕ × Bool := match cj.2 with
  | .inl b => (cellK cj.1 kBar, 0, b)
  | .inr aj => (cellK cj.1 (some aj), 0, false)
theorem tokOf_injective : Function.Injective tokOf := by
  rintro ⟨c, j⟩ ⟨c', j'⟩ h
  have h1 : c = c' := by
    have := congrArg (fun x : GSem nD τ sig × ℕ × Bool => x.1.1.1) h
    cases j <;> cases j' <;> exact this
  subst h1
  have : j = j' := by
    cases j with
    | inl b => cases j' with
      | inl b' =>
        have h3 : b = b' := congrArg (fun x : GSem nD τ sig × ℕ × Bool => x.2.2) h
        rw [h3]
      | inr aj' =>
        have h2 : csem none = csem (some aj') := congrArg (fun x : GSem nD τ sig × ℕ × Bool => x.1.2) h
        exact absurd (csem_injective h2) (fun h' => by cases h')
    | inr aj => cases j' with
      | inl b' =>
        have h2 : csem (some aj) = csem none := congrArg (fun x : GSem nD τ sig × ℕ × Bool => x.1.2) h
        exact absurd (csem_injective h2) (fun h' => by cases h')
      | inr aj' =>
        have h2 : csem (some aj) = csem (some aj') := congrArg (fun x : GSem nD τ sig × ℕ × Bool => x.1.2) h
        rw [Option.some.inj (csem_injective h2)]
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device c's own cells. -/
def toks (c : Dev nD) : sProp 𝕄 :=
  iprop((dutyTok ER (cellK c kBar) 0 false ∗ dutyTok ER (cellK c kBar) 0 true)
    ∗ bigSep Finset.univ fun j : Fin 16 => iprop(dutyTok ER (cellK c (kXs j)) 0 false ∗ dutyTok ER (cellK c (kXr j)) 0 false
        ∗ dutyTok ER (cellK c (kYs j)) 0 false ∗ dutyTok ER (cellK c (kYr j)) 0 false))

/-- What the launch element deals device c. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)

/-- What the global step makes of it. -/
def G' (c : Dev nD) : sProp 𝕄 := iprop(∃ K, ghost m K c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_bool (Φ : Bool → sProp 𝕄) : bigSep Finset.univ Φ = iprop(Φ false ∗ Φ true) := bigSep_univ_eq_bigSepL [false, true] (by decide) (by decide) Φ
omit [FloatOps F] in
theorem bigSep_CK (Φ : CK → sProp 𝕄) : bigSep Finset.univ Φ = iprop(Φ none ∗ bigSep Finset.univ fun aj : Fin 4 × Fin 16 => Φ (some aj)) := by
  rw [show (Finset.univ : Finset CK) = insert none (Finset.univ.map Function.Embedding.some) from by
    ext k; cases k <;> simp, bigSep_insert (by simp), bigSep_map]; rfl
omit [FloatOps F] in
theorem bigSep_dma (Φ : Fin 4 × Fin 16 → sProp 𝕄) :
    bigSep Finset.univ Φ = bigSep Finset.univ fun j : Fin 16 => iprop(Φ (0, j) ∗ Φ (1, j) ∗ Φ (2, j) ∗ Φ (3, j)) := by
  rw [bigSep_univ_equiv (Equiv.prodComm (Fin 16) (Fin 4)) Φ, bigSep_univ_prod]
  exact bigSep_congr fun j _ => by rw [bigSep_fin4]; rfl

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [bigSep_univ_sum, bigSep_bool, bigSep_dma]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The 64 transfer semaphores are the kernel's own; -/
theorem ownSems0_eq (c : Dev nD) : (Pipeline.ownSems0 (Ix := Unit) (Name := ℕ) (U := UU) (Lvl := ℕ) (Val := Elt F) (τ := τ) osem c : sProp 𝕄)
    = bigSep Finset.univ fun aj : Fin 4 × Fin 16 => semVal (cellK c (some aj)) 0 := rfl
omit [FloatOps F] in
/-- the barrier semaphore the launch's one unscoped semaphore. -/
theorem unscopedSems0_eq (c : Dev nD) : (unscopedSems0 c : sProp 𝕄) = semVal (cellK c kBar) 0 := by
  unfold unscopedSems0; rw [bigSep_eq_bigSepL_of_eq [SemLoc.reg barS] (by decide +kernel) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (K : Dev nD × CK → ℕ) (c : Dev nD) : iprop(records m K ∗ positions c ∗ payToks c) ⊢ G' m c := by
  unfold G' ghost
  iintro H
  iexists K
  iexact H

omit [FloatOps F] in
/-- The tokens dealt over the mesh: a barrier's false token to the x-peer, its true token to the y-peer, the receive
    tokens along x to the x-peer, along y to the y-peer. -/
theorem toks_around : (bigSep Finset.univ fun c : Dev nD => (toks c : sProp 𝕄)) ⊢ bigSep Finset.univ fun c : Dev nD => payToks c := by
  unfold toks payToks
  simp only [bigSep_sep']
  rw [bigSep_univ_equiv xpE (fun c : Dev nD => (dutyTok ER (cellK c kBar) 0 false : sProp 𝕄)),
    bigSep_univ_equiv ypE (fun c : Dev nD => (dutyTok ER (cellK c kBar) 0 true : sProp 𝕄)),
    bigSep_univ_equiv xpE (fun c : Dev nD => (bigSep Finset.univ fun j : Fin 16 => dutyTok ER (cellK c (kXr j)) 0 false : sProp 𝕄)),
    bigSep_univ_equiv ypE (fun c : Dev nD => (bigSep Finset.univ fun j : Fin 16 => dutyTok ER (cellK c (kYr j)) 0 false : sProp 𝕄))]
  iintro ⟨⟨H1, H2⟩, H3⟩
  isplitl [H1]; · iexact H1
  isplitl [H2]; · iexact H2
  iexact H3

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What the peers owe device c's cells: two units on its barrier, and per chunk the credit of its two receive cells. -/
def TX (c : Dev nD) : CellTallies nD τ sig Unit := ∑ i ∈ ge 0, tallyAt (cellK c (kXr i)) () Nx
def TY (c : Dev nD) : CellTallies nD τ sig Unit := ∑ i ∈ ge 0, tallyAt (cellK c (kYr i)) () Ny
def T₀ (c : Dev nD) : CellTallies nD τ sig Unit := ((TY c + TX c) + tallyAt (cellK c kBar) () 1) + tallyAt (cellK c kBar) () 1

theorem sum_O₀ : (∑ d, O₀ d) = ∑ d, T₀ d := by
  have e1 : (∑ d, OY d 0) = ∑ d, TY d := Equiv.sum_comp ypE TY
  have e2 : (∑ d, OX d 0) = ∑ d, TX d := Equiv.sum_comp xpE TX
  have e3 : (∑ d : Dev nD, (tallyAt (cellK (yp d) kBar) () 1 : CellTallies nD τ sig Unit)) = ∑ d : Dev nD, tallyAt (cellK d kBar) () 1 :=
    Equiv.sum_comp ypE (fun d : Dev nD => (tallyAt (cellK d kBar) () 1 : CellTallies nD τ sig Unit))
  have e4 : (∑ d : Dev nD, (tallyAt (cellK (xp d) kBar) () 1 : CellTallies nD τ sig Unit)) = ∑ d : Dev nD, tallyAt (cellK d kBar) () 1 :=
    Equiv.sum_comp xpE (fun d : Dev nD => (tallyAt (cellK d kBar) () 1 : CellTallies nD τ sig Unit))
  unfold O₀ O₁ T₀
  rw [Finset.sum_add_distrib, Finset.sum_add_distrib, Finset.sum_add_distrib, Finset.sum_add_distrib, Finset.sum_add_distrib,
    Finset.sum_add_distrib, e1, e2, e3, e4]

theorem T₀_own (d : Dev nD) (g : GSem nD τ sig) (h : T₀ d g ≠ 0) : g.1 = (d : Thread nD τ) := by
  by_contra hn
  have hz (k : CK) (n : ℕ) : (tallyAt (cellK d k) () n : CellTallies nD τ sig Unit) g = 0 :=
    tallyAt_ne_cell (fun hg => hn (by rw [hg])) () n
  apply h
  unfold T₀ TX TY
  rw [Pi.add_apply, Pi.add_apply, Pi.add_apply, Finset.sum_apply, Finset.sum_apply, hz,
    Finset.sum_eq_zero (fun i _ => hz (kYr i) Ny), Finset.sum_eq_zero (fun i _ => hz (kXr i) Nx), add_zero, add_zero, add_zero]

omit [FloatOps F] in
theorem creds_intro (c : Dev nD) : (Pipeline.launchCred O₀ c : sProp 𝕄) ⊢ creds c := by
  rw [Pipeline.launchCred_of_sum O₀ T₀ sum_O₀ T₀_own c]
  unfold T₀ TX TY creds
  rw [ge_zero, add_assoc, tallyAt_add]
  refine (cred_add _ _).1.trans ?_
  iintro ⟨H, Hb⟩
  ihave H2 := (cred_add _ _).1 $$ H
  icases H2 with ⟨Hy, Hx⟩
  isplitl [Hb]; · iexact Hb
  isplitl [Hx]
  · iapply (Entails.of_eq (Pipeline.cred_finsetSum Finset.univ fun i : Fin 16 => tallyAt (cellK c (kXr i)) () Nx)); iexact Hx
  · iapply (Entails.of_eq (Pipeline.cred_finsetSum Finset.univ fun i : Fin 16 => tallyAt (cellK c (kYr i)) () Ny)); iexact Hy

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f, Hr⟩⟩
  isplitl [Hs]; · iexact Hs
  iexists f; iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁
  iintro ⟨Hr, Hz⟩
  isplitr; · iempintro
  isplitl [Hz]; · iexact Hz
  iexists (commG m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

set_option maxRecDepth 8000 in
/-- At the compiled 2×2 mesh, from any memory with zero counters: given every device's body obligation, every weakly fair
    execution of @main terminates and every final state has each device's arrays at the proof data's final contents. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (hbody c).loose) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

end Cert.Kernel.Coll
end
-- ==== Proof.lean ====
/- The proof of `Cert.Claim` for the collective on the 2×2 mesh. Every device sends its block of `x` to its peer along x,
   row chunk by row chunk, adds what lands from that peer to its own block, and sends each chunk of the sum to its peer
   along y: so every device ends with both column blocks of the sum of the two leading slices of the whole `x`, which is
   what the reference computes. The five claims follow from the launch theorem (the region runs, given every device's body
   obligation), the body obligation, the equation of the kernel's result with the reference's sum, and the reference's run. -/
import proofs.«900323_g7700000000000324_dist_rsx_agy_m512_n512_v7x_xy2x2_f32_1_alg».proof.Defs
import proofs.«900323_g7700000000000324_dist_rsx_agy_m512_n512_v7x_xy2x2_f32_1_alg».proof.Proof.Gen.Kernel
import proofs.«900323_g7700000000000324_dist_rsx_agy_m512_n512_v7x_xy2x2_f32_1_alg».proof.Proof.Gen.Kernel.Skeleton
import proofs.«900323_g7700000000000324_dist_rsx_agy_m512_n512_v7x_xy2x2_f32_1_alg».proof.Proof.Gen.Kernel.Launch
import proofs.«900323_g7700000000000324_dist_rsx_agy_m512_n512_v7x_xy2x2_f32_1_alg».proof.Proof.Gen.Kernel.Points
import proofs.«900323_g7700000000000324_dist_rsx_agy_m512_n512_v7x_xy2x2_f32_1_alg».proof.Proof.Gen.Kernel.Frame
import proofs.«900323_g7700000000000324_dist_rsx_agy_m512_n512_v7x_xy2x2_f32_1_alg».proof.Proof.Gen.KernelIdeal
import proofs.«900323_g7700000000000324_dist_rsx_agy_m512_n512_v7x_xy2x2_f32_1_alg».proof.Proof.Gen.KernelIdeal.Skeleton
import proofs.«900323_g7700000000000324_dist_rsx_agy_m512_n512_v7x_xy2x2_f32_1_alg».proof.Proof.Gen.KernelIdeal.Launch
import proofs.«900323_g7700000000000324_dist_rsx_agy_m512_n512_v7x_xy2x2_f32_1_alg».proof.Proof.Gen.KernelIdeal.Points
import proofs.«900323_g7700000000000324_dist_rsx_agy_m512_n512_v7x_xy2x2_f32_1_alg».proof.Proof.Gen.KernelIdeal.Frame
import proofs.«900323_g7700000000000324_dist_rsx_agy_m512_n512_v7x_xy2x2_f32_1_alg».proof.Proof.Gen.ReferenceIdeal
import proofs.«900323_g7700000000000324_dist_rsx_agy_m512_n512_v7x_xy2x2_f32_1_alg».proof.Proof.Gen.Pre_finite_inputs_Kernel
import proofs.«900323_g7700000000000324_dist_rsx_agy_m512_n512_v7x_xy2x2_f32_1_alg».proof.Proof.Gen.Pre_finite_inputs_ReferenceIdeal
import proofs.«900323_g7700000000000324_dist_rsx_agy_m512_n512_v7x_xy2x2_f32_1_alg».proof.Proof.Body
import proofs.«900323_g7700000000000324_dist_rsx_agy_m512_n512_v7x_xy2x2_f32_1_alg».proof.Proof.Launch
import proofs.«900323_g7700000000000324_dist_rsx_agy_m512_n512_v7x_xy2x2_f32_1_alg».proof.Proof.Value
import proofs.«900323_g7700000000000324_dist_rsx_agy_m512_n512_v7x_xy2x2_f32_1_alg».proof.Proof.K.Body
import proofs.«900323_g7700000000000324_dist_rsx_agy_m512_n512_v7x_xy2x2_f32_1_alg».proof.Proof.K.Launch
import Idealize.ShloMosaic.Adequacy
import Idealize.ShloMosaic.Init

noncomputable section

namespace Cert.Proof

open Idealize.ShloMosaic Idealize.SL.Sem

/-- `Kernel` runs from any memory with zero counters, and each device's block of `x` ends as it began. -/
theorem frame_Kernel_holds :
    Cert.frame_Kernel (hKernel := Cert.Kernel.Gen.facts) (hPre_finite_inputs_Kernel := Cert.Pre_finite_inputs_Kernel.Gen.facts) :=
  fun m ρ _ => (θ_run _ _ _).mono
    (fun r h c => by
      have h0 := (h c (0 : Fin 2)).trans (Cert.Kernel.Coll.finalA_x m c)
      exact h0)
    (Cert.Kernel.Coll.run_main m ρ (Cert.Kernel.Coll.body_obligation (F := Bits) m))

/-- `KernelIdeal` runs from any memory with zero counters, and each device's block of `x` ends as it began. -/
theorem frame_KernelIdeal_holds :
    Cert.frame_KernelIdeal (hKernelIdeal := Cert.KernelIdeal.Gen.facts) (hPre_finite_inputs_Kernel := Cert.Pre_finite_inputs_Kernel.Gen.facts) :=
  fun m ρ _ => (θ_run _ _ _).mono
    (fun r h c => by
      have h0 := (h c (0 : Fin 2)).trans (Cert.KernelIdeal.Coll.finalA_x m c)
      exact h0)
    (Cert.KernelIdeal.Coll.run_main m ρ (Cert.KernelIdeal.Coll.body_obligation (F := Ideal) m))

/-- The reference runs and its argument ends as it began. -/
theorem frame_ReferenceIdeal_holds :
    Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

/-- Over the extended reals, from memories where each device holds its block of the whole `x`: both programs run, every
    device's result ends at the reference's sum of the two leading slices of `x`, and the arguments of both end as they began. -/
theorem algebraic_holds :
    Cert.algebraic_KernelIdeal_ReferenceIdeal (hKernelIdeal := Cert.KernelIdeal.Gen.facts) (hReferenceIdeal := Cert.ReferenceIdeal.Gen.facts)
      (hPre_finite_inputs_Kernel := Cert.Pre_finite_inputs_Kernel.Gen.facts) :=
  fun m ρ m' ρ' _ hagree =>
    ⟨Cert.ReferenceIdeal.Read.val_main_v0 (m' (((0 : Dev Cert.ReferenceIdeal.nD).tc : Thread Cert.ReferenceIdeal.nD Cert.ReferenceIdeal.τ).loc Cert.ReferenceIdeal.main_arg0)),
      (θ_run _ _ _).mono
        (fun r h c => by
          have h1 := (h c (1 : Fin 2)).trans ((Cert.KernelIdeal.Coll.finalA_o m c).trans (Cert.KernelIdeal.CollValue.outG_eq_reference m m' hagree c))
          have h0 := (h c (0 : Fin 2)).trans (Cert.KernelIdeal.Coll.finalA_x m c)
          exact ⟨h1, h0⟩)
        (Cert.KernelIdeal.Coll.run_main m ρ (Cert.KernelIdeal.Coll.body_obligation (F := Ideal) m)),
      (θ_run Cert.ReferenceIdeal.defs _ _).mono
        (fun r h => ⟨(h 0).1.trans (Cert.ReferenceIdeal.Read.val_main_v0_eq _), (h 0).2⟩)
        (Cert.ReferenceIdeal.Value.run (F := Ideal) m' ρ')⟩

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    frame_Kernel_holds, frame_KernelIdeal_holds, frame_ReferenceIdeal_holds, trivial, algebraic_holds⟩

end Cert.Proof

end
